-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v35)) (v1 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_v36) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v44) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x7x1x900000 : Shape := ⟨4, ![1, 7, 1, 900000]⟩
abbrev S1x1000x1000 : Shape := ⟨3, ![1, 1000, 1000]⟩
abbrev S2x900000 : Shape := ⟨2, ![2, 900000]⟩
abbrev S18x7 : Shape := ⟨2, ![18, 7]⟩
abbrev S18 : Shape := ⟨1, ![18]⟩
abbrev S36x18 : Shape := ⟨2, ![36, 18]⟩
abbrev S36 : Shape := ⟨1, ![36]⟩
abbrev S36x36 : Shape := ⟨2, ![36, 36]⟩
abbrev S1x36 : Shape := ⟨2, ![1, 36]⟩
abbrev S1 : Shape := ⟨1, ![1]⟩
abbrev S_ : Shape := ⟨0, ![]⟩

class Facts : Prop where
  bcast_S_S1x7x1x900000 : S_.BroadcastsInDim S1x7x1x900000 (![] : Fin 0 → Fin S1x7x1x900000.rank)
  reducesTo_S1x7x1x900000_S_d0_1_2_3 : S1x7x1x900000.ReducesTo [0, 1, 2, 3] S_
  h_S_ : 0 < S_.numel
  bcast_S_S1x1000x1000 : S_.BroadcastsInDim S1x1000x1000 (![] : Fin 0 → Fin S1x1000x1000.rank)
  reducesTo_S1x1000x1000_S_d0_1_2 : S1x1000x1000.ReducesTo [0, 1, 2] S_
  bcast_S_S18x7 : S_.BroadcastsInDim S18x7 (![] : Fin 0 → Fin S18x7.rank)
  reducesTo_S18x7_S_d0_1 : S18x7.ReducesTo [0, 1] S_
  bcast_S_S18 : S_.BroadcastsInDim S18 (![] : Fin 0 → Fin S18.rank)
  reducesTo_S18_S_d0 : S18.ReducesTo [0] S_
  bcast_S_S36x18 : S_.BroadcastsInDim S36x18 (![] : Fin 0 → Fin S36x18.rank)
  reducesTo_S36x18_S_d0_1 : S36x18.ReducesTo [0, 1] S_
  bcast_S_S36 : S_.BroadcastsInDim S36 (![] : Fin 0 → Fin S36.rank)
  reducesTo_S36_S_d0 : S36.ReducesTo [0] S_
  bcast_S_S36x36 : S_.BroadcastsInDim S36x36 (![] : Fin 0 → Fin S36x36.rank)
  reducesTo_S36x36_S_d0_1 : S36x36.ReducesTo [0, 1] S_
  bcast_S_S1x36 : S_.BroadcastsInDim S1x36 (![] : Fin 0 → Fin S1x36.rank)
  reducesTo_S1x36_S_d0_1 : S1x36.ReducesTo [0, 1] S_
  bcast_S_S1 : S_.BroadcastsInDim S1 (![] : Fin 0 → Fin S1.rank)
  reducesTo_S1_S_d0 : S1.ReducesTo [0] S_
  bcast_S_S2x900000 : S_.BroadcastsInDim S2x900000 (![] : Fin 0 → Fin S2x900000.rank)
  reducesTo_S2x900000_S_d0_1 : S2x900000.ReducesTo [0, 1] S_

variable [Facts]

def fn_part3 {F : FTy → Type} [FloatOps F] (main_arg2 : IVec S2x900000 32) (main_v48 : IVec S_ 1) (main_v50 : IVec S2x900000 1) : IVec S_ 1 :=
  let main_c_19 : IVec S_ 32 := constantI S_ 32 1000#32
  let main_v51 : IVec S2x900000 32 := broadcastInDim S2x900000 ![] bcast_S_S2x900000 main_c_19
  let main_v52 : IVec S2x900000 1 := cmpi .slt main_arg2 main_v51
  let main_v53 : IVec S2x900000 1 := andi main_v50 main_v52
  let main_c_20 : IVec S_ 1 := constantI S_ 1 1#1
  let main_v54 : IVec S_ 1 := (fun x v => Host.reduce IntOp.andi x v reducesTo_S2x900000_S_d0_1 h_S_) main_v53 main_c_20
  let main_v55 : IVec S_ 1 := andi main_v48 main_v54
  main_v55

def fn_part2 {F : FTy → Type} [FloatOps F] (main_arg2 : IVec S2x900000 32) (main_arg8 : FVec F S36 .f32) (main_arg9 : FVec F S1x36 .f32) (main_arg10 : FVec F S1 .f32) (main_v33 : IVec S_ 1) : IVec S_ 1 :=
  let main_v34 : FVec F S36 .f32 := Host.absf main_arg8
  let main_cst_12 : FVec F S_ .f32 := constant S_ .f32 0x7F800000#32
  let main_v35 : FVec F S36 .f32 := broadcastInDim S36 ![] bcast_S_S36 main_cst_12
  let main_v36 : IVec S36 1 := cmpf .olt main_v34 main_v35
  let main_c_13 : IVec S_ 1 := constantI S_ 1 1#1
  let main_v37 : IVec S_ 1 := (fun x v => Host.reduce IntOp.andi x v reducesTo_S36_S_d0 h_S_) main_v36 main_c_13
  let main_v38 : IVec S_ 1 := andi main_v33 main_v37
  let main_v39 : FVec F S1x36 .f32 := Host.absf main_arg9
  let main_cst_14 : FVec F S_ .f32 := constant S_ .f32 0x7F800000#32
  let main_v40 : FVec F S1x36 .f32 := broadcastInDim S1x36 ![] bcast_S_S1x36 main_cst_14
  let main_v41 : IVec S1x36 1 := cmpf .olt main_v39 main_v40
  let main_c_15 : IVec S_ 1 := constantI S_ 1 1#1
  let main_v42 : IVec S_ 1 := (fun x v => Host.reduce IntOp.andi x v reducesTo_S1x36_S_d0_1 h_S_) main_v41 main_c_15
  let main_v43 : IVec S_ 1 := andi main_v38 main_v42
  let main_v44 : FVec F S1 .f32 := Host.absf main_arg10
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_c_18 : IVec S_ 32 := constantI S_ 32 0#32
  let main_v49 : IVec S2x900000 32 := broadcastInDim S2x900000 ![] bcast_S_S2x900000 main_c_18
  let main_v50 : IVec S2x900000 1 := cmpi .sge main_arg2 main_v49
  fn_part3 (F := F) main_arg2 main_v48 main_v50

def fn_part1 {F : FTy → Type} [FloatOps F] (main_arg2 : IVec S2x900000 32) (main_arg5 : FVec F S36x18 .f32) (main_arg6 : FVec F S36 .f32) (main_arg7 : FVec F S36x36 .f32) (main_arg8 : FVec F S36 .f32) (main_arg9 : FVec F S1x36 .f32) (main_arg10 : FVec F S1 .f32) (main_v13 : IVec S_ 1) (main_v16 : IVec S18 1) : IVec S_ 1 :=
  let main_c_5 : IVec S_ 1 := constantI S_ 1 1#1
  let main_v17 : IVec S_ 1 := (fun x v => Host.reduce IntOp.andi x v reducesTo_S18_S_d0 h_S_) main_v16 main_c_5
  let main_v18 : IVec S_ 1 := andi main_v13 main_v17
  let main_v19 : FVec F S36x18 .f32 := Host.absf main_arg5
  let main_cst_6 : FVec F S_ .f32 := constant S_ .f32 0x7F800000#32
  let main_v20 : FVec F S36x18 .f32 := broadcastInDim S36x18 ![] bcast_S_S36x18 main_cst_6
  let main_v21 : IVec S36x18 1 := cmpf .olt main_v19 main_v20
  let main_c_7 : IVec S_ 1 := constantI S_ 1 1#1
  let main_v22 : IVec S_ 1 := (fun x v => Host.reduce IntOp.andi x v reducesTo_S36x18_S_d0_1 h_S_) main_v21 main_c_7
  let main_v23 : IVec S_ 1 := andi main_v18 main_v22
  let main_v24 : FVec F S36 .f32 := Host.absf main_arg6
  let main_cst_8 : FVec F S_ .f32 := constant S_ .f32 0x7F800000#32
  let main_v25 : FVec F S36 .f32 := broadcastInDim S36 ![] bcast_S_S36 main_cst_8
  let main_v26 : IVec S36 1 := cmpf .olt main_v24 main_v25
  let main_c_9 : IVec S_ 1 := constantI S_ 1 1#1
  let main_v27 : IVec S_ 1 := (fun x v => Host.reduce IntOp.andi x v reducesTo_S36_S_d0 h_S_) main_v26 main_c_9
  let main_v28 : IVec S_ 1 := andi main_v23 main_v27
  let main_v29 : FVec F S36x36 .f32 := Host.absf main_arg7
  let main_cst_10 : FVec F S_ .f32 := constant S_ .f32 0x7F800000#32
  let main_v30 : FVec F S36x36 .f32 := broadcastInDim S36x36 ![] bcast_S_S36x36 main_cst_10
  let main_v31 : IVec S36x36 1 := cmpf .olt main_v29 main_v30
  let main_c_11 : IVec S_ 1 := constantI S_ 1 1#1
  let main_v32 : IVec S_ 1 := (fun x v => Host.reduce IntOp.andi x v reducesTo_S36x36_S_d0_1 h_S_) main_v31 main_c_11
  let main_v33 : IVec S_ 1 := andi main_v28 main_v32
  fn_part2 (F := F) main_arg2 main_arg8 main_arg9 main_arg10 main_v33

def fn {F : FTy → Type} [FloatOps F] (main_arg0 : FVec F S1x7x1x900000 .f32) (main_arg1 : FVec F S1x1000x1000 .f32) (main_arg2 : IVec S2x900000 32) (main_arg3 : FVec F S18x7 .f32) (main_arg4 : FVec F S18 .f32) (main_arg5 : FVec F S36x18 .f32) (main_arg6 : FVec F S36 .f32) (main_arg7 : FVec F S36x36 .f32) (main_arg8 : FVec F S36 .f32) (main_arg9 : FVec F S1x36 .f32) (main_arg10 : FVec F S1 .f32) : IVec S_ 1 :=
  let main_v0 : FVec F S1x7x1x900000 .f32 := Host.absf main_arg0
  let main_cst : FVec F S_ .f32 := constant S_ .f32 0x7F800000#32
  let main_v1 : FVec F S1x7x1x900000 .f32 := broadcastInDim S1x7x1x900000 ![] bcast_S_S1x7x1x900000 main_cst
  let main_v2 : IVec S1x7x1x900000 1 := cmpf .olt main_v0 main_v1
  let main_c : IVec S_ 1 := constantI S_ 1 1#1
  let main_v3 : IVec S_ 1 := (fun x v => Host.reduce IntOp.andi x v reducesTo_S1x7x1x900000_S_d0_1_2_3 h_S_) main_v2 main_c
  let main_v4 : FVec F S1x1000x1000 .f32 := Host.absf main_arg1
  let main_cst_0 : FVec F S_ .f32 := constant S_ .f32 0x7F800000#32
  let main_v5 : FVec F S1x1000x1000 .f32 := broadcastInDim S1x1000x1000 ![] bcast_S_S1x1000x1000 main_cst_0
  let main_v6 : IVec S1x1000x1000 1 := cmpf .olt main_v4 main_v5
  let main_c_1 : IVec S_ 1 := constantI S_ 1 1#1
  let main_v7 : IVec S_ 1 := (fun x v => Host.reduce IntOp.andi x v reducesTo_S1x1000x1000_S_d0_1_2 h_S_) main_v6 main_c_1
  let main_v8 : IVec S_ 1 := andi main_v3 main_v7
  let main_v9 : FVec F S18x7 .f32 := Host.absf main_arg3
  let main_cst_2 : FVec F S_ .f32 := constant S_ .f32 0x7F800000#32
  let main_v10 : FVec F S18x7 .f32 := broadcastInDim S18x7 ![] bcast_S_S18x7 main_cst_2
  let main_v11 : IVec S18x7 1 := cmpf .olt main_v9 main_v10
  let main_c_3 : IVec S_ 1 := constantI S_ 1 1#1
  let main_v12 : IVec S_ 1 := (fun x v => Host.reduce IntOp.andi x v reducesTo_S18x7_S_d0_1 h_S_) main_v11 main_c_3
  let main_v13 : IVec S_ 1 := andi main_v8 main_v12
  let main_v14 : FVec F S18 .f32 := Host.absf main_arg4
  let main_cst_4 : FVec F S_ .f32 := constant S_ .f32 0x7F800000#32
  let main_v15 : FVec F S18 .f32 := broadcastInDim S18 ![] bcast_S_S18 main_cst_4
  let main_v16 : IVec S18 1 := cmpf .olt main_v14 main_v15
  fn_part1 (F := F) main_arg2 main_arg5 main_arg6 main_arg7 main_arg8 main_arg9 main_arg10 main_v13 main_v16
-- ==== Kernel.lean ====
abbrev S1x7x1x900000 : Shape := ⟨4, ![1, 7, 1, 900000]⟩
abbrev S1x1000x1000 : Shape := ⟨3, ![1, 1000, 1000]⟩
abbrev S2x900000 : Shape := ⟨2, ![2, 900000]⟩
abbrev S18x7 : Shape := ⟨2, ![18, 7]⟩
abbrev S18 : Shape := ⟨1, ![18]⟩
abbrev S36x18 : Shape := ⟨2, ![36, 18]⟩
abbrev S36 : Shape := ⟨1, ![36]⟩
abbrev S36x36 : Shape := ⟨2, ![36, 36]⟩
abbrev S1x36 : Shape := ⟨2, ![1, 36]⟩
abbrev S1 : Shape := ⟨1, ![1]⟩
abbrev S7x900000 : Shape := ⟨2, ![7, 900000]⟩
abbrev S18x1 : Shape := ⟨2, ![18, 1]⟩
abbrev S36x1 : Shape := ⟨2, ![36, 1]⟩
abbrev S1x1 : Shape := ⟨2, ![1, 1]⟩
abbrev S1x900000 : Shape := ⟨2, ![1, 900000]⟩
abbrev S7x131072 : Shape := ⟨2, ![7, 131072]⟩
abbrev S1x131072 : Shape := ⟨2, ![1, 131072]⟩
abbrev S18x131072 : Shape := ⟨2, ![18, 131072]⟩
abbrev S36x131072 : Shape := ⟨2, ![36, 131072]⟩
abbrev S900000 : Shape := ⟨1, ![900000]⟩
abbrev S_ : Shape := ⟨0, ![]⟩
abbrev S1000000 : Shape := ⟨1, ![1000000]⟩
abbrev S900000x1 : Shape := ⟨2, ![900000, 1]⟩
abbrev S1000000x1 : Shape := ⟨2, ![1000000, 1]⟩
abbrev S1000x1000 : Shape := ⟨2, ![1000, 1000]⟩
abbrev S1000 : Shape := ⟨1, ![1000]⟩

abbrev nBuf : Space → Nat
  | .hbm => 63
  | .vmem => 12
  | .smem => 0
  | _ => 0

abbrev bufTy : (tb : Table) → Fin (tcTables nBuf tb) → BufTy
  | .hbm, ⟨0, _⟩ => ⟨S1x7x1x900000, .f32⟩
  | .hbm, ⟨1, _⟩ => ⟨S1x1000x1000, .f32⟩
  | .hbm, ⟨2, _⟩ => ⟨S2x900000, .i32⟩
  | .hbm, ⟨3, _⟩ => ⟨S18x7, .f32⟩
  | .hbm, ⟨4, _⟩ => ⟨S18, .f32⟩
  | .hbm, ⟨5, _⟩ => ⟨S36x18, .f32⟩
  | .hbm, ⟨6, _⟩ => ⟨S36, .f32⟩
  | .hbm, ⟨7, _⟩ => ⟨S36x36, .f32⟩
  | .hbm, ⟨8, _⟩ => ⟨S36, .f32⟩
  | .hbm, ⟨9, _⟩ => ⟨S1x36, .f32⟩
  | .hbm, ⟨10, _⟩ => ⟨S1, .f32⟩
  | .hbm, ⟨11, _⟩ => ⟨S7x900000, .f32⟩
  | .hbm, ⟨12, _⟩ => ⟨S18x1, .f32⟩
  | .hbm, ⟨13, _⟩ => ⟨S36x1, .f32⟩
  | .hbm, ⟨14, _⟩ => ⟨S36x1, .f32⟩
  | .hbm, ⟨15, _⟩ => ⟨S1x1, .f32⟩
  | .hbm, ⟨16, _⟩ => ⟨S1x900000, .f32⟩
  | .hbm, ⟨17, _⟩ => ⟨S900000, .f32⟩
  | .hbm, ⟨18, _⟩ => ⟨S1x900000, .i32⟩
  | .hbm, ⟨19, _⟩ => ⟨S900000, .i32⟩
  | .hbm, ⟨20, _⟩ => ⟨S1x900000, .i32⟩
  | .hbm, ⟨21, _⟩ => ⟨S900000, .i32⟩
  | .hbm, ⟨22, _⟩ => ⟨S_, .i32⟩
  | .hbm, ⟨23, _⟩ => ⟨S900000, .i32⟩
  | .hbm, ⟨24, _⟩ => ⟨S900000, .i32⟩
  | .hbm, ⟨25, _⟩ => ⟨S900000, .i32⟩
  | .hbm, ⟨26, _⟩ => ⟨S900000, .i32⟩
  | .hbm, ⟨27, _⟩ => ⟨S_, .i32⟩
  | .hbm, ⟨28, _⟩ => ⟨S1000000, .i32⟩
  | .hbm, ⟨29, _⟩ => ⟨S_, .i32⟩
  | .hbm, ⟨30, _⟩ => ⟨S900000, .i32⟩
  | .hbm, ⟨31, _⟩ => ⟨S900000, .i1⟩
  | .hbm, ⟨32, _⟩ => ⟨S_, .i32⟩
  | .hbm, ⟨33, _⟩ => ⟨S900000, .i32⟩
  | .hbm, ⟨34, _⟩ => ⟨S900000, .i32⟩
  | .hbm, ⟨35, _⟩ => ⟨S900000, .i32⟩
  | .hbm, ⟨36, _⟩ => ⟨S900000x1, .i32⟩
  | .hbm, ⟨37, _⟩ => ⟨S1000000, .i32⟩
  | .hbm, ⟨38, _⟩ => ⟨S_, .i32⟩
  | .hbm, ⟨39, _⟩ => ⟨S1000000, .i32⟩
  | .hbm, ⟨40, _⟩ => ⟨S1000000, .i1⟩
  | .hbm, ⟨41, _⟩ => ⟨S_, .i32⟩
  | .hbm, ⟨42, _⟩ => ⟨S_, .i32⟩
  | .hbm, ⟨43, _⟩ => ⟨S1000000, .i32⟩
  | .hbm, ⟨44, _⟩ => ⟨S1000000, .i32⟩
  | .hbm, ⟨45, _⟩ => ⟨S_, .i32⟩
  | .hbm, ⟨46, _⟩ => ⟨S1000000, .i32⟩
  | .hbm, ⟨47, _⟩ => ⟨S1000000, .i1⟩
  | .hbm, ⟨48, _⟩ => ⟨S_, .i32⟩
  | .hbm, ⟨49, _⟩ => ⟨S1000000, .i32⟩
  | .hbm, ⟨50, _⟩ => ⟨S1000000, .i32⟩
  | .hbm, ⟨51, _⟩ => ⟨S1000000, .i32⟩
  | .hbm, ⟨52, _⟩ => ⟨S1000000x1, .i32⟩
  | .hbm, ⟨53, _⟩ => ⟨S1000000, .f32⟩
  | .hbm, ⟨54, _⟩ => ⟨S_, .f32⟩
  | .hbm, ⟨55, _⟩ => ⟨S_, .f32⟩
  | .hbm, ⟨56, _⟩ => ⟨S1000000, .f32⟩
  | .hbm, ⟨57, _⟩ => ⟨S1000000, .f32⟩
  | .hbm, ⟨58, _⟩ => ⟨S1000x1000, .f32⟩
  | .hbm, ⟨59, _⟩ => ⟨S_, .f32⟩
  | .hbm, ⟨60, _⟩ => ⟨S1000, .f32⟩
  | .hbm, ⟨61, _⟩ => ⟨S_, .f32⟩
  | .hbm, ⟨62, _⟩ => ⟨S1000, .f32⟩
  | .local _ .vmem, ⟨0, _⟩ => ⟨S7x131072, .f32⟩
  | .local _ .vmem, ⟨1, _⟩ => ⟨S7x131072, .f32⟩
  | .local _ .vmem, ⟨2, _⟩ => ⟨S18x7, .f32⟩
  | .local _ .vmem, ⟨3, _⟩ => ⟨S18x1, .f32⟩
  | .local _ .vmem, ⟨4, _⟩ => ⟨S36x18, .f32⟩
  | .local _ .vmem, ⟨5, _⟩ => ⟨S36x1, .f32⟩
  | .local _ .vmem, ⟨6, _⟩ => ⟨S36x36, .f32⟩
  | .local _ .vmem, ⟨7, _⟩ => ⟨S36x1, .f32⟩
  | .local _ .vmem, ⟨8, _⟩ => ⟨S1x36, .f32⟩
  | .local _ .vmem, ⟨9, _⟩ => ⟨S1x1, .f32⟩
  | .local _ .vmem, ⟨10, _⟩ => ⟨S1x131072, .f32⟩
  | .local _ .vmem, ⟨11, _⟩ => ⟨S1x131072, .f32⟩
  | _, _ => ⟨S1x7x1x900000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_0 : Ref sig .tc := ⟨.hbm, 27, rfl⟩
abbrev main_v15 : Ref sig .tc := ⟨.hbm, 28, rfl⟩
abbrev main_c_1 : Ref sig .tc := ⟨.hbm, 29, rfl⟩
abbrev main_v16 : Ref sig .tc := ⟨.hbm, 30, rfl⟩
abbrev main_v17 : Ref sig .tc := ⟨.hbm, 31, rfl⟩
abbrev main_c_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_3 : Ref sig .tc := ⟨.hbm, 38, rfl⟩
abbrev main_v23 : Ref sig .tc := ⟨.hbm, 39, rfl⟩
abbrev main_v24 : Ref sig .tc := ⟨.hbm, 40, rfl⟩
abbrev main_c_4 : Ref sig .tc := ⟨.hbm, 41, rfl⟩
abbrev main_call0_v0 : Ref sig .tc := ⟨.hbm, 42, rfl⟩
abbrev main_call0_v1 : Ref sig .tc := ⟨.hbm, 43, rfl⟩
abbrev main_v25 : Ref sig .tc := ⟨.hbm, 44, rfl⟩
abbrev main_c_5 : Ref sig .tc := ⟨.hbm, 45, rfl⟩
abbrev main_v26 : Ref sig .tc := ⟨.hbm, 46, rfl⟩
abbrev main_v27 : Ref sig .tc := ⟨.hbm, 47, rfl⟩
abbrev main_c_6 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst : Ref sig .tc := ⟨.hbm, 54, rfl⟩
abbrev main_call1_v0 : Ref sig .tc := ⟨.hbm, 55, rfl⟩
abbrev main_call1_v1 : Ref sig .tc := ⟨.hbm, 56, rfl⟩
abbrev main_v33 : Ref sig .tc := ⟨.hbm, 57, rfl⟩
abbrev main_v34 : Ref sig .tc := ⟨.hbm, 58, rfl⟩
abbrev main_cst_7 : Ref sig .tc := ⟨.hbm, 59, rfl⟩
abbrev main_v35 : Ref sig .tc := ⟨.hbm, 60, rfl⟩
abbrev main_cst_8 : Ref sig .tc := ⟨.hbm, 61, rfl⟩
abbrev main_v36 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![7], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S7x131072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S18x7 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S18x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S36x18 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S36x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S36x36 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S36x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x36 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x131072 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S1x7x1x900000_S7x900000 : S1x7x1x900000.ShapeCasts S7x900000
  shapeCasts_S18_S18x1 : S18.ShapeCasts S18x1
  shapeCasts_S36_S36x1 : S36.ShapeCasts S36x1
  shapeCasts_S1_S1x1 : S1.ShapeCasts S1x1
  inb_S7x131072_S7x131072_0_0 : ∀ a, (![0, 0] : Fin 2 → Nat) a + S7x131072.size a ≤ S7x131072.size a
  h_S7x131072 : 0 < S7x131072.numel
  shapeCasts_S7x131072_S7x131072 : S7x131072.ShapeCasts S7x131072
  inb_S18x7_S18x7_0_0 : ∀ a, (![0, 0] : Fin 2 → Nat) a + S18x7.size a ≤ S18x7.size a
  h_S18x7 : 0 < S18x7.numel
  inb_S18x1_S18x1_0_0 : ∀ a, (![0, 0] : Fin 2 → Nat) a + S18x1.size a ≤ S18x1.size a
  h_S18x1 : 0 < S18x1.numel
  shapeCasts_S18x1_S18x1 : S18x1.ShapeCasts S18x1
  broadcasts_S18x1_S18x131072 : S18x1.Broadcasts S18x131072
  inb_S36x18_S36x18_0_0 : ∀ a, (![0, 0] : Fin 2 → Nat) a + S36x18.size a ≤ S36x18.size a
  h_S36x18 : 0 < S36x18.numel
  inb_S36x1_S36x1_0_0 : ∀ a, (![0, 0] : Fin 2 → Nat) a + S36x1.size a ≤ S36x1.size a
  h_S36x1 : 0 < S36x1.numel
  shapeCasts_S36x1_S36x1 : S36x1.ShapeCasts S36x1
  broadcasts_S36x1_S36x131072 : S36x1.Broadcasts S36x131072
  inb_S36x36_S36x36_0_0 : ∀ a, (![0, 0] : Fin 2 → Nat) a + S36x36.size a ≤ S36x36.size a
  h_S36x36 : 0 < S36x36.numel
  inb_S1x36_S1x36_0_0 : ∀ a, (![0, 0] : Fin 2 → Nat) a + S1x36.size a ≤ S1x36.size a
  h_S1x36 : 0 < S1x36.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1x131072 : S1x1.Broadcasts S1x131072
  inb_S1x131072_S1x131072_0_0 : ∀ a, (![0, 0] : Fin 2 → Nat) a + S1x131072.size a ≤ S1x131072.size a
  h_S1x131072 : 0 < S1x131072.numel
  shapeCasts_S1x900000_S900000 : S1x900000.ShapeCasts S900000
  slices_S2x900000_S1x900000_0_0 : S2x900000.Slices ![0, 0] S1x900000
  slices_S2x900000_S1x900000_1_0 : S2x900000.Slices ![1, 0] S1x900000
  bcast_S_S900000 : S_.BroadcastsInDim S900000 (![] : Fin 0 → Fin S900000.rank)
  bcast_S_S1000000 : S_.BroadcastsInDim S1000000 (![] : Fin 0 → Fin S1000000.rank)
  bcast_S900000_S900000x1_0 : S900000.BroadcastsInDim S900000x1 (![0] : Fin 1 → Fin S900000x1.rank)
  bcast_S1000000_S1000000x1_0 : S1000000.BroadcastsInDim S1000000x1 (![0] : Fin 1 → Fin S1000000x1.rank)
  shapeCasts_S1000000_S1000x1000 : S1000000.ShapeCasts S1000x1000
  reducesTo_S1000x1000_S1000_d1 : S1000x1000.ReducesTo [1] S1000
  h_S_ : 0 < S_.numel
  reducesTo_S1000x1000_S1000_d0 : S1000x1000.ReducesTo [0] S1000
  dot_S18x7_S7x131072_S18x131072_1_0_0_1_n_n_wf : DotDims.WF S18x7 S7x131072 S18x131072 [1] [0] [0] [1] [] []
  dot_S36x18_S18x131072_S36x131072_1_0_0_1_n_n_wf : DotDims.WF S36x18 S18x131072 S36x131072 [1] [0] [0] [1] [] []
  dot_S36x36_S36x131072_S36x131072_1_0_0_1_n_n_wf : DotDims.WF S36x36 S36x131072 S36x131072 [1] [0] [0] [1] [] []
  dot_S1x36_S36x131072_S1x131072_1_0_0_1_n_n_wf : DotDims.WF S1x36 S36x131072 S1x131072 [1] [0] [0] [1] [] []
  scatter_S1000000_S900000x1_S900000_n_0_0_1_wf : ScatterDims.WF S1000000 S900000x1 S900000 [] [0] [0] 1
  gather_S900000_S1000000x1_S1000000_n_0_n_n_0_1_1_wf : GatherDims.WF S900000 S1000000x1 S1000000 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S7x131072.size a < S7x900000.size a
  hwx0_0 : ∀ i : grid0.Coords, EltTy.bits .f32 = 32 ∨ (Rect.unit (s := S7x900000) (fun a => cc0_transform_0 i a * S7x131072.size a) (fun a => (Pipeline.Clip.of (cc0_transform_0 i a) (S7x131072.size a) (S7x900000.size a)).extent (S7x131072.size a)) fun a => Pipeline.Clip.inb (Pipeline.Clip.ok_of (hstart0_0 i a))).WholeWords (EltTy.packing .f32)
  hwxs0_0 : ∀ i : grid0.Coords, EltTy.bits .f32 = 32 ∨ (Rect.unit (s := S7x131072) (fun _ => 0) (fun a => (Pipeline.Clip.of (cc0_transform_0 i a) (S7x131072.size a) (S7x900000.size a)).extent (S7x131072.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S18x7.size a ≤ S18x7.size a
  hwx0_1 : ∀ i : grid0.Coords, EltTy.bits .f32 = 32 ∨ (Rect.block (s := S18x7) S18x7.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S18x1.size a ≤ S18x1.size a
  hwx0_2 : ∀ i : grid0.Coords, EltTy.bits .f32 = 32 ∨ (Rect.block (s := S18x1) S18x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S36x18.size a ≤ S36x18.size a
  hwx0_3 : ∀ i : grid0.Coords, EltTy.bits .f32 = 32 ∨ (Rect.block (s := S36x18) S36x18.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S36x1.size a ≤ S36x1.size a
  hwx0_4 : ∀ i : grid0.Coords, EltTy.bits .f32 = 32 ∨ (Rect.block (s := S36x1) S36x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S36x36.size a ≤ S36x36.size a
  hwx0_5 : ∀ i : grid0.Coords, EltTy.bits .f32 = 32 ∨ (Rect.block (s := S36x36) S36x36.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S36x1.size a ≤ S36x1.size a
  hwx0_6 : ∀ i : grid0.Coords, EltTy.bits .f32 = 32 ∨ (Rect.block (s := S36x1) S36x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x36.size a ≤ S1x36.size a
  hwx0_7 : ∀ i : grid0.Coords, EltTy.bits .f32 = 32 ∨ (Rect.block (s := S1x36) S1x36.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hstart0_9 : ∀ (i : grid0.Coords) a, cc0_transform_9 i a * S1x131072.size a < S1x900000.size a
  hwx0_9 : ∀ i : grid0.Coords, EltTy.bits .f32 = 32 ∨ (Rect.unit (s := S1x900000) (fun a => cc0_transform_9 i a * S1x131072.size a) (fun a => (Pipeline.Clip.of (cc0_transform_9 i a) (S1x131072.size a) (S1x900000.size a)).extent (S1x131072.size a)) fun a => Pipeline.Clip.inb (Pipeline.Clip.ok_of (hstart0_9 i a))).WholeWords (EltTy.packing .f32)
  hwxs0_9 : ∀ i : grid0.Coords, EltTy.bits .f32 = 32 ∨ (Rect.unit (s := S1x131072) (fun _ => 0) (fun a => (Pipeline.Clip.of (cc0_transform_9 i a) (S1x131072.size a) (S1x900000.size a)).extent (S1x131072.size a)) fun a => (Nat.zero_add _).trans_le (Pipeline.Clip.extent_le (Pipeline.Clip.ok_of (hstart0_9 i a)))).WholeWords (EltTy.packing .f32)

variable [Facts₀]

def dot_S18x7_S7x131072_S18x131072_1_0_0_1_n_n : DotDims S18x7 S7x131072 S18x131072 where
  lhsContracting := [1]
  rhsContracting := [0]
  lhsNonContracting := [0]
  rhsNonContracting := [1]
  lhsBatch := []
  rhsBatch := []
  wf := dot_S18x7_S7x131072_S18x131072_1_0_0_1_n_n_wf
def dot_S36x18_S18x131072_S36x131072_1_0_0_1_n_n : DotDims S36x18 S18x131072 S36x131072 where
  lhsContracting := [1]
  rhsContracting := [0]
  lhsNonContracting := [0]
  rhsNonContracting := [1]
  lhsBatch := []
  rhsBatch := []
  wf := dot_S36x18_S18x131072_S36x131072_1_0_0_1_n_n_wf
def dot_S36x36_S36x131072_S36x131072_1_0_0_1_n_n : DotDims S36x36 S36x131072 S36x131072 where
  lhsContracting := [1]
  rhsContracting := [0]
  lhsNonContracting := [0]
  rhsNonContracting := [1]
  lhsBatch := []
  rhsBatch := []
  wf := dot_S36x36_S36x131072_S36x131072_1_0_0_1_n_n_wf
def dot_S1x36_S36x131072_S1x131072_1_0_0_1_n_n : DotDims S1x36 S36x131072 S1x131072 where
  lhsContracting := [1]
  rhsContracting := [0]
  lhsNonContracting := [0]
  rhsNonContracting := [1]
  lhsBatch := []
  rhsBatch := []
  wf := dot_S1x36_S36x131072_S1x131072_1_0_0_1_n_n_wf
def scatter_S1000000_S900000x1_S900000_n_0_0_1 : ScatterDims S1000000 S900000x1 S900000 where
  updateWindowDims := []
  insertedWindowDims := [0]
  scatterDimsToOperandDims := [0]
  indexVectorDim := 1
  wf := scatter_S1000000_S900000x1_S900000_n_0_0_1_wf
def gather_S900000_S1000000x1_S1000000_n_0_n_n_0_1_1 : GatherDims S900000 S1000000x1 S1000000 where
  offsetDims := []
  collapsedSliceDims := [0]
  operandBatchingDims := []
  startIndicesBatchingDims := []
  startIndexMap := [0]
  indexVectorDim := 1
  sliceSizes := ![1]
  wf := gather_S900000_S1000000x1_S1000000_n_0_n_n_0_1_1_wf

abbrev win0_0 : Pipeline.Window sig grid0 :=
  Pipeline.Window.ofSpecClip (Memref.whole main_v0) S7x131072.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_arg3) S18x7.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S18x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S36x18.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S36x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S36x36.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S36x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S1x36.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpecClip (Memref.whole main_v5) S1x131072.size cc0_transform_9 reads0_9 true false 2 stage0_9 sem0_9
    hrank0 hreads0_9 hstart0_9 nbuf0_9 (Memref.isWhole_whole _) hwx0_9 hwxs0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S1x7x1x900000 : Shape := ⟨4, ![1, 7, 1, 900000]⟩
abbrev S1x1000x1000 : Shape := ⟨3, ![1, 1000, 1000]⟩
abbrev S2x900000 : Shape := ⟨2, ![2, 900000]⟩
abbrev S18x7 : Shape := ⟨2, ![18, 7]⟩
abbrev S18 : Shape := ⟨1, ![18]⟩
abbrev S36x18 : Shape := ⟨2, ![36, 18]⟩
abbrev S36 : Shape := ⟨1, ![36]⟩
abbrev S36x36 : Shape := ⟨2, ![36, 36]⟩
abbrev S1x36 : Shape := ⟨2, ![1, 36]⟩
abbrev S1 : Shape := ⟨1, ![1]⟩
abbrev S7x900000 : Shape := ⟨2, ![7, 900000]⟩
abbrev S18x900000 : Shape := ⟨2, ![18, 900000]⟩
abbrev S18x1 : Shape := ⟨2, ![18, 1]⟩
abbrev S_ : Shape := ⟨0, ![]⟩
abbrev S36x900000 : Shape := ⟨2, ![36, 900000]⟩
abbrev S36x1 : Shape := ⟨2, ![36, 1]⟩
abbrev S1x900000 : Shape := ⟨2, ![1, 900000]⟩
abbrev S1x1 : Shape := ⟨2, ![1, 1]⟩
abbrev S900000 : Shape := ⟨1, ![900000]⟩
abbrev S900000x1 : Shape := ⟨2, ![900000, 1]⟩
abbrev S900000x2 : Shape := ⟨2, ![900000, 2]⟩
abbrev S1x1000 : Shape := ⟨2, ![1, 1000]⟩
abbrev S1000 : Shape := ⟨1, ![1000]⟩

abbrev nBuf : Space → Nat
  | .hbm => 69
  | .vmem => 0
  | .smem => 0
  | _ => 0

abbrev bufTy : (tb : Table) → Fin (tcTables nBuf tb) → BufTy
  | .hbm, ⟨0, _⟩ => ⟨S1x7x1x900000, .f32⟩
  | .hbm, ⟨1, _⟩ => ⟨S1x1000x1000, .f32⟩
  | .hbm, ⟨2, _⟩ => ⟨S2x900000, .i32⟩
  | .hbm, ⟨3, _⟩ => ⟨S18x7, .f32⟩
  | .hbm, ⟨4, _⟩ => ⟨S18, .f32⟩
  | .hbm, ⟨5, _⟩ => ⟨S36x18, .f32⟩
  | .hbm, ⟨6, _⟩ => ⟨S36, .f32⟩
  | .hbm, ⟨7, _⟩ => ⟨S36x36, .f32⟩
  | .hbm, ⟨8, _⟩ => ⟨S36, .f32⟩
  | .hbm, ⟨9, _⟩ => ⟨S1x36, .f32⟩
  | .hbm, ⟨10, _⟩ => ⟨S1, .f32⟩
  | .hbm, ⟨11, _⟩ => ⟨S7x900000, .f32⟩
  | .hbm, ⟨12, _⟩ => ⟨S18x900000, .f32⟩
  | .hbm, ⟨13, _⟩ => ⟨S18x1, .f32⟩
  | .hbm, ⟨14, _⟩ => ⟨S18x900000, .f32⟩
  | .hbm, ⟨15, _⟩ => ⟨S18x900000, .f32⟩
  | .hbm, ⟨16, _⟩ => ⟨S_, .f32⟩
  | .hbm, ⟨17, _⟩ => ⟨S18x900000, .f32⟩
  | .hbm, ⟨18, _⟩ => ⟨S18x900000, .f32⟩
  | .hbm, ⟨19, _⟩ => ⟨S36x900000, .f32⟩
  | .hbm, ⟨20, _⟩ => ⟨S36x1, .f32⟩
  | .hbm, ⟨21, _⟩ => ⟨S36x900000, .f32⟩
  | .hbm, ⟨22, _⟩ => ⟨S36x900000, .f32⟩
  | .hbm, ⟨23, _⟩ => ⟨S_, .f32⟩
  | .hbm, ⟨24, _⟩ => ⟨S36x900000, .f32⟩
  | .hbm, ⟨25, _⟩ => ⟨S36x900000, .f32⟩
  | .hbm, ⟨26, _⟩ => ⟨S36x900000, .f32⟩
  | .hbm, ⟨27, _⟩ => ⟨S36x1, .f32⟩
  | .hbm, ⟨28, _⟩ => ⟨S36x900000, .f32⟩
  | .hbm, ⟨29, _⟩ => ⟨S36x900000, .f32⟩
  | .hbm, ⟨30, _⟩ => ⟨S_, .f32⟩
  | .hbm, ⟨31, _⟩ => ⟨S36x900000, .f32⟩
  | .hbm, ⟨32, _⟩ => ⟨S36x900000, .f32⟩
  | .hbm, ⟨33, _⟩ => ⟨S1x900000, .f32⟩
  | .hbm, ⟨34, _⟩ => ⟨S1x1, .f32⟩
  | .hbm, ⟨35, _⟩ => ⟨S1x900000, .f32⟩
  | .hbm, ⟨36, _⟩ => ⟨S1x900000, .f32⟩
  | .hbm, ⟨37, _⟩ => ⟨S900000, .f32⟩
  | .hbm, ⟨38, _⟩ => ⟨S_, .f32⟩
  | .hbm, ⟨39, _⟩ => ⟨S1x1000x1000, .f32⟩
  | .hbm, ⟨40, _⟩ => ⟨S1x900000, .i32⟩
  | .hbm, ⟨41, _⟩ => ⟨S900000, .i32⟩
  | .hbm, ⟨42, _⟩ => ⟨S1x900000, .i32⟩
  | .hbm, ⟨43, _⟩ => ⟨S900000, .i32⟩
  | .hbm, ⟨44, _⟩ => ⟨S1x900000, .f32⟩
  | .hbm, ⟨45, _⟩ => ⟨S_, .i32⟩
  | .hbm, ⟨46, _⟩ => ⟨S900000, .i32⟩
  | .hbm, ⟨47, _⟩ => ⟨S900000, .i1⟩
  | .hbm, ⟨48, _⟩ => ⟨S_, .i32⟩
  | .hbm, ⟨49, _⟩ => ⟨S900000, .i32⟩
  | .hbm, ⟨50, _⟩ => ⟨S900000, .i32⟩
  | .hbm, ⟨51, _⟩ => ⟨S900000, .i32⟩
  | .hbm, ⟨52, _⟩ => ⟨S_, .i32⟩
  | .hbm, ⟨53, _⟩ => ⟨S900000, .i32⟩
  | .hbm, ⟨54, _⟩ => ⟨S900000, .i1⟩
  | .hbm, ⟨55, _⟩ => ⟨S_, .i32⟩
  | .hbm, ⟨56, _⟩ => ⟨S900000, .i32⟩
  | .hbm, ⟨57, _⟩ => ⟨S900000, .i32⟩
  | .hbm, ⟨58, _⟩ => ⟨S900000, .i32⟩
  | .hbm, ⟨59, _⟩ => ⟨S900000x1, .i32⟩
  | .hbm, ⟨60, _⟩ => ⟨S900000x1, .i32⟩
  | .hbm, ⟨61, _⟩ => ⟨S900000x2, .i32⟩
  | .hbm, ⟨62, _⟩ => ⟨S1x1000x1000, .f32⟩
  | .hbm, ⟨63, _⟩ => ⟨S_, .f32⟩
  | .hbm, ⟨64, _⟩ => ⟨S1x1000, .f32⟩
  | .hbm, ⟨65, _⟩ => ⟨S1000, .f32⟩
  | .hbm, ⟨66, _⟩ => ⟨S_, .f32⟩
  | .hbm, ⟨67, _⟩ => ⟨S1x1000, .f32⟩
  | .hbm, ⟨68, _⟩ => ⟨S1000, .f32⟩
  | _, _ => ⟨S1x7x1x900000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_call0_cst : Ref sig .tc := ⟨.hbm, 16, rfl⟩
abbrev main_call0_v0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_call1_cst : Ref sig .tc := ⟨.hbm, 23, rfl⟩
abbrev main_call1_v0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_call2_cst : Ref sig .tc := ⟨.hbm, 30, rfl⟩
abbrev main_call2_v0 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c : Ref sig .tc := ⟨.hbm, 45, rfl⟩
abbrev main_v27 : Ref sig .tc := ⟨.hbm, 46, rfl⟩
abbrev main_v28 : Ref sig .tc := ⟨.hbm, 47, rfl⟩
abbrev main_c_0 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_1 : Ref sig .tc := ⟨.hbm, 52, rfl⟩
abbrev main_v32 : Ref sig .tc := ⟨.hbm, 53, rfl⟩
abbrev main_v33 : Ref sig .tc := ⟨.hbm, 54, rfl⟩
abbrev main_c_2 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_3 : Ref sig .tc := ⟨.hbm, 63, rfl⟩
abbrev main_v41 : Ref sig .tc := ⟨.hbm, 64, rfl⟩
abbrev main_v42 : Ref sig .tc := ⟨.hbm, 65, rfl⟩
abbrev main_cst_4 : Ref sig .tc := ⟨.hbm, 66, rfl⟩
abbrev main_v43 : Ref sig .tc := ⟨.hbm, 67, rfl⟩
abbrev main_v44 : Ref sig .tc := ⟨.hbm, 68, rfl⟩

abbrev nD : Nat := 1
abbrev τ : Topo := Topo.v7x

variable {F : FTy → Type} [FloatOps F]

class Facts₀ : Prop where
  shapeCasts_S1x7x1x900000_S7x900000 : S1x7x1x900000.ShapeCasts S7x900000
  bcast_S18_S18x1_0 : S18.BroadcastsInDim S18x1 (![0] : Fin 1 → Fin S18x1.rank)
  bcast_S18x1_S18x900000_0_1 : S18x1.BroadcastsInDim S18x900000 (![0, 1] : Fin 2 → Fin S18x900000.rank)
  bcast_S_S18x900000 : S_.BroadcastsInDim S18x900000 (![] : Fin 0 → Fin S18x900000.rank)
  bcast_S36_S36x1_0 : S36.BroadcastsInDim S36x1 (![0] : Fin 1 → Fin S36x1.rank)
  bcast_S36x1_S36x900000_0_1 : S36x1.BroadcastsInDim S36x900000 (![0, 1] : Fin 2 → Fin S36x900000.rank)
  bcast_S_S36x900000 : S_.BroadcastsInDim S36x900000 (![] : Fin 0 → Fin S36x900000.rank)
  bcast_S1_S1x1_0 : S1.BroadcastsInDim S1x1 (![0] : Fin 1 → Fin S1x1.rank)
  bcast_S1x1_S1x900000_0_1 : S1x1.BroadcastsInDim S1x900000 (![0, 1] : Fin 2 → Fin S1x900000.rank)
  shapeCasts_S1x900000_S900000 : S1x900000.ShapeCasts S900000
  bcast_S_S1x1000x1000 : S_.BroadcastsInDim S1x1000x1000 (![] : Fin 0 → Fin S1x1000x1000.rank)
  slices_S2x900000_S1x900000_0_0 : S2x900000.Slices ![0, 0] S1x900000
  slices_S2x900000_S1x900000_1_0 : S2x900000.Slices ![1, 0] S1x900000
  bcast_S900000_S1x900000_1 : S900000.BroadcastsInDim S1x900000 (![1] : Fin 1 → Fin S1x900000.rank)
  bcast_S_S900000 : S_.BroadcastsInDim S900000 (![] : Fin 0 → Fin S900000.rank)
  bcast_S900000_S900000x1_0 : S900000.BroadcastsInDim S900000x1 (![0] : Fin 1 → Fin S900000x1.rank)
  concatenates_S900000x1_S900000x1_S900000x2_d1 : Shape.Concatenates [S900000x1, S900000x1] S900000x2 1
  reducesTo_S1x1000x1000_S1x1000_d2 : S1x1000x1000.ReducesTo [2] S1x1000
  h_S_ : 0 < S_.numel
  shapeCasts_S1x1000_S1000 : S1x1000.ShapeCasts S1000
  reducesTo_S1x1000x1000_S1x1000_d1 : S1x1000x1000.ReducesTo [1] S1x1000
  dot_S18x7_S7x900000_S18x900000_1_0_0_1_n_n_wf : DotDims.WF S18x7 S7x900000 S18x900000 [1] [0] [0] [1] [] []
  dot_S36x18_S18x900000_S36x900000_1_0_0_1_n_n_wf : DotDims.WF S36x18 S18x900000 S36x900000 [1] [0] [0] [1] [] []
  dot_S36x36_S36x900000_S36x900000_1_0_0_1_n_n_wf : DotDims.WF S36x36 S36x900000 S36x900000 [1] [0] [0] [1] [] []
  dot_S1x36_S36x900000_S1x900000_1_0_0_1_n_n_wf : DotDims.WF S1x36 S36x900000 S1x900000 [1] [0] [0] [1] [] []
  scatter_S1x1000x1000_S900000x2_S1x900000_0_12_12_1_wf : ScatterDims.WF S1x1000x1000 S900000x2 S1x900000 [0] [1, 2] [1, 2] 1

variable [Facts₀]

def dot_S18x7_S7x900000_S18x900000_1_0_0_1_n_n : DotDims S18x7 S7x900000 S18x900000 where
  lhsContracting := [1]
  rhsContracting := [0]
  lhsNonContracting := [0]
  rhsNonContracting := [1]
  lhsBatch := []
  rhsBatch := []
  wf := dot_S18x7_S7x900000_S18x900000_1_0_0_1_n_n_wf
def dot_S36x18_S18x900000_S36x900000_1_0_0_1_n_n : DotDims S36x18 S18x900000 S36x900000 where
  lhsContracting := [1]
  rhsContracting := [0]
  lhsNonContracting := [0]
  rhsNonContracting := [1]
  lhsBatch := []
  rhsBatch := []
  wf := dot_S36x18_S18x900000_S36x900000_1_0_0_1_n_n_wf
def dot_S36x36_S36x900000_S36x900000_1_0_0_1_n_n : DotDims S36x36 S36x900000 S36x900000 where
  lhsContracting := [1]
  rhsContracting := [0]
  lhsNonContracting := [0]
  rhsNonContracting := [1]
  lhsBatch := []
  rhsBatch := []
  wf := dot_S36x36_S36x900000_S36x900000_1_0_0_1_n_n_wf
def dot_S1x36_S36x900000_S1x900000_1_0_0_1_n_n : DotDims S1x36 S36x900000 S1x900000 where
  lhsContracting := [1]
  rhsContracting := [0]
  lhsNonContracting := [0]
  rhsNonContracting := [1]
  lhsBatch := []
  rhsBatch := []
  wf := dot_S1x36_S36x900000_S1x900000_1_0_0_1_n_n_wf
def scatter_S1x1000x1000_S900000x2_S1x900000_0_12_12_1 : ScatterDims S1x1000x1000 S900000x2 S1x900000 where
  updateWindowDims := [0]
  insertedWindowDims := [1, 2]
  scatterDimsToOperandDims := [1, 2]
  indexVectorDim := 1
  wf := scatter_S1x1000x1000_S900000x2_S1x900000_0_12_12_1_wf

class Facts : Prop extends Facts₀ where

variable [Facts]
-- ==== Proof.BodyK.lean ====
/-
  The kernel region of `Kernel`, at any float instance: the body's triple, the proof data, and the frame.

  The region is one pallas_call over seven grid points. Point `t` stages columns `131072 t … 131072 t + 131071` of the
  7 × 900000 feature array in a 7 × 131072 buffer, the eight weight and bias arrays whole (fetched once), and writes a
  1 × 131072 buffer back to the same columns of the 1 × 900000 result. 900000 is not a multiple of 131072: the last block
  overhangs its array by 17504 columns, so the fetch there fills only the buffer's first 113568 columns (the rest holds
  words nothing names) and the write-back moves only those.

  The body loads the nine input buffers whole, computes ONE value from them (`k0_pay1`: four matrix products with bias
  and rectifier) and stores it whole into the result's buffer (`sound_kernel`). The proof data name what each buffer
  holds after the body: an input's its block (the features' filled out past the array's end with zeros, which nothing
  reads), the result's the value of those. Here the result's window is FORGOTTEN: for the frame nothing of the result is
  needed, and at the word level a matrix product's column may depend on the unnamed words beside it, so nothing exact
  could be said. What is proved is that the run ends, faults nowhere, and leaves every argument array as it found it
  (`frame`), the buffers the later host lines write (`T0`) being no argument.
-/
import proofs.«427928_j30545807409840_1_alg».proof.Proof.Gen.Kernel.Frame
import proofs.«427928_j30545807409840_1_alg».proof.Proof.Gen.Kernel.Skeleton
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's triple -/

set_option maxHeartbeats 2000000 in
/-- The kernel body on ten whole buffers, the nine inputs' at contents `x0 … x8` and the result's at anything: it runs to
    the continuation holding the inputs' as they were and the result's at `k0_pay1 x0 … x8` (nine whole loads, one whole
    store; a whole store read back is its payload, a whole load reads the contents). -/
theorem sound_kernel (c : Dev nD) (E : Set ℕ) (i : grid0.Coords)
    (arg1 : Memref sig .tc .vmem S7x131072 .f32) (harg1 : arg1.IsWhole) (arg2 : Memref sig .tc .vmem S18x7 .f32) (harg2 : arg2.IsWhole) (arg3 : Memref sig .tc .vmem S18x1 .f32) (harg3 : arg3.IsWhole) (arg4 : Memref sig .tc .vmem S36x18 .f32) (harg4 : arg4.IsWhole) (arg5 : Memref sig .tc .vmem S36x1 .f32) (harg5 : arg5.IsWhole) (arg6 : Memref sig .tc .vmem S36x36 .f32) (harg6 : arg6.IsWhole) (arg7 : Memref sig .tc .vmem S36x1 .f32) (harg7 : arg7.IsWhole) (arg8 : Memref sig .tc .vmem S1x36 .f32) (harg8 : arg8.IsWhole) (arg9 : Memref sig .tc .vmem S1x1 .f32) (harg9 : arg9.IsWhole) (arg10 : Memref sig .tc .vmem S1x131072 .f32) (harg10 : arg10.IsWhole)
    (x0 : Vec F S7x131072 .f32) (x1 : Vec F S18x7 .f32) (x2 : Vec F S18x1 .f32) (x3 : Vec F S36x18 .f32) (x4 : Vec F S36x1 .f32)
    (x5 : Vec F S36x36 .f32) (x6 : Vec F S36x1 .f32) (x7 : Vec F S1x36 .f32) (x8 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
        ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
            ∗ owns (c : Thread nD τ) arg10 fullShare (k0_pay1 x0 x1 x2 x3 x4 x5 x6 x7 x8)) -∗ K ⟨⟩))
      ⊢ wp frame (wpE (defs₀ (F := F)) Variants.none c none) E
          (cc0__mlp_kernel i arg1 harg1 arg2 harg2 arg3 harg3 arg4 harg4 arg5 harg5 arg6 harg6 arg7 harg7 arg8 harg8 arg9 harg9 arg10 harg10) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0; subst hf1; subst hf2; subst hf3; subst hf4; subst hf5; subst hf6; subst hf7; subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  have hz : (![0, 0] : Fin 2 → Nat) = fun _ => 0 := funext fun a => by fin_cases a <;> rfl
  sl_unfold_words
  rw [View.read_writes_eq_canon _ _ _ (fun y => View.cover_of_tiled [⟨_, _⟩] S1x131072.size (by rfl) y)]
  rw [View.canon_unit_zero hz]
  simp only [View.readAt_eq_ld, View.ld_unit_zero (S := S7x131072) hz, View.ld_unit_zero (S := S18x7) hz, View.ld_unit_zero (S := S18x1) hz, View.ld_unit_zero (S := S36x18) hz, View.ld_unit_zero (S := S36x1) hz, View.ld_unit_zero (S := S36x36) hz, View.ld_unit_zero (S := S1x36) hz, View.ld_unit_zero (S := S1x1) hz]

/-! ## The proof data -/

variable (m : (ℓ : Loc nD τ sig) → Buf (Elt F) ℓ) (ρ : Dev nD → PrngReg)

/-- The feature block of point `t` as a whole 7 × 131072 buffer: the columns inside the array, and the zero word past
    the array's end (at the last point; nothing reads it). -/
def xfull (c : Dev nD) (t : Fin cfg0.N) : S7x131072.Idx → Elt F .f32 :=
  win0_0.fill (grid0.coords t) (fun _ => Scalar.ofBits .f32 0#32) (iblk m c 0 t)

/-- The result window is forgotten (window 9); every other window is named. -/
def forgets0 : Fin 10 → Bool := fun w => w.val == 9

/-- The proof data of the one pipeline on core `c`: the arrays as the region finds them; after the body at point `t`
    the features' buffer at `xfull`, each weight's and bias's at its (whole) block, the result's at the body's value of
    those; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => xfull m c t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => k0_pay1 (xfull m c t) (iblk m c 1 t) (iblk m c 2 t) (iblk m c 3 t) (iblk m c 4 t) (iblk m c 5 t) (iblk m c 6 t) (iblk m c 7 t) (iblk m c 8 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = xfull m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) :
    (dats m 0 c).after 9 t = k0_pay1 (xfull m c t) (iblk m c 1 t) (iblk m c 2 t) (iblk m c 3 t) (iblk m c 4 t) (iblk m c 5 t) (iblk m c 6 t) (iblk m c 7 t) (iblk m c 8 t) := by dsimp only [dats]

/-- The features' buffer as the body finds it: fetched at every point, so the block on the columns inside the array and
    `d` (anything) past its end. -/
theorem before0_0 (c : Dev nD) (t : Fin cfg0.N) (d) :
    (dats m 0 c).before 0 t d = win0_0.fill (grid0.coords t) d (iblk m c 0 t) := by
  unfold Dat.before; rw [if_pos (fetch0_0 t)]; rfl
/-- Each weight's and bias's buffer holds its block at every point (fetched at the first, left in place after). -/
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body obligation, the result forgotten -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ X, owns (c : Thread nD τ) (st0_9 t) fullShare X))

def bodyPost (c : Dev nD) (t : Fin cfg0.N) : sProp 𝕄 :=
  iprop((dats m 0 c).Φ t.succ ∗ (dats m 0 c).owesAt () t.succ
    ∗ (∃ d, owns (c : Thread nD τ) (st0_0 t) fullShare
        (win0_0.fill (grid0.coords t) d (win0_0.cut (grid0.coords t) ((dats m 0 c).after 0 t))))
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ (∃ X, owns (c : Thread nD τ) (st0_9 t) fullShare X))

/-- The body at any point: the inputs' buffers hold their blocks (the features' filled out with whatever the fetch left
    past the array's end), so `sound_kernel` applies; the features' buffer comes back as it was, which on the columns
    inside the array is `xfull`'s; the result's comes back at some contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%X9, H9⟩⟩
  iapply (sound_kernel c Set.univ (grid0.coords t) _ _ _ _ _ _ _ _ _ _ _ _ _ _ _ _ _ _ _ _
    (win0_0.fill (grid0.coords t) d0 (iblk m c 0 t)) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]
  · iexists d0
    rw [show win0_0.cut (grid0.coords t) (xfull m c t) = iblk m c 0 t from win0_0.cut_fill _ _ _]
    iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexists _; iexact H9

/-- The library's body obligation with the result's window forgotten, at every point. -/
theorem body_obligation (c : Dev nD) :
    BodyObligationLoose (dats (F := F) m 0 c) (defs₀ (F := F)) Variants.none () Set.univ forgets0 := fun t => by
  rw [bigSep_W0, bigSep_W0]
  exact sound_body m c t

/-! ## The buffers the host lines after the region write -/

/-- Every buffer a host operation after the region writes: the values computed from the region's result. None is an
    argument of @main. -/
def T0 : Finset (Ref sig .tc) := {main_v6, main_v7, main_v8, main_v9, main_v10, main_c, main_v11, main_v12, main_v13, main_v14, main_c_0, main_v15, main_c_1, main_v16, main_v17, main_c_2, main_v18, main_v19, main_v20, main_v21, main_v22, main_c_3, main_v23, main_v24, main_c_4, main_call0_v0, main_call0_v1, main_v25, main_c_5, main_v26, main_v27, main_c_6, main_v28, main_v29, main_v30, main_v31, main_v32, main_cst, main_call1_v0, main_call1_v1, main_v33, main_v34, main_cst_7, main_v35, main_cst_8, main_v36}

theorem sfx_writes : ∀ ops ∈ ([hostOps1, hostOps1_1, hostOps1_2, hostOps1_3, hostOps1_4] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl | rfl | rfl | rfl | rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl | rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide
  · simp only [hostOps1_1, List.mem_cons, List.mem_nil_iff, or_false] at hop
    rcases hop with rfl | rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide
  · simp only [hostOps1_2, List.mem_cons, List.mem_nil_iff, or_false] at hop
    rcases hop with rfl | rfl | rfl | rfl | rfl | rfl | rfl | rfl | rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide
  · simp only [hostOps1_3, List.mem_cons, List.mem_nil_iff, or_false] at hop
    rcases hop with rfl | rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide
  · simp only [hostOps1_4, List.mem_cons, List.mem_nil_iff, or_false] at hop
    rcases hop with rfl | rfl | rfl | rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-! ## The run and the frame -/

set_option backward.isDefEq.respectTransparency.types false in
/-- At the compiled mesh, for any values, from any memory with zero counters: every weakly fair execution of @main
    terminates, every input array of the pipeline ends unchanged, and every other unscoped buffer that the later host
    lines do not write ends at its contents at the region's entry. Nothing is said of the result. -/
theorem run_main : θ_run defs (onTc (τ := τ) (main (F := F))) (s₀ m ρ)
    (Pipeline.RDat.FramePostR (cfgs 0) (fun c => (dats m 0 c).toRForget forgets0) T0 (V m)) :=
  Pipeline.RDat.θ_run_frame_around_T cfgs (0 : Fin 1) launch0 defs₀ Variants.none (fun c => (dats m 0 c).toRForget forgets0) T0 m ρ main
    (hbody := fun c => (body_obligation m c).toRForget) (hshare := fun c => ((dats m 0 c).toRForget forgets0).share_full fun _ => rfl)
    (howed := fun _ _ => rfl) (V₀ := V0 m) (opss := [hostOps1, hostOps1_1, hostOps1_2, hostOps1_3, hostOps1_4]) (hsub := sfx_sub) (hfresh := sfx_fresh) (hkeep := sfx_keeps) (hT := sfx_writes)
    (hmain := hmain m Variants.none) (hA := A_eq m) (hΦ := fun _ _ => rfl)

/-- The frame claim's post from such a run: a staged input array by the post's first clause, an argument no window
    stages (it is none of `T0`) by its second, each then as launched. -/
theorem frame_of_forget (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      ((h c).2 main_arg2 (Finset.mem_sdiff.mpr ⟨Pipeline.mem_restRefs_of main_arg2 (by decide) (by decide), by decide⟩)).trans (V_main_arg2 m c),
      (Pipeline.RDat.FramePostR.arr_in h c 1 rfl).trans ((hA c 1).trans (V_main_arg3 m c)),
      ((h c).2 main_arg4 (Finset.mem_sdiff.mpr ⟨Pipeline.mem_restRefs_of main_arg4 (by decide) (by decide), by decide⟩)).trans (V_main_arg4 m c),
      (Pipeline.RDat.FramePostR.arr_in h c 3 rfl).trans ((hA c 3).trans (V_main_arg5 m c)),
      ((h c).2 main_arg6 (Finset.mem_sdiff.mpr ⟨Pipeline.mem_restRefs_of main_arg6 (by decide) (by decide), by decide⟩)).trans (V_main_arg6 m c),
      (Pipeline.RDat.FramePostR.arr_in h c 5 rfl).trans ((hA c 5).trans (V_main_arg7 m c)),
      ((h c).2 main_arg8 (Finset.mem_sdiff.mpr ⟨Pipeline.mem_restRefs_of main_arg8 (by decide) (by decide), by decide⟩)).trans (V_main_arg8 m c),
      (Pipeline.RDat.FramePostR.arr_in h c 7 rfl).trans ((hA c 7).trans (V_main_arg9 m c)),
      ((h c).2 main_arg10 (Finset.mem_sdiff.mpr ⟨Pipeline.mem_restRefs_of main_arg10 (by decide) (by decide), by decide⟩)).trans (V_main_arg10 m c)⟩) h

/-- THE FRAME, at any float instance: @main runs to its end, faults nowhere, and leaves its eleven argument arrays
    unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of_forget m ρ (fun c => (dats m 0 c).toRForget forgets0) (A_eq m) (run_main m ρ)

end Cert.Kernel.Body

end
-- ==== Proof.BodyKI.lean ====
/-
  The kernel region of `KernelIdeal`, at any float instance: the body's triple, the proof data, and the frame.

  The region is one pallas_call over seven grid points. Point `t` stages columns `131072 t … 131072 t + 131071` of the
  7 × 900000 feature array in a 7 × 131072 buffer, the eight weight and bias arrays whole (fetched once), and writes a
  1 × 131072 buffer back to the same columns of the 1 × 900000 result. 900000 is not a multiple of 131072: the last block
  overhangs its array by 17504 columns, so the fetch there fills only the buffer's first 113568 columns (the rest holds
  words nothing names) and the write-back moves only those.

  The body loads the nine input buffers whole, computes ONE value from them (`k0_pay1`: four matrix products with bias
  and rectifier) and stores it whole into the result's buffer (`sound_kernel`). The proof data name what each buffer
  holds after the body: an input's its block (the features' filled out past the array's end with zeros, which nothing
  reads), the result's the value of those. Here the result's window is FORGOTTEN: for the frame nothing of the result is
  needed, and at the word level a matrix product's column may depend on the unnamed words beside it, so nothing exact
  could be said. What is proved is that the run ends, faults nowhere, and leaves every argument array as it found it
  (`frame`), the buffers the later host lines write (`T0`) being no argument.
-/
import proofs.«427928_j30545807409840_1_alg».proof.Proof.Gen.KernelIdeal.Frame
import proofs.«427928_j30545807409840_1_alg».proof.Proof.Gen.KernelIdeal.Skeleton
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's triple -/

set_option maxHeartbeats 2000000 in
/-- The kernel body on ten whole buffers, the nine inputs' at contents `x0 … x8` and the result's at anything: it runs to
    the continuation holding the inputs' as they were and the result's at `k0_pay1 x0 … x8` (nine whole loads, one whole
    store; a whole store read back is its payload, a whole load reads the contents). -/
theorem sound_kernel (c : Dev nD) (E : Set ℕ) (i : grid0.Coords)
    (arg1 : Memref sig .tc .vmem S7x131072 .f32) (harg1 : arg1.IsWhole) (arg2 : Memref sig .tc .vmem S18x7 .f32) (harg2 : arg2.IsWhole) (arg3 : Memref sig .tc .vmem S18x1 .f32) (harg3 : arg3.IsWhole) (arg4 : Memref sig .tc .vmem S36x18 .f32) (harg4 : arg4.IsWhole) (arg5 : Memref sig .tc .vmem S36x1 .f32) (harg5 : arg5.IsWhole) (arg6 : Memref sig .tc .vmem S36x36 .f32) (harg6 : arg6.IsWhole) (arg7 : Memref sig .tc .vmem S36x1 .f32) (harg7 : arg7.IsWhole) (arg8 : Memref sig .tc .vmem S1x36 .f32) (harg8 : arg8.IsWhole) (arg9 : Memref sig .tc .vmem S1x1 .f32) (harg9 : arg9.IsWhole) (arg10 : Memref sig .tc .vmem S1x131072 .f32) (harg10 : arg10.IsWhole)
    (x0 : Vec F S7x131072 .f32) (x1 : Vec F S18x7 .f32) (x2 : Vec F S18x1 .f32) (x3 : Vec F S36x18 .f32) (x4 : Vec F S36x1 .f32)
    (x5 : Vec F S36x36 .f32) (x6 : Vec F S36x1 .f32) (x7 : Vec F S1x36 .f32) (x8 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
        ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
            ∗ owns (c : Thread nD τ) arg10 fullShare (k0_pay1 x0 x1 x2 x3 x4 x5 x6 x7 x8)) -∗ K ⟨⟩))
      ⊢ wp frame (wpE (defs₀ (F := F)) Variants.none c none) E
          (cc0__mlp_kernel i arg1 harg1 arg2 harg2 arg3 harg3 arg4 harg4 arg5 harg5 arg6 harg6 arg7 harg7 arg8 harg8 arg9 harg9 arg10 harg10) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0; subst hf1; subst hf2; subst hf3; subst hf4; subst hf5; subst hf6; subst hf7; subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  have hz : (![0, 0] : Fin 2 → Nat) = fun _ => 0 := funext fun a => by fin_cases a <;> rfl
  sl_unfold_words
  rw [View.read_writes_eq_canon _ _ _ (fun y => View.cover_of_tiled [⟨_, _⟩] S1x131072.size (by rfl) y)]
  rw [View.canon_unit_zero hz]
  simp only [View.readAt_eq_ld, View.ld_unit_zero (S := S7x131072) hz, View.ld_unit_zero (S := S18x7) hz, View.ld_unit_zero (S := S18x1) hz, View.ld_unit_zero (S := S36x18) hz, View.ld_unit_zero (S := S36x1) hz, View.ld_unit_zero (S := S36x36) hz, View.ld_unit_zero (S := S1x36) hz, View.ld_unit_zero (S := S1x1) hz]

/-! ## The proof data -/

variable (m : (ℓ : Loc nD τ sig) → Buf (Elt F) ℓ) (ρ : Dev nD → PrngReg)

/-- The feature block of point `t` as a whole 7 × 131072 buffer: the columns inside the array, and the zero word past
    the array's end (at the last point; nothing reads it). -/
def xfull (c : Dev nD) (t : Fin cfg0.N) : S7x131072.Idx → Elt F .f32 :=
  win0_0.fill (grid0.coords t) (fun _ => Scalar.ofBits .f32 0#32) (iblk m c 0 t)

/-- The result window is forgotten (window 9); every other window is named. -/
def forgets0 : Fin 10 → Bool := fun w => w.val == 9

/-- The proof data of the one pipeline on core `c`: the arrays as the region finds them; after the body at point `t`
    the features' buffer at `xfull`, each weight's and bias's at its (whole) block, the result's at the body's value of
    those; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => xfull m c t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => k0_pay1 (xfull m c t) (iblk m c 1 t) (iblk m c 2 t) (iblk m c 3 t) (iblk m c 4 t) (iblk m c 5 t) (iblk m c 6 t) (iblk m c 7 t) (iblk m c 8 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = xfull m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) :
    (dats m 0 c).after 9 t = k0_pay1 (xfull m c t) (iblk m c 1 t) (iblk m c 2 t) (iblk m c 3 t) (iblk m c 4 t) (iblk m c 5 t) (iblk m c 6 t) (iblk m c 7 t) (iblk m c 8 t) := by dsimp only [dats]

/-- The features' buffer as the body finds it: fetched at every point, so the block on the columns inside the array and
    `d` (anything) past its end. -/
theorem before0_0 (c : Dev nD) (t : Fin cfg0.N) (d) :
    (dats m 0 c).before 0 t d = win0_0.fill (grid0.coords t) d (iblk m c 0 t) := by
  unfold Dat.before; rw [if_pos (fetch0_0 t)]; rfl
/-- Each weight's and bias's buffer holds its block at every point (fetched at the first, left in place after). -/
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body obligation, the result forgotten -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ X, owns (c : Thread nD τ) (st0_9 t) fullShare X))

def bodyPost (c : Dev nD) (t : Fin cfg0.N) : sProp 𝕄 :=
  iprop((dats m 0 c).Φ t.succ ∗ (dats m 0 c).owesAt () t.succ
    ∗ (∃ d, owns (c : Thread nD τ) (st0_0 t) fullShare
        (win0_0.fill (grid0.coords t) d (win0_0.cut (grid0.coords t) ((dats m 0 c).after 0 t))))
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ (∃ X, owns (c : Thread nD τ) (st0_9 t) fullShare X))

/-- The body at any point: the inputs' buffers hold their blocks (the features' filled out with whatever the fetch left
    past the array's end), so `sound_kernel` applies; the features' buffer comes back as it was, which on the columns
    inside the array is `xfull`'s; the result's comes back at some contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%X9, H9⟩⟩
  iapply (sound_kernel c Set.univ (grid0.coords t) _ _ _ _ _ _ _ _ _ _ _ _ _ _ _ _ _ _ _ _
    (win0_0.fill (grid0.coords t) d0 (iblk m c 0 t)) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]
  · iexists d0
    rw [show win0_0.cut (grid0.coords t) (xfull m c t) = iblk m c 0 t from win0_0.cut_fill _ _ _]
    iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexists _; iexact H9

/-- The library's body obligation with the result's window forgotten, at every point. -/
theorem body_obligation (c : Dev nD) :
    BodyObligationLoose (dats (F := F) m 0 c) (defs₀ (F := F)) Variants.none () Set.univ forgets0 := fun t => by
  rw [bigSep_W0, bigSep_W0]
  exact sound_body m c t

/-! ## The buffers the host lines after the region write -/

/-- Every buffer a host operation after the region writes: the values computed from the region's result. None is an
    argument of @main. -/
def T0 : Finset (Ref sig .tc) := {main_v6, main_v7, main_v8, main_v9, main_v10, main_c, main_v11, main_v12, main_v13, main_v14, main_c_0, main_v15, main_c_1, main_v16, main_v17, main_c_2, main_v18, main_v19, main_v20, main_v21, main_v22, main_c_3, main_v23, main_v24, main_c_4, main_call0_v0, main_call0_v1, main_v25, main_c_5, main_v26, main_v27, main_c_6, main_v28, main_v29, main_v30, main_v31, main_v32, main_cst, main_call1_v0, main_call1_v1, main_v33, main_v34, main_cst_7, main_v35, main_cst_8, main_v36}

theorem sfx_writes : ∀ ops ∈ ([hostOps1, hostOps1_1, hostOps1_2, hostOps1_3, hostOps1_4] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl | rfl | rfl | rfl | rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl | rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide
  · simp only [hostOps1_1, List.mem_cons, List.mem_nil_iff, or_false] at hop
    rcases hop with rfl | rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide
  · simp only [hostOps1_2, List.mem_cons, List.mem_nil_iff, or_false] at hop
    rcases hop with rfl | rfl | rfl | rfl | rfl | rfl | rfl | rfl | rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide
  · simp only [hostOps1_3, List.mem_cons, List.mem_nil_iff, or_false] at hop
    rcases hop with rfl | rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide
  · simp only [hostOps1_4, List.mem_cons, List.mem_nil_iff, or_false] at hop
    rcases hop with rfl | rfl | rfl | rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-! ## The run and the frame -/

set_option backward.isDefEq.respectTransparency.types false in
/-- At the compiled mesh, for any values, from any memory with zero counters: every weakly fair execution of @main
    terminates, every input array of the pipeline ends unchanged, and every other unscoped buffer that the later host
    lines do not write ends at its contents at the region's entry. Nothing is said of the result. -/
theorem run_main : θ_run defs (onTc (τ := τ) (main (F := F))) (s₀ m ρ)
    (Pipeline.RDat.FramePostR (cfgs 0) (fun c => (dats m 0 c).toRForget forgets0) T0 (V m)) :=
  Pipeline.RDat.θ_run_frame_around_T cfgs (0 : Fin 1) launch0 defs₀ Variants.none (fun c => (dats m 0 c).toRForget forgets0) T0 m ρ main
    (hbody := fun c => (body_obligation m c).toRForget) (hshare := fun c => ((dats m 0 c).toRForget forgets0).share_full fun _ => rfl)
    (howed := fun _ _ => rfl) (V₀ := V0 m) (opss := [hostOps1, hostOps1_1, hostOps1_2, hostOps1_3, hostOps1_4]) (hsub := sfx_sub) (hfresh := sfx_fresh) (hkeep := sfx_keeps) (hT := sfx_writes)
    (hmain := hmain m Variants.none) (hA := A_eq m) (hΦ := fun _ _ => rfl)

/-- The frame claim's post from such a run: a staged input array by the post's first clause, an argument no window
    stages (it is none of `T0`) by its second, each then as launched. -/
theorem frame_of_forget (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      ((h c).2 main_arg2 (Finset.mem_sdiff.mpr ⟨Pipeline.mem_restRefs_of main_arg2 (by decide) (by decide), by decide⟩)).trans (V_main_arg2 m c),
      (Pipeline.RDat.FramePostR.arr_in h c 1 rfl).trans ((hA c 1).trans (V_main_arg3 m c)),
      ((h c).2 main_arg4 (Finset.mem_sdiff.mpr ⟨Pipeline.mem_restRefs_of main_arg4 (by decide) (by decide), by decide⟩)).trans (V_main_arg4 m c),
      (Pipeline.RDat.FramePostR.arr_in h c 3 rfl).trans ((hA c 3).trans (V_main_arg5 m c)),
      ((h c).2 main_arg6 (Finset.mem_sdiff.mpr ⟨Pipeline.mem_restRefs_of main_arg6 (by decide) (by decide), by decide⟩)).trans (V_main_arg6 m c),
      (Pipeline.RDat.FramePostR.arr_in h c 5 rfl).trans ((hA c 5).trans (V_main_arg7 m c)),
      ((h c).2 main_arg8 (Finset.mem_sdiff.mpr ⟨Pipeline.mem_restRefs_of main_arg8 (by decide) (by decide), by decide⟩)).trans (V_main_arg8 m c),
      (Pipeline.RDat.FramePostR.arr_in h c 7 rfl).trans ((hA c 7).trans (V_main_arg9 m c)),
      ((h c).2 main_arg10 (Finset.mem_sdiff.mpr ⟨Pipeline.mem_restRefs_of main_arg10 (by decide) (by decide), by decide⟩)).trans (V_main_arg10 m c)⟩) h

/-- THE FRAME, at any float instance: @main runs to its end, faults nowhere, and leaves its eleven argument arrays
    unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of_forget m ρ (fun c => (dats m 0 c).toRForget forgets0) (A_eq m) (run_main m ρ)

end Cert.KernelIdeal.Body

end
-- ==== Proof.Spec.lean ====
/-
  The two programs' common ground, stated once.

  Both programs compute, per pair index `n < 900000`, a value `v n` (a four-layer perceptron of column `n` of the
  features) and then fill a 1000 × 1000 grid from the pairs `(row n, col n)`: cell `(r, c)` takes `v n` of the LAST
  pair `n` that names it, and the sentinel where no pair does; the results are the grid's row maxima and column maxima.
  The reference writes the grid by one scatter that overwrites in pair order. The kernel's program first records,
  per flattened cell `1000 r + c`, the greatest pair number that names it (a scatter that takes maxima over an
  array of -1), then gathers `v` there.

  Here: the perceptron of one column (`mlpCol`); each program's grid and maxima as functions of `v` and of the
  index array (`kGrid`, `kRowMax`, `kColMax`; `rGrid`, `rRowMax`, `rColMax`), spelled as the programs spell them; and the
  range condition on the index array under which the two grids agree (`InRange`).
-/
import proofs.«427928_j30545807409840_1_alg».proof.KernelIdeal
import proofs.«427928_j30545807409840_1_alg».proof.ReferenceIdeal
import Idealize.ShloMosaic.Lib.ValueIdx
import Idealize.ShloMosaic.PureOps.Ideal.Laws

noncomputable section

namespace Cert.Bridge

open Idealize.ShloMosaic Idealize.ShloMosaic.ValueIdx

/-! ## One column of the perceptron -/

/-- The zero the rectifier compares with, as both programs carry it: the f32 word `0`, read at the extended reals. -/
def zeroE : EReal := (FloatOps.ofBits (F := Ideal) .f32 0x00000000#32 : Ideal .f32)

/-- One dense layer at one column: entry `a` is `∑ k, W (a, k) · h k + b a`. -/
def dense {A K : ℕ} (W : (⟨2, ![A, K]⟩ : Shape).Idx → EReal) (b : Fin A → EReal) (h : Fin K → EReal) (a : Fin A) : EReal :=
  (∑ k : Fin K, W (ix2 a k) * h k) + b a

/-- The rectifier, entry by entry: `max (v a) 0`. -/
def act {A : ℕ} (v : Fin A → EReal) (a : Fin A) : EReal := max (v a) zeroE

/-- The perceptron of one column `x` of seven features: three rectified dense layers (18, 36, 36 units) and a last
    dense layer of one unit. -/
def mlpCol (W1 : (⟨2, ![18, 7]⟩ : Shape).Idx → EReal) (b1 : Fin 18 → EReal)
    (W2 : (⟨2, ![36, 18]⟩ : Shape).Idx → EReal) (b2 : Fin 36 → EReal)
    (W3 : (⟨2, ![36, 36]⟩ : Shape).Idx → EReal) (b3 : Fin 36 → EReal)
    (W4 : (⟨2, ![1, 36]⟩ : Shape).Idx → EReal) (b4 : Fin 1 → EReal) (x : Fin 7 → EReal) : EReal :=
  dense W4 b4 (act (dense W3 b3 (act (dense W2 b2 (act (dense W1 b1 x)))))) 0

/-! ## The index array's range -/

/-- Every entry of the 2 × 900000 index array, read as a signed integer, lies in `[0, 1000)`: a row or a column of the
    1000 × 1000 grid. -/
def InRange (x2 : IVec (⟨2, ![2, 900000]⟩ : Shape) 32) : Prop :=
  ∀ i, (0 : Int) ≤ (x2 i).toInt ∧ (x2 i).toInt < 1000

/-! ## The kernel's program after its perceptron: flatten, record the last writer, gather -/

section Kernel

open Cert.KernelIdeal Cert.KernelIdeal.Facts₀ Cert.KernelIdeal.Facts

variable [Cert.KernelIdeal.Facts]

/-- Row numbers (`k = 0`) and column numbers (`k = 1`) of the pairs. -/
def kRows (x2 : IVec S2x900000 32) : IVec S900000 32 :=
  shapeCast S900000 (extractStridedSlice S1x900000 ![0, 0] x2 slices_S2x900000_S1x900000_0_0) shapeCasts_S1x900000_S900000
def kCols (x2 : IVec S2x900000 32) : IVec S900000 32 :=
  shapeCast S900000 (extractStridedSlice S1x900000 ![1, 0] x2 slices_S2x900000_S1x900000_1_0) shapeCasts_S1x900000_S900000

/-- The flattened cell `1000 · row + col` of each pair, in 32-bit arithmetic. -/
def kFlat (x2 : IVec S2x900000 32) : IVec S900000 32 :=
  addi (muli (kRows x2) (broadcastInDim S900000 ![] bcast_S_S900000 (constantI S_ 32 1000#32))) (kCols x2)

/-- The flattened cell with a negative one counted from the end (as an index expression does). -/
def kFlatN (x2 : IVec S2x900000 32) : IVec S900000 32 :=
  select (cmpi .slt (kFlat x2) (broadcastInDim S900000 ![] bcast_S_S900000 (constantI S_ 32 0#32)))
    (addi (kFlat x2) (broadcastInDim S900000 ![] bcast_S_S900000 (constantI S_ 32 1000000#32))) (kFlat x2)

/-- Per flattened cell, the greatest pair number that names it, or -1. -/
def kWinner (x2 : IVec S2x900000 32) : IVec S1000000 32 :=
  Host.scatter scatter_S1000000_S900000x1_S900000_n_0_0_1 IntOp.maxsi
    (broadcastInDim S1000000 ![] bcast_S_S1000000 (constantI S_ 32 4294967295#32))
    (broadcastInDim S900000x1 ![0] bcast_S900000_S900000x1_0 (kFlatN x2))
    (iotaInDim S900000 32 0)

/-- Which cells some pair names. -/
def kHas (x2 : IVec S2x900000 32) : IVec S1000000 1 :=
  cmpi .sge (kWinner x2) (broadcastInDim S1000000 ![] bcast_S_S1000000 (constantI S_ 32 0#32))

/-- The winner, with 0 where there is none. -/
def kSafe (x2 : IVec S2x900000 32) : IVec S1000000 32 :=
  select (kHas x2) (kWinner x2) (broadcastInDim S1000000 ![] bcast_S_S1000000 (id (constantI S_ 32 0#32)))

/-- The same with a negative one counted from the end. -/
def kSafeN (x2 : IVec S2x900000 32) : IVec S1000000 32 :=
  select (cmpi .slt (kSafe x2) (broadcastInDim S1000000 ![] bcast_S_S1000000 (constantI S_ 32 0#32)))
    (addi (kSafe x2) (broadcastInDim S1000000 ![] bcast_S_S1000000 (constantI S_ 32 900000#32))) (kSafe x2)

/-- The grid, flat: the winner's value, or the sentinel. -/
def kFlatGrid (v : FVec Ideal S900000 .f32) (x2 : IVec S2x900000 32) : FVec Ideal S1000000 .f32 :=
  select (kHas x2)
    (Host.gather gather_S900000_S1000000x1_S1000000_n_0_n_n_0_1_1 v
      (broadcastInDim S1000000x1 ![0] bcast_S1000000_S1000000x1_0 (kSafeN x2)))
    (broadcastInDim S1000000 ![] bcast_S_S1000000 (id (constant (F := Ideal) S_ .f32 0xC61C3C00#32)))

/-- The grid as 1000 rows of 1000. -/
def kGrid (v : FVec Ideal S900000 .f32) (x2 : IVec S2x900000 32) : FVec Ideal S1000x1000 .f32 :=
  shapeCast S1000x1000 (kFlatGrid v x2) shapeCasts_S1000000_S1000x1000

/-- Row maxima and column maxima. -/
def kRowMax (v : FVec Ideal S900000 .f32) (x2 : IVec S2x900000 32) : FVec Ideal S1000 .f32 :=
  Host.reduce FloatOps.maximumf (kGrid v x2) (constant (F := Ideal) S_ .f32 0xFF800000#32) reducesTo_S1000x1000_S1000_d1 h_S_
def kColMax (v : FVec Ideal S900000 .f32) (x2 : IVec S2x900000 32) : FVec Ideal S1000 .f32 :=
  Host.reduce FloatOps.maximumf (kGrid v x2) (constant (F := Ideal) S_ .f32 0xFF800000#32) reducesTo_S1000x1000_S1000_d0 h_S_

end Kernel

/-! ## The reference after its perceptron: one overwriting scatter into a grid of sentinels -/

section Reference

open Cert.ReferenceIdeal Cert.ReferenceIdeal.Facts₀ Cert.ReferenceIdeal.Facts

variable [Cert.ReferenceIdeal.Facts]

def rRows (x2 : IVec S2x900000 32) : IVec S900000 32 :=
  shapeCast S900000 (extractStridedSlice S1x900000 ![0, 0] x2 slices_S2x900000_S1x900000_0_0) shapeCasts_S1x900000_S900000
def rCols (x2 : IVec S2x900000 32) : IVec S900000 32 :=
  shapeCast S900000 (extractStridedSlice S1x900000 ![1, 0] x2 slices_S2x900000_S1x900000_1_0) shapeCasts_S1x900000_S900000

/-- A row or column number with a negative one counted from the end. -/
def rNorm (y : IVec S900000 32) : IVec S900000 32 :=
  select (cmpi .slt y (broadcastInDim S900000 ![] bcast_S_S900000 (constantI S_ 32 0#32)))
    (addi y (broadcastInDim S900000 ![] bcast_S_S900000 (constantI S_ 32 1000#32))) y

/-- The pairs as a 900000 × 2 array of index vectors. -/
def rIdx (x2 : IVec S2x900000 32) : IVec S900000x2 32 :=
  concatenate S900000x2 1
    [⟨S900000x1, broadcastInDim S900000x1 ![0] bcast_S900000_S900000x1_0 (rNorm (rRows x2))⟩,
     ⟨S900000x1, broadcastInDim S900000x1 ![0] bcast_S900000_S900000x1_0 (rNorm (rCols x2))⟩]
    concatenates_S900000x1_S900000x1_S900000x2_d1

/-- The grid: sentinels, overwritten in pair order. -/
def rGrid (v : FVec Ideal S900000 .f32) (x2 : IVec S2x900000 32) : FVec Ideal S1x1000x1000 .f32 :=
  Host.scatter scatter_S1x1000x1000_S900000x2_S1x900000_0_12_12_1 (fun _ b => b)
    (broadcastInDim S1x1000x1000 ![] bcast_S_S1x1000x1000 (constant (F := Ideal) S_ .f32 0xC61C3C00#32))
    (rIdx x2)
    (broadcastInDim S1x900000 ![1] bcast_S900000_S1x900000_1 v)

def rRowMax (v : FVec Ideal S900000 .f32) (x2 : IVec S2x900000 32) : FVec Ideal S1000 .f32 :=
  shapeCast S1000 (Host.reduce FloatOps.maximumf (rGrid v x2) (constant (F := Ideal) S_ .f32 0xFF800000#32)
    reducesTo_S1x1000x1000_S1x1000_d2 h_S_) shapeCasts_S1x1000_S1000
def rColMax (v : FVec Ideal S900000 .f32) (x2 : IVec S2x900000 32) : FVec Ideal S1000 .f32 :=
  shapeCast S1000 (Host.reduce FloatOps.maximumf (rGrid v x2) (constant (F := Ideal) S_ .f32 0xFF800000#32)
    reducesTo_S1x1000x1000_S1x1000_d1 h_S_) shapeCasts_S1x1000_S1000

end Reference

end Cert.Bridge

end
-- ==== Proof.LibMatProd.lean ====
/-
  A plain matrix product on the extended reals as a sum over the shared axis.

  For the dimension numbers of an `A × K` by `K × B` product (`DotDims.plain A K B`: contract the left
  operand's axis 1 with the right operand's axis 0, no batch axes), a kernel's `tpu.matmul` into a zero
  accumulator and a host `dot_general` are, at entry `(a, b)`, the sum over `k : Fin K` of
  `lhs (a, k) * rhs (k, b)`. A printed record with these six lists is `DotDims.plain` by `rfl`.
-/
import Idealize.ShloMosaic.PureOps.Ideal.Laws
import Idealize.ShloMosaic.Lib.ValueIdx

noncomputable section

namespace Cert.LibMatProd

open Idealize.ShloMosaic Idealize.ShloMosaic.ValueIdx

variable (A K B : ℕ)

/-- The left operand's index at result index `i` and contraction index `q`: row `i 0` … -/
theorem lhs_axis0 (i : (⟨2, ![A, B]⟩ : Shape).Idx) (q : (DotDims.plain A K B).contr.Idx) :
    ((DotDims.plain A K B).lhsIdx i q 0).val = (i 0).val := by
  unfold DotDims.lhsIdx
  rw [dif_neg (show ¬(0 : Fin (⟨2, ![A, K]⟩ : Shape).rank) ∈ (DotDims.plain A K B).lhsBatch from List.not_mem_nil),
    dif_pos (show (0 : Fin (⟨2, ![A, K]⟩ : Shape).rank) ∈ (DotDims.plain A K B).lhsNonContracting from List.mem_singleton.2 rfl)]
  rfl
/-- … column `q`'s one coordinate. -/
theorem lhs_axis1 (i : (⟨2, ![A, B]⟩ : Shape).Idx) (q : (DotDims.plain A K B).contr.Idx) :
    ((DotDims.plain A K B).lhsIdx i q 1).val = (q ⟨0, Nat.one_pos⟩).val :=
  (DotDims.plain A K B).lhsIdx_val_of_single rfl i q
/-- The right operand's index: row `q`'s one coordinate … -/
theorem rhs_axis0 (i : (⟨2, ![A, B]⟩ : Shape).Idx) (q : (DotDims.plain A K B).contr.Idx) :
    ((DotDims.plain A K B).rhsIdx i q 0).val = (q ⟨0, Nat.one_pos⟩).val :=
  (DotDims.plain A K B).rhsIdx_val_of_single rfl i q
/-- … column `i 1`. -/
theorem rhs_axis1 (i : (⟨2, ![A, B]⟩ : Shape).Idx) (q : (DotDims.plain A K B).contr.Idx) :
    ((DotDims.plain A K B).rhsIdx i q 1).val = (i 1).val := by
  unfold DotDims.rhsIdx
  rw [dif_neg (show ¬(1 : Fin (⟨2, ![K, B]⟩ : Shape).rank) ∈ (DotDims.plain A K B).rhsBatch from List.not_mem_nil),
    dif_pos (show (1 : Fin (⟨2, ![K, B]⟩ : Shape).rank) ∈ (DotDims.plain A K B).rhsNonContracting from List.mem_singleton.2 rfl)]
  rfl

/-- The sum over the contraction index of a plain product is the sum over `k : Fin K`. -/
theorem plain_sum (l : (⟨2, ![A, K]⟩ : Shape).Idx → EReal) (r : (⟨2, ![K, B]⟩ : Shape).Idx → EReal) (a : Fin A) (b : Fin B) :
    (∑ q : (DotDims.plain A K B).contr.Idx,
        l ((DotDims.plain A K B).lhsIdx (ix2 a b) q) * r ((DotDims.plain A K B).rhsIdx (ix2 a b) q))
      = ∑ k : Fin K, l (ix2 a k) * r (ix2 k b) := by
  rw [← Equiv.sum_comp (contrEquiv1 (DotDims.plain A K B) K rfl rfl).symm]
  refine Finset.sum_congr rfl fun k _ => ?_
  have hk := contrEquiv1_symm_val (DotDims.plain A K B) K rfl rfl k
  have el : (DotDims.plain A K B).lhsIdx (ix2 a b) ((contrEquiv1 (DotDims.plain A K B) K rfl rfl).symm k) = ix2 a k :=
    funext fun ax => Fin.ext (by
      match ax with
      | ⟨0, _⟩ => exact lhs_axis0 A K B _ _
      | ⟨1, _⟩ => exact (lhs_axis1 A K B _ _).trans hk)
  have er : (DotDims.plain A K B).rhsIdx (ix2 a b) ((contrEquiv1 (DotDims.plain A K B) K rfl rfl).symm k) = ix2 k b :=
    funext fun ax => Fin.ext (by
      match ax with
      | ⟨0, _⟩ => exact (rhs_axis0 A K B _ _).trans hk
      | ⟨1, _⟩ => exact rhs_axis1 A K B _ _)
  rw [el, er]

variable {A K B}

/-- A kernel's matrix product into a zero accumulator, at entry `(a, b)`. -/
theorem matmul_zero_apply {φ₁ φ₂ : FTy} (d : DotDims ⟨2, ![A, K]⟩ ⟨2, ![K, B]⟩ ⟨2, ![A, B]⟩) (hd : d = DotDims.plain A K B)
    (prec : Option ContractPrecision) (lhs : FVec Ideal ⟨2, ![A, K]⟩ φ₁) (rhs : FVec Ideal ⟨2, ![K, B]⟩ φ₂) (a : Fin A) (b : Fin B) :
    matmul d prec lhs rhs (constant ⟨2, ![A, B]⟩ .f32 0x00000000#32) (ix2 a b) = ∑ k : Fin K, lhs (ix2 a k) * rhs (ix2 k b) := by
  subst hd
  exact (Ideal.matmul_constant_zero_apply _ prec lhs rhs (ix2 a b)).trans (plain_sum A K B lhs rhs a b)

/-- A host `dot_general`, at entry `(a, b)`. -/
theorem dotGeneral_apply {φ₁ φ₂ : FTy} (d : DotDims ⟨2, ![A, K]⟩ ⟨2, ![K, B]⟩ ⟨2, ![A, B]⟩) (hd : d = DotDims.plain A K B)
    (prec : Option ContractPrecision) (lhs : FVec Ideal ⟨2, ![A, K]⟩ φ₁) (rhs : FVec Ideal ⟨2, ![K, B]⟩ φ₂) (a : Fin A) (b : Fin B) :
    Host.dotGeneral d prec lhs rhs (ix2 a b) = ∑ k : Fin K, lhs (ix2 a k) * rhs (ix2 k b) := by
  subst hd
  exact (Ideal.dotGeneral_apply _ prec .single lhs rhs (ix2 a b)).trans (plain_sum A K B lhs rhs a b)

end Cert.LibMatProd

end
-- ==== Proof.LibColumn.lean ====
/-
  A column kept by a row reduction, read at an index: an `[a]` vector viewed as the column `[a, 1]`, and a column
  `[a, 1]` spread over `b` columns. (What `keepdims` leaves of a row maximum or a row sum before it meets the rows again.)
-/
import Idealize.ShloMosaic.Lib.Pipeline.Value
import Idealize.ShloMosaic.Lib.ValueIdx

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibColumn
-- ==== Proof.MlpCols.lean ====
import proofs.«427928_j30545807409840_1_alg».proof.Proof.Spec
import proofs.«427928_j30545807409840_1_alg».proof.Proof.Gen.KernelIdeal.Skeleton
import proofs.«427928_j30545807409840_1_alg».proof.Proof.Gen.ReferenceIdeal.Read
import proofs.«427928_j30545807409840_1_alg».proof.Proof.LibMatProd
import proofs.«427928_j30545807409840_1_alg».proof.Proof.LibColumn

noncomputable section

namespace Cert.Bridge

open Idealize.ShloMosaic Idealize.ShloMosaic.ValueIdx

/-! ## One layer of the kernel's body, read at one entry -/

/-- A product into a zero accumulator plus a bias column spread over the columns, at entry `(a, b)`: the dense layer's
    entry `a` on column `b` of the right operand. -/
theorem kLayer {A K B : ℕ} (d : DotDims ⟨2, ![A, K]⟩ ⟨2, ![K, B]⟩ ⟨2, ![A, B]⟩) (hd : d = DotDims.plain A K B)
    (W : FVec Ideal ⟨2, ![A, K]⟩ .f32) (H : FVec Ideal ⟨2, ![K, B]⟩ .f32) (Bc : FVec Ideal ⟨2, ![A, 1]⟩ .f32)
    (hc : (⟨2, ![A, 1]⟩ : Shape).ShapeCasts ⟨2, ![A, 1]⟩) (hb : (⟨2, ![A, 1]⟩ : Shape).Broadcasts ⟨2, ![A, B]⟩)
    (a : Fin A) (b : Fin B) :
    addf (matmul d none W H (constant (F := Ideal) ⟨2, ![A, B]⟩ .f32 0x00000000#32))
        (broadcastTo ⟨2, ![A, B]⟩ (shapeCast ⟨2, ![A, 1]⟩ Bc hc) hb) (ix2 a b)
      = dense W (fun a => Bc (ix2 a (0 : Fin 1))) (fun k => H (ix2 k b)) a := by
  rw [addf_apply, Cert.LibMatProd.matmul_zero_apply d hd none W H a b,
    Cert.LibColumn.broadcastTo_a1_ab_apply _ hb a b, shapeCast_self]
  rfl

/-- The same layer under the rectifier against the broadcast zero word. -/
theorem kLayerAct {A K B : ℕ} (d : DotDims ⟨2, ![A, K]⟩ ⟨2, ![K, B]⟩ ⟨2, ![A, B]⟩) (hd : d = DotDims.plain A K B)
    (W : FVec Ideal ⟨2, ![A, K]⟩ .f32) (H : FVec Ideal ⟨2, ![K, B]⟩ .f32) (Bc : FVec Ideal ⟨2, ![A, 1]⟩ .f32)
    (hc : (⟨2, ![A, 1]⟩ : Shape).ShapeCasts ⟨2, ![A, 1]⟩) (hb : (⟨2, ![A, 1]⟩ : Shape).Broadcasts ⟨2, ![A, B]⟩)
    (a : Fin A) (b : Fin B) :
    maximumf (addf (matmul d none W H (constant (F := Ideal) ⟨2, ![A, B]⟩ .f32 0x00000000#32))
          (broadcastTo ⟨2, ![A, B]⟩ (shapeCast ⟨2, ![A, 1]⟩ Bc hc) hb))
        (broadcast ⟨2, ![A, B]⟩ (Scalar.ofBits (F := Ideal) .f32 0x00000000#32)) (ix2 a b)
      = act (dense W (fun a => Bc (ix2 a (0 : Fin 1))) (fun k => H (ix2 k b))) a := by
  rw [maximumf_apply, kLayer d hd W H Bc hc hb a b]
  rfl

/-! ## One layer of the reference, read at one entry -/

/-- A bias vector `[A]` viewed as the column `[A, 1]` and then spread over `B` columns reads, at `(a, b)`, its entry `a`. -/
theorem rBias {α : Type} {A B : ℕ} (bv : (⟨1, ![A]⟩ : Shape).Idx → α)
    (h1 : (⟨1, ![A]⟩ : Shape).BroadcastsInDim ⟨2, ![A, 1]⟩ ![0])
    (h2 : (⟨2, ![A, 1]⟩ : Shape).BroadcastsInDim ⟨2, ![A, B]⟩ ![0, 1]) (a : Fin A) (b : Fin B) :
    broadcastInDim ⟨2, ![A, B]⟩ ![0, 1] h2 (broadcastInDim ⟨2, ![A, 1]⟩ ![0] h1 bv) (ix2 a b) = bv (ix1 a) := by
  -- on an axis of extent `A` the coordinate kept is `a` itself: if `A = 1` then `a = 0` anyway
  have ha : a.val = if A = 1 then 0 else a.val := by
    split
    · have := a.isLt; omega
    · rfl
  refine (broadcastInDim_apply ![0, 1] h2 _ (ix2 a b) (ix2 a (0 : Fin 1)) fun ax => ?_).trans
    (broadcastInDim_apply ![0] h1 bv (ix2 a (0 : Fin 1)) (ix1 a) fun ax => ?_)
  · match ax with
    | ⟨0, _⟩ => exact ha
    | ⟨1, _⟩ => rfl
  · match ax with
    | ⟨0, _⟩ => exact ha

/-- A host product plus a bias vector spread over the columns, at entry `(a, b)`: the dense layer's entry `a` on
    column `b` of the right operand. -/
theorem rLayer {A K B : ℕ} (d : DotDims ⟨2, ![A, K]⟩ ⟨2, ![K, B]⟩ ⟨2, ![A, B]⟩) (hd : d = DotDims.plain A K B)
    (W : FVec Ideal ⟨2, ![A, K]⟩ .f32) (H : FVec Ideal ⟨2, ![K, B]⟩ .f32) (bv : FVec Ideal ⟨1, ![A]⟩ .f32)
    (h1 : (⟨1, ![A]⟩ : Shape).BroadcastsInDim ⟨2, ![A, 1]⟩ ![0])
    (h2 : (⟨2, ![A, 1]⟩ : Shape).BroadcastsInDim ⟨2, ![A, B]⟩ ![0, 1]) (a : Fin A) (b : Fin B) :
    addf (Host.dotGeneral (F := Ideal) d none W H)
        (broadcastInDim ⟨2, ![A, B]⟩ ![0, 1] h2 (broadcastInDim ⟨2, ![A, 1]⟩ ![0] h1 bv)) (ix2 a b)
      = dense W (fun a => bv (ix1 a)) (fun k => H (ix2 k b)) a := by
  rw [addf_apply, Cert.LibMatProd.dotGeneral_apply d hd none W H a b, rBias bv h1 h2 a b]
  rfl

/-- The same layer under the rectifier against the zero word spread over the whole array. -/
theorem rLayerAct {A K B : ℕ} (d : DotDims ⟨2, ![A, K]⟩ ⟨2, ![K, B]⟩ ⟨2, ![A, B]⟩) (hd : d = DotDims.plain A K B)
    (W : FVec Ideal ⟨2, ![A, K]⟩ .f32) (H : FVec Ideal ⟨2, ![K, B]⟩ .f32) (bv : FVec Ideal ⟨1, ![A]⟩ .f32)
    (h1 : (⟨1, ![A]⟩ : Shape).BroadcastsInDim ⟨2, ![A, 1]⟩ ![0])
    (h2 : (⟨2, ![A, 1]⟩ : Shape).BroadcastsInDim ⟨2, ![A, B]⟩ ![0, 1])
    (h0 : (⟨0, ![]⟩ : Shape).BroadcastsInDim ⟨2, ![A, B]⟩ ![]) (a : Fin A) (b : Fin B) :
    maximumf (addf (Host.dotGeneral (F := Ideal) d none W H)
          (broadcastInDim ⟨2, ![A, B]⟩ ![0, 1] h2 (broadcastInDim ⟨2, ![A, 1]⟩ ![0] h1 bv)))
        (broadcastInDim ⟨2, ![A, B]⟩ ![] h0 (constant (F := Ideal) ⟨0, ![]⟩ .f32 0x00000000#32)) (ix2 a b)
      = act (dense W (fun a => bv (ix1 a)) (fun k => H (ix2 k b))) a := by
  rw [maximumf_apply, rLayer d hd W H bv h1 h2 a b,
    broadcastInDim_apply ![] h0 _ (ix2 a b) ix0 (fun ax => ax.elim0)]
  rfl

/-! ## The two programs' perceptron at one column -/

/-- The kernel body's one stored value, at column `q` of its block: the perceptron of column `q` of the feature block
    (each bias a column `[A, 1]`). Nothing of any other column enters. -/
theorem pay_col [Cert.KernelIdeal.Facts]
    (X0 : Vec Ideal Cert.KernelIdeal.S7x131072 .f32) (W1 : Vec Ideal Cert.KernelIdeal.S18x7 .f32) (B1 : Vec Ideal Cert.KernelIdeal.S18x1 .f32)
    (W2 : Vec Ideal Cert.KernelIdeal.S36x18 .f32) (B2 : Vec Ideal Cert.KernelIdeal.S36x1 .f32)
    (W3 : Vec Ideal Cert.KernelIdeal.S36x36 .f32) (B3 : Vec Ideal Cert.KernelIdeal.S36x1 .f32)
    (W4 : Vec Ideal Cert.KernelIdeal.S1x36 .f32) (B4 : Vec Ideal Cert.KernelIdeal.S1x1 .f32) (q : Fin 131072) :
    Cert.KernelIdeal.Gen.k0_pay1 (F := Ideal) X0 W1 B1 W2 B2 W3 B3 W4 B4 (ix2 (0 : Fin 1) q)
      = mlpCol W1 (fun a => B1 (ix2 a (0 : Fin 1))) W2 (fun a => B2 (ix2 a (0 : Fin 1)))
          W3 (fun a => B3 (ix2 a (0 : Fin 1))) W4 (fun a => B4 (ix2 a (0 : Fin 1))) (fun k => X0 (ix2 k q)) := by
  unfold Cert.KernelIdeal.Gen.k0_pay1 mlpCol
  -- the last layer: one unit, no rectifier; its right operand is the third layer's rectified output
  refine (kLayer Cert.KernelIdeal.dot_S1x36_S36x131072_S1x131072_1_0_0_1_n_n rfl W4 _ B4 _ _ 0 q).trans ?_
  refine congrArg (fun h => dense W4 (fun a => B4 (ix2 a (0 : Fin 1))) h 0) (funext fun k3 => ?_)
  -- the third layer at unit `k3`
  refine (kLayerAct Cert.KernelIdeal.dot_S36x36_S36x131072_S36x131072_1_0_0_1_n_n rfl W3 _ B3 _ _ k3 q).trans ?_
  refine congrArg (fun h => act (dense W3 (fun a => B3 (ix2 a (0 : Fin 1))) h) k3) (funext fun k2 => ?_)
  -- the second layer at unit `k2`
  refine (kLayerAct Cert.KernelIdeal.dot_S36x18_S18x131072_S36x131072_1_0_0_1_n_n rfl W2 _ B2 _ _ k2 q).trans ?_
  refine congrArg (fun h => act (dense W2 (fun a => B2 (ix2 a (0 : Fin 1))) h) k2) (funext fun k1 => ?_)
  -- the first layer at unit `k1`: its right operand is the feature block under a cast to its own shape
  refine (kLayerAct Cert.KernelIdeal.dot_S18x7_S7x131072_S18x131072_1_0_0_1_n_n rfl W1 _ B1 _ _ k1 q).trans ?_
  rw [shapeCast_self]

/-- The reference's value vector at pair `j`: the perceptron of column `j` of the features (each bias a vector `[A]`). -/
theorem ref_col [Cert.ReferenceIdeal.Facts]
    (x0 : FVec Ideal Cert.ReferenceIdeal.S1x7x1x900000 .f32) (x3 : FVec Ideal Cert.ReferenceIdeal.S18x7 .f32)
    (x4 : FVec Ideal Cert.ReferenceIdeal.S18 .f32) (x5 : FVec Ideal Cert.ReferenceIdeal.S36x18 .f32)
    (x6 : FVec Ideal Cert.ReferenceIdeal.S36 .f32) (x7 : FVec Ideal Cert.ReferenceIdeal.S36x36 .f32)
    (x8 : FVec Ideal Cert.ReferenceIdeal.S36 .f32) (x9 : FVec Ideal Cert.ReferenceIdeal.S1x36 .f32)
    (x10 : FVec Ideal Cert.ReferenceIdeal.S1 .f32) (j : Fin 900000) :
    Cert.ReferenceIdeal.Read.val_main_v20 (F := Ideal) x0 x3 x4 x5 x6 x7 x8 x9 x10 (ix1 j)
      = mlpCol x3 (fun a => x4 (ix1 a)) x5 (fun a => x6 (ix1 a)) x7 (fun a => x8 (ix1 a)) x9 (fun a => x10 (ix1 a))
          (fun k => x0 (ix4 (0 : Fin 1) k (0 : Fin 1) j)) := by
  -- the last reshape [1, 900000] → [900000] reads position `j` of the one row
  unfold Cert.ReferenceIdeal.Read.val_main_v20 mlpCol
  refine (shapeCast_apply _ _ (ix1 j) (ix2 (0 : Fin 1) j) ?_).trans ?_
  · rw [Shape.rowMajor_val_two, Shape.rowMajor_val_one]
    show 0 * 900000 + j.val = j.val
    omega
  -- the last layer: one unit, no rectifier; its right operand is the third layer's rectified output
  unfold Cert.ReferenceIdeal.Read.val_main_v19 Cert.ReferenceIdeal.Read.val_main_v18 Cert.ReferenceIdeal.Read.val_main_v17 Cert.ReferenceIdeal.Read.val_main_v16
  refine (rLayer Cert.ReferenceIdeal.dot_S1x36_S36x900000_S1x900000_1_0_0_1_n_n rfl x9 _ x10 _ _ 0 j).trans ?_
  refine congrArg (fun h => dense x9 (fun a => x10 (ix1 a)) h 0) (funext fun k3 => ?_)
  -- the third layer at unit `k3`
  unfold Cert.ReferenceIdeal.Read.val_main_v15 Cert.ReferenceIdeal.Read.val_main_call2_v0 Cert.ReferenceIdeal.Read.val_main_call2_cst Cert.ReferenceIdeal.Read.val_main_v14 Cert.ReferenceIdeal.Read.val_main_v13
    Cert.ReferenceIdeal.Read.val_main_v12 Cert.ReferenceIdeal.Read.val_main_v11
  refine (rLayerAct Cert.ReferenceIdeal.dot_S36x36_S36x900000_S36x900000_1_0_0_1_n_n rfl x7 _ x8 _ _ _ k3 j).trans ?_
  refine congrArg (fun h => act (dense x7 (fun a => x8 (ix1 a)) h) k3) (funext fun k2 => ?_)
  -- the second layer at unit `k2`
  unfold Cert.ReferenceIdeal.Read.val_main_v10 Cert.ReferenceIdeal.Read.val_main_call1_v0 Cert.ReferenceIdeal.Read.val_main_call1_cst Cert.ReferenceIdeal.Read.val_main_v9 Cert.ReferenceIdeal.Read.val_main_v8
    Cert.ReferenceIdeal.Read.val_main_v7 Cert.ReferenceIdeal.Read.val_main_v6
  refine (rLayerAct Cert.ReferenceIdeal.dot_S36x18_S18x900000_S36x900000_1_0_0_1_n_n rfl x5 _ x6 _ _ _ k2 j).trans ?_
  refine congrArg (fun h => act (dense x5 (fun a => x6 (ix1 a)) h) k2) (funext fun k1 => ?_)
  -- the first layer at unit `k1`
  unfold Cert.ReferenceIdeal.Read.val_main_v5 Cert.ReferenceIdeal.Read.val_main_call0_v0 Cert.ReferenceIdeal.Read.val_main_call0_cst Cert.ReferenceIdeal.Read.val_main_v4 Cert.ReferenceIdeal.Read.val_main_v3
    Cert.ReferenceIdeal.Read.val_main_v2 Cert.ReferenceIdeal.Read.val_main_v1
  refine (rLayerAct Cert.ReferenceIdeal.dot_S18x7_S7x900000_S18x900000_1_0_0_1_n_n rfl x3 _ x4 _ _ _ k1 j).trans ?_
  refine congrArg (fun h => act (dense x3 (fun a => x4 (ix1 a)) h) k1) (funext fun k => ?_)
  -- the first reshape [1, 7, 1, 900000] → [7, 900000]: entry `(k, j)` sits at row-major position `900000 k + j` in both
  unfold Cert.ReferenceIdeal.Read.val_main_v0
  refine shapeCast_apply x0 _ (ix2 k j) (ix4 (0 : Fin 1) k (0 : Fin 1) j) ?_
  rw [Shape.rowMajor_val_four, Shape.rowMajor_val_two]
  show ((0 * 7 + k.val) * 1 + 0) * 900000 + j.val = k.val * 900000 + j.val
  omega

end Cert.Bridge

end
-- ==== Proof.ExactKI.lean ====
/-
  The kernel region of `KernelIdeal` at the extended reals, with the result NAMED: the body obligation in its exact form
  and the run whose post has every array of the pipeline at the contents computed from the proof data.

  At the extended reals the body's value at column `q` is the perceptron of column `q` of the feature block and of
  nothing else (`pay_col`). So at the last grid point, where the fetch fills only the buffer's first 113568 columns
  and leaves words nothing names in the rest, the columns of the result that the write-back moves (the same first
  113568) do not depend on those words: the result's buffer, cut to what is written back, is the named value's
  (`pay_cut_indep`). That is all the obligation of a window whose blocks overhang its array asks.
-/
import proofs.«427928_j30545807409840_1_alg».proof.Proof.BodyKI
import proofs.«427928_j30545807409840_1_alg».proof.Proof.MlpCols

set_option maxRecDepth 16384

noncomputable section

namespace Cert.KernelIdeal.Exact

open Cert.KernelIdeal Cert.KernelIdeal.Gen Cert.KernelIdeal.Body Cert.Bridge
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-! ## The columns a point moves -/

/-- At every grid point the features' window moves all seven rows, the result's its one row, and both the same
    number of columns (131072, at the last point 113568). -/
theorem moved_sizes : ∀ t : Fin cfg0.N, win0_0.xsize (grid0.coords t) 0 = 7 ∧ win0_9.xsize (grid0.coords t) 0 = 1
    ∧ win0_9.xsize (grid0.coords t) 1 = win0_0.xsize (grid0.coords t) 1 :=
  (by decide +kernel : ∀ t : Fin grid0.N, win0_0.xsize (grid0.coords t) 0 = 7 ∧ win0_9.xsize (grid0.coords t) 0 = 1
    ∧ win0_9.xsize (grid0.coords t) 1 = win0_0.xsize (grid0.coords t) 1)

/-- The body's value on the columns the write-back moves is the same whatever fills the features' buffer past the
    columns the fetch moved: column `q` of the value reads column `q` of the features only. -/
theorem pay_cut_indep (t : Fin cfg0.N) (xb : (win0_0.xblock (grid0.coords t)).Idx → EReal) (d d' : S7x131072.Idx → EReal)
    (W1 : Vec Ideal S18x7 .f32) (B1 : Vec Ideal S18x1 .f32) (W2 : Vec Ideal S36x18 .f32) (B2 : Vec Ideal S36x1 .f32)
    (W3 : Vec Ideal S36x36 .f32) (B3 : Vec Ideal S36x1 .f32) (W4 : Vec Ideal S1x36 .f32) (B4 : Vec Ideal S1x1 .f32) :
    win0_9.cut (grid0.coords t) (k0_pay1 (F := Ideal) (win0_0.fill (grid0.coords t) d xb) W1 B1 W2 B2 W3 B3 W4 B4)
      = win0_9.cut (grid0.coords t) (k0_pay1 (F := Ideal) (win0_0.fill (grid0.coords t) d' xb) W1 B1 W2 B2 W3 B3 W4 B4) := by
  obtain ⟨h7, h1, hq⟩ := moved_sizes t
  funext j
  have hj0 : (j 0).val < win0_9.xsize (grid0.coords t) 0 := (j 0).isLt
  have hj1 : (j 1).val < win0_9.xsize (grid0.coords t) 1 := (j 1).isLt
  have hq131 : (j 1).val < 131072 := Nat.lt_of_lt_of_le hj1 (win0_9.xsize_le (grid0.coords t) 1)
  have hx : win0_9.xinj (grid0.coords t) j = ix2 (0 : Fin 1) (⟨(j 1).val, hq131⟩ : Fin 131072) :=
    funext fun a => Fin.ext (by
      match a with
      | ⟨0, _⟩ => show (j 0).val = 0; omega
      | ⟨1, _⟩ => rfl)
  show k0_pay1 (F := Ideal) _ W1 B1 W2 B2 W3 B3 W4 B4 (win0_9.xinj (grid0.coords t) j)
    = k0_pay1 (F := Ideal) _ W1 B1 W2 B2 W3 B3 W4 B4 (win0_9.xinj (grid0.coords t) j)
  rw [hx, pay_col, pay_col]
  congr 1
  funext k
  have hm : win0_0.moved (grid0.coords t) (ix2 k (⟨(j 1).val, hq131⟩ : Fin 131072)) = true :=
    (win0_0.moved_iff _ _).mpr fun a => by
      match a with
      | ⟨0, _⟩ => show k.val < win0_0.xsize (grid0.coords t) 0; have := k.isLt; omega
      | ⟨1, _⟩ => show (j 1).val < win0_0.xsize (grid0.coords t) 1; omega
  unfold Window.fill
  rw [dif_pos hm, dif_pos hm]

/-! ## The body obligation, exact -/

/-- A result buffer holding `X` is, for the write-back, as good as one holding `Z` when the two agree on the columns
    the write-back moves: it holds `Z`'s moved part filled out with something (`X` itself). -/
theorem leaves_of_cut_eq (c : Dev nD) (t : Fin cfg0.N) (s9 : Fin 2) (X Z : S1x131072.Idx → Elt Ideal .f32)
    (h : win0_9.cut (grid0.coords t) X = win0_9.cut (grid0.coords t) Z) :
    owns (c : Thread nD τ) (stage0_9 s9) fullShare X
      ⊢ (iprop(∃ d, owns (c : Thread nD τ) (stage0_9 s9) fullShare
          (win0_9.fill (grid0.coords t) d (win0_9.cut (grid0.coords t) Z))) : sProp 𝕄) := by
  rw [← h]
  iintro H
  iexists X
  rw [win0_9.fill_cut]
  iexact H

variable (m : (ℓ : Loc nD τ sig) → Buf (Elt Ideal) ℓ) (ρ : Dev nD → PrngReg)

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

def bodyPost (c : Dev nD) (t : Fin cfg0.N) : sProp 𝕄 :=
  iprop((dats m 0 c).Φ t.succ ∗ (dats m 0 c).owesAt () t.succ
    ∗ (∃ d, owns (c : Thread nD τ) (st0_0 t) fullShare
        (win0_0.fill (grid0.coords t) d (win0_0.cut (grid0.coords t) ((dats m 0 c).after 0 t))))
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ (∃ d, owns (c : Thread nD τ) (st0_9 t) fullShare
        (win0_9.fill (grid0.coords t) d (win0_9.cut (grid0.coords t) ((dats m 0 c).after 9 t)))))

/-- The body at any point, the result named: as in the frame's obligation, and the result's buffer comes back holding
    the body's value of what the features' buffer held, which on the columns written back is the named value. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) _ _ _ _ _ _ _ _ _ _ _ _ _ _ _ _ _ _ _ _
    (win0_0.fill (grid0.coords t) d0 (iblk m c 0 t)) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]
  · iexists d0
    rw [show win0_0.cut (grid0.coords t) (xfull m c t) = iblk m c 0 t from win0_0.cut_fill _ _ _]
    iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  unfold xfull
  have hcut := pay_cut_indep t (iblk m c 0 t) d0 (fun _ => Scalar.ofBits (F := Ideal) .f32 0#32)
    (iblk m c 1 t) (iblk m c 2 t) (iblk m c 3 t) (iblk m c 4 t) (iblk m c 5 t) (iblk m c 6 t) (iblk m c 7 t) (iblk m c 8 t)
  iapply (leaves_of_cut_eq c t (cfg0.slots t 9) _ _ hcut)
  iexact H9

/-- The library's body obligation (nothing forgotten), at every point. -/
theorem body_obligation (c : Dev nD) :
    BodyObligationLoose (dats (F := Ideal) m 0 c) (defs₀ (F := Ideal)) Variants.none () Set.univ := fun t => by
  rw [bigSep_W0, bigSep_W0]
  exact sound_body m c t

/-! ## The run -/

set_option backward.isDefEq.respectTransparency.types false in
/-- At the compiled mesh, from any memory with zero counters: every weakly fair execution of @main at the extended reals
    terminates, and every final state has every array of the pipeline at what the proof data compute (the result at its
    launch contents overwritten block by block by the body's values) and every other unscoped buffer as the host lines
    after the region leave it. -/
theorem run_main : θ_run defs (onTc (τ := τ) (main (F := Ideal))) (s₀ m ρ)
    (Pipeline.FramePost cfgs (dats m) 0 (Pipeline.afterTail₀ cfgs (dats m) 0 (V0 m) [hostOps1, hostOps1_1, hostOps1_2, hostOps1_3, hostOps1_4])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1, hostOps1_1, hostOps1_2, hostOps1_3, hostOps1_4]) (hsub := sfx_sub) (hfresh := sfx_fresh) (hkeep := sfx_keeps)
    (hmain := hmain m Variants.none) (hA := A_eq m) (hΦ := fun _ _ => rfl)

end Cert.KernelIdeal.Exact

end
-- ==== Proof.TailKI.lean ====
/-
  The kernel program's two results after its region: the host operations that follow the pallas_call (flatten the index
  pairs, record the last writer per cell, gather, take maxima) applied to the region's result array and to the launch
  memory's index array, spelled as the shared vocabulary spells them.

  The lines after the region come in five stretches: the flattening and the last-writer scatter; a `where` that puts 0
  where a cell has no writer; the gather of the values at the writers; a second `where` that puts the sentinel where a
  cell has no writer; the reshape to 1000 × 1000 and the two maxima. Each stretch is read from ANY contents of the
  buffers it finds — what it leaves in the buffers a later stretch reads, as a function of the buffers it reads itself,
  and that it leaves the others alone — and the five readings are then composed from the region's exit contents.
-/
import proofs.«427928_j30545807409840_1_alg».proof.Proof.BodyKI
import proofs.«427928_j30545807409840_1_alg».proof.Proof.Spec
import Idealize.ShloMosaic.Lib.StableHlo.Run

set_option maxRecDepth 16384

noncomputable section

namespace Cert.KernelIdeal.Tail

open Cert.KernelIdeal Cert.KernelIdeal.Gen Cert.KernelIdeal.Body Cert.Bridge
open Idealize.ShloMosaic Idealize.ShloMosaic.TcCoe Idealize.ShloMosaic.ValueIdx
open Idealize.SL Idealize.SL.Sem
open Idealize.ShloMosaic.Pipeline (Dat Cfg Window)

/-! ## The five stretches, each from any contents `V` -/

section Stretches

variable (V : Valuation τ sig (Elt Ideal))

/-! ### Flattening and the last-writer scatter: reads the region's result and the index array -/

/-- The region's [1, 900000] result as 900000 values. -/
theorem st1_vals :
    StableHlo.after (hostOps1 (F := Ideal)) V (Proc.devRef .tc main_v6)
      = shapeCast S900000 (s := S1x900000) (V (Proc.devRef .tc main_v5)) Facts₀.shapeCasts_S1x900000_S900000 := by
  simp only [hostOps1]; after_results_simp; rfl

/-- Per flattened cell `1000 · row + col`, the greatest pair number naming it, or -1. -/
theorem st1_winner :
    StableHlo.after (hostOps1 (F := Ideal)) V (Proc.devRef .tc main_v22) = kWinner (V (Proc.devRef .tc main_arg2)) := by
  simp only [hostOps1]; after_results_simp; rfl

/-- Which cells have a writer: the winner is not negative. -/
theorem st1_has :
    StableHlo.after (hostOps1 (F := Ideal)) V (Proc.devRef .tc main_v24) = kHas (V (Proc.devRef .tc main_arg2)) := by
  simp only [hostOps1]; after_results_simp; rfl

/-- The scalar 0 the first `where` fills in. -/
theorem st1_zero :
    StableHlo.after (hostOps1 (F := Ideal)) V (Proc.devRef .tc main_c_4) = constantI S_ 32 0#32 := by
  simp only [hostOps1]; after_results_simp

/-! ### The first `where`: the winner, 0 where there is none -/

theorem st2_safe :
    StableHlo.after (hostOps1_1 (F := Ideal)) V (Proc.devRef .tc main_v25)
      = select (V (Proc.devRef .tc main_v24)) (V (Proc.devRef .tc main_v22))
          (broadcastInDim S1000000 ![] bcast_S_S1000000 (id (V (Proc.devRef .tc main_c_4)))) := by
  simp only [hostOps1_1]; after_results_simp; rfl

/-- It writes neither the value vector … -/
theorem st2_keep_vals :
    StableHlo.after (hostOps1_1 (F := Ideal)) V (Proc.devRef .tc main_v6) = V (Proc.devRef .tc main_v6) := by
  simp only [hostOps1_1]; after_results_simp

/-- … nor the has-a-writer mask. -/
theorem st2_keep_has :
    StableHlo.after (hostOps1_1 (F := Ideal)) V (Proc.devRef .tc main_v24) = V (Proc.devRef .tc main_v24) := by
  simp only [hostOps1_1]; after_results_simp

/-! ### The gather: the value of each cell's winner (a negative number counted from the end, as an index expression does) -/

theorem st3_gather :
    StableHlo.after (hostOps1_2 (F := Ideal)) V (Proc.devRef .tc main_v32)
      = Host.gather gather_S900000_S1000000x1_S1000000_n_0_n_n_0_1_1 (V (Proc.devRef .tc main_v6))
          (broadcastInDim S1000000x1 ![0] bcast_S1000000_S1000000x1_0
            (select (cmpi .slt (V (Proc.devRef .tc main_v25)) (broadcastInDim S1000000 ![] bcast_S_S1000000 (constantI S_ 32 0#32)))
              (addi (V (Proc.devRef .tc main_v25)) (broadcastInDim S1000000 ![] bcast_S_S1000000 (constantI S_ 32 900000#32)))
              (V (Proc.devRef .tc main_v25)))) := by
  simp only [hostOps1_2]; after_results_simp

/-- The sentinel the second `where` fills in. -/
theorem st3_sentinel :
    StableHlo.after (hostOps1_2 (F := Ideal)) V (Proc.devRef .tc main_cst) = constant (F := Ideal) S_ .f32 0xC61C3C00#32 := by
  simp only [hostOps1_2]; after_results_simp

/-- The mask is not written here either. -/
theorem st3_keep_has :
    StableHlo.after (hostOps1_2 (F := Ideal)) V (Proc.devRef .tc main_v24) = V (Proc.devRef .tc main_v24) := by
  simp only [hostOps1_2]; after_results_simp

/-! ### The second `where`: the gathered value, the sentinel where the cell has no writer -/

theorem st4_grid :
    StableHlo.after (hostOps1_3 (F := Ideal)) V (Proc.devRef .tc main_v33)
      = select (V (Proc.devRef .tc main_v24)) (V (Proc.devRef .tc main_v32))
          (broadcastInDim S1000000 ![] bcast_S_S1000000 (id (V (Proc.devRef .tc main_cst)))) := by
  simp only [hostOps1_3]; after_results_simp; rfl

/-! ### The maxima of the flat grid read as 1000 rows of 1000 -/

theorem st5_rows :
    StableHlo.after (hostOps1_4 (F := Ideal)) V (Proc.devRef .tc main_v35)
      = Host.reduce FloatOps.maximumf (shapeCast S1000x1000 (s := S1000000) (V (Proc.devRef .tc main_v33)) shapeCasts_S1000000_S1000x1000)
          (constant (F := Ideal) S_ .f32 0xFF800000#32) reducesTo_S1000x1000_S1000_d1 h_S_ := by
  simp only [hostOps1_4]; after_results_simp; rfl

theorem st5_cols :
    StableHlo.after (hostOps1_4 (F := Ideal)) V (Proc.devRef .tc main_v36)
      = Host.reduce FloatOps.maximumf (shapeCast S1000x1000 (s := S1000000) (V (Proc.devRef .tc main_v33)) shapeCasts_S1000000_S1000x1000)
          (constant (F := Ideal) S_ .f32 0xFF800000#32) reducesTo_S1000x1000_S1000_d0 h_S_ := by
  simp only [hostOps1_4]; after_results_simp; rfl

end Stretches

/-! ## From the region's exit contents -/

variable (m : (ℓ : Loc nD τ sig) → Buf (Elt Ideal) ℓ)

/-- The region's result array after the run, as the 900000 values the later lines read (the [1, 900000] array reshaped). -/
def valsOut (c : Dev nD) : FVec Ideal S900000 .f32 :=
  shapeCast S900000 (s := S1x900000) ((dats (F := Ideal) m 0 c).arrAt 9 cfg0.N) Facts₀.shapeCasts_S1x900000_S900000

/-- What the lines after the region find: the region's arrays as the run left them, every other buffer as the region
    found it. -/
abbrev exitVal (c : Dev nD) : Valuation τ sig (Elt Ideal) :=
  Pipeline.withArrays (cfgs 0).spec c (V0 m c) (fun w => (dats (F := Ideal) m 0 c).arrAt w (cfgs 0).N)

/-- The result buffer is the tenth window's array: it holds what the run left there. -/
theorem exit_result (c : Dev nD) :
    exitVal m c (Proc.devRef .tc main_v5) = (dats (F := Ideal) m 0 c).arrAt 9 cfg0.N :=
  Pipeline.withArrays_arr spec0 launch0.win.arr_inj c _ _ (9 : Fin 10)

/-- The index array is no window's array, and no line before the region writes it: it is as launched. -/
theorem exit_index (c : Dev nD) :
    exitVal m c (Proc.devRef .tc main_arg2) = m ((c.tc : Thread nD τ).loc main_arg2) :=
  (Pipeline.withArrays_of_ne _ c (V0 m c) _ main_arg2 (by exact (by decide : ∀ w, Pipeline.arrRef spec0 w ≠ main_arg2))).trans (V_main_arg2 m c)

/-- After the first four stretches the flat grid's buffer holds `kFlatGrid` of the region's values and the index array:
    the four readings composed, the mask and the winner being those of the index array, the gathered vector the
    region's values. -/
theorem tail_grid (c : Dev nD) :
    StableHlo.after (hostOps1_3 (F := Ideal)) (StableHlo.after hostOps1_2 (StableHlo.after hostOps1_1 (StableHlo.after hostOps1 (exitVal m c))))
        (Proc.devRef .tc main_v33)
      = kFlatGrid (valsOut m c) (m ((c.tc : Thread nD τ).loc main_arg2)) := by
  rw [st4_grid, st3_keep_has, st3_gather, st3_sentinel, st2_keep_has, st2_keep_vals, st2_safe, st1_has, st1_winner, st1_vals, st1_zero,
    exit_result, exit_index]
  rfl

/-- The first result: the grid's row maxima. -/
theorem tail_rows (c : Dev nD) :
    Pipeline.afterTail₀ cfgs (dats (F := Ideal) m) 0 (V0 m) [hostOps1, hostOps1_1, hostOps1_2, hostOps1_3, hostOps1_4] c main_v35
      = kRowMax (valsOut m c) (m ((c.tc : Thread nD τ).loc main_arg2)) := by
  unfold Pipeline.afterTail₀
  simp only [List.flatten_cons, List.flatten_nil, List.append_nil, StableHlo.after_append]
  rw [st5_rows]
  exact congrArg (fun g => Host.reduce FloatOps.maximumf (shapeCast S1000x1000 (s := S1000000) g shapeCasts_S1000000_S1000x1000)
    (constant (F := Ideal) S_ .f32 0xFF800000#32) reducesTo_S1000x1000_S1000_d1 h_S_) (tail_grid m c)

/-- The second result: the grid's column maxima. -/
theorem tail_cols (c : Dev nD) :
    Pipeline.afterTail₀ cfgs (dats (F := Ideal) m) 0 (V0 m) [hostOps1, hostOps1_1, hostOps1_2, hostOps1_3, hostOps1_4] c main_v36
      = kColMax (valsOut m c) (m ((c.tc : Thread nD τ).loc main_arg2)) := by
  unfold Pipeline.afterTail₀
  simp only [List.flatten_cons, List.flatten_nil, List.append_nil, StableHlo.after_append]
  rw [st5_cols]
  exact congrArg (fun g => Host.reduce FloatOps.maximumf (shapeCast S1000x1000 (s := S1000000) g shapeCasts_S1000000_S1000x1000)
    (constant (F := Ideal) S_ .f32 0xFF800000#32) reducesTo_S1000x1000_S1000_d0 h_S_) (tail_grid m c)

end Cert.KernelIdeal.Tail

end
-- ==== Proof.PreRange.lean ====
import proofs.«427928_j30545807409840_1_alg».proof.Proof.Spec
import proofs.«427928_j30545807409840_1_alg».proof.Pre_finite_inputs
import Idealize.ShloMosaic.Lib.ReduceAll

noncomputable section

namespace Cert.Bridge

open Idealize.ShloMosaic Idealize.ShloMosaic.ValueIdx

/-! ## The predicate's last conjunct

  The predicate is a chain of `and`s of eleven conjuncts, printed in four pieces; each piece ends by calling the next
  with the conjunction so far. Only the last piece matters here: its result is `and` of everything before with the
  conjunction, over all entries of the index array, of `entry ≥ 0` (computed one piece earlier and passed in) and
  `entry < 1000`. -/

section LastConjunct

open Cert.Pre_finite_inputs Cert.Pre_finite_inputs.Facts

variable [Cert.Pre_finite_inputs.Facts]

/-- If the last piece comes out 1, then at every entry the array `ge` passed in is 1 and the entry compares below the
    word 1000: an `and` that is 1 has both sides 1, and an `and`-reduction that is 1 met only 1s. -/
private theorem lastPiece_all (a2 : IVec S2x900000 32) (before : IVec S_ 1) (ge : IVec S2x900000 1)
    (e : fn_part3 (F := Ideal) a2 before ge ix0 = 1#1) (i : S2x900000.Idx) :
    ge i = 1#1 ∧ IntOp.cmpi .slt (a2 i) 1000#32 = 1#1 := by
  -- the result at the one index of the scalar shape: everything before, `and` the reduction
  have e' : IntOp.andi (before ix0)
      (Host.reduce IntOp.andi
        (andi ge (cmpi .slt a2 (broadcastInDim S2x900000 ![] bcast_S_S2x900000 (constantI S_ 32 1000#32))))
        (constantI S_ 1 1#1) reducesTo_S2x900000_S_d0_1 h_S_ ix0) = 1#1 := e
  obtain ⟨-, eAll⟩ := IntOp.andi_eq_one.1 e'
  -- every entry reduces into the one result index
  have ei : IntOp.andi (ge i) (IntOp.cmpi .slt (a2 i) 1000#32) = 1#1 :=
    Host.reduce_andi_eq_one _ _ reducesTo_S2x900000_S_d0_1 h_S_ ix0 eAll i (funext fun d => d.elim0)
  exact IntOp.andi_eq_one.1 ei

end LastConjunct

/-- The stated precondition holds only of an index array whose every entry lies in `[0, 1000)`: its last conjunct is
    the conjunction over all entries of `0 ≤ entry` and `entry < 1000` (signed compares). -/
theorem inRange_of_pre [Cert.Pre_finite_inputs.Facts]
    (a0 : FVec Ideal Cert.Pre_finite_inputs.S1x7x1x900000 .f32) (a1 : FVec Ideal Cert.Pre_finite_inputs.S1x1000x1000 .f32)
    (a2 : IVec Cert.Pre_finite_inputs.S2x900000 32) (a3 : FVec Ideal Cert.Pre_finite_inputs.S18x7 .f32)
    (a4 : FVec Ideal Cert.Pre_finite_inputs.S18 .f32) (a5 : FVec Ideal Cert.Pre_finite_inputs.S36x18 .f32)
    (a6 : FVec Ideal Cert.Pre_finite_inputs.S36 .f32) (a7 : FVec Ideal Cert.Pre_finite_inputs.S36x36 .f32)
    (a8 : FVec Ideal Cert.Pre_finite_inputs.S36 .f32) (a9 : FVec Ideal Cert.Pre_finite_inputs.S1x36 .f32)
    (a10 : FVec Ideal Cert.Pre_finite_inputs.S1 .f32)
    (h : Cert.Pre_finite_inputs.fn (F := Ideal) a0 a1 a2 a3 a4 a5 a6 a7 a8 a9 a10 = fun _ => 1#1) :
    InRange a2 := by
  intro i
  -- peel the four pieces; the conjuncts over the float arrays stay unnamed words
  obtain ⟨v13, v16, e1⟩ : ∃ v13 v16, Cert.Pre_finite_inputs.fn (F := Ideal) a0 a1 a2 a3 a4 a5 a6 a7 a8 a9 a10
      = Cert.Pre_finite_inputs.fn_part1 (F := Ideal) a2 a5 a6 a7 a8 a9 a10 v13 v16 := ⟨_, _, rfl⟩
  obtain ⟨v33, e2⟩ : ∃ v33, Cert.Pre_finite_inputs.fn_part1 (F := Ideal) a2 a5 a6 a7 a8 a9 a10 v13 v16
      = Cert.Pre_finite_inputs.fn_part2 (F := Ideal) a2 a8 a9 a10 v33 := ⟨_, rfl⟩
  obtain ⟨v48, e3⟩ : ∃ v48, Cert.Pre_finite_inputs.fn_part2 (F := Ideal) a2 a8 a9 a10 v33
      = Cert.Pre_finite_inputs.fn_part3 (F := Ideal) a2 v48
          (cmpi .sge a2 (broadcastInDim Cert.Pre_finite_inputs.S2x900000 ![]
            Cert.Pre_finite_inputs.Facts.bcast_S_S2x900000 (constantI Cert.Pre_finite_inputs.S_ 32 0#32))) := ⟨_, rfl⟩
  have e : Cert.Pre_finite_inputs.fn (F := Ideal) a0 a1 a2 a3 a4 a5 a6 a7 a8 a9 a10 ix0 = 1#1 := congrFun h ix0
  rw [e1, e2, e3] at e
  obtain ⟨hge, hlt⟩ := lastPiece_all a2 v48 _ e i
  -- the broadcast constant 0 reads 0 at every entry
  have hge' : IntOp.cmpi .sge (a2 i) 0#32 = 1#1 := hge
  -- signed compares that are 1 are the order of the signed values
  have h0 : (0#32 : BitVec 32).toInt ≤ (a2 i).toInt := IntOp.cmpi_sge.1 hge'
  have h1 : (a2 i).toInt < (1000#32 : BitVec 32).toInt := IntOp.cmpi_slt.1 hlt
  rw [show (0#32 : BitVec 32).toInt = 0 from by decide] at h0
  rw [show (1000#32 : BitVec 32).toInt = 1000 from by decide] at h1
  exact ⟨h0, h1⟩

end Cert.Bridge

end
-- ==== Proof.GridEq.lean ====
import proofs.«427928_j30545807409840_1_alg».proof.Proof.Spec
import Idealize.ShloMosaic.Lib.StableHlo.Predicate
import Idealize.ShloMosaic.Lib.Pipeline.Value
import Mathlib.Data.List.Range

noncomputable section

namespace Cert.Bridge

open Idealize.ShloMosaic Idealize.ShloMosaic.ValueIdx

namespace Grid

open Idealize.ShloMosaic.StableHlo.Predicate

/-! ## Two folds over the same positions, followed together -/

/-- Two left folds over `0, 1, …, n - 1` keep a joint property `P k` of the two accumulators, `k` the number of positions
    folded so far, if each position's pair of steps takes `P k` to `P (k + 1)`. -/
theorem foldl_finRange_ind₂ {σ₁ σ₂ : Type} (P : ℕ → σ₁ → σ₂ → Prop) :
    ∀ (n : ℕ) (g₁ : σ₁ → Fin n → σ₁) (g₂ : σ₂ → Fin n → σ₂) (x₁ : σ₁) (x₂ : σ₂), P 0 x₁ x₂ →
      (∀ k (hk : k < n) s₁ s₂, P k s₁ s₂ → P (k + 1) (g₁ s₁ ⟨k, hk⟩) (g₂ s₂ ⟨k, hk⟩)) →
      P n ((List.finRange n).foldl g₁ x₁) ((List.finRange n).foldl g₂ x₂) := by
  intro n
  induction n with
  | zero =>
    intro g₁ g₂ x₁ x₂ h0 _
    simpa using h0
  | succ n ih =>
    intro g₁ g₂ x₁ x₂ h0 hs
    rw [List.finRange_succ_last, List.foldl_append, List.foldl_append, List.foldl_map, List.foldl_map]
    exact hs n (Nat.lt_succ_self n) _ _
      (ih (fun s i => g₁ s i.castSucc) (fun s i => g₂ s i.castSucc) x₁ x₂ h0
        (fun k hk s₁ s₂ h => hs k (Nat.lt_succ_of_lt hk) s₁ s₂ h))

/-- The same when the two lengths are spelt differently but are both `n`. -/
theorem foldl_finRange_ind₂' {σ₁ σ₂ : Type} (P : ℕ → σ₁ → σ₂ → Prop) {n n₁ n₂ : ℕ} (h₁ : n₁ = n) (h₂ : n₂ = n)
    (g₁ : σ₁ → Fin n₁ → σ₁) (g₂ : σ₂ → Fin n₂ → σ₂) (x₁ : σ₁) (x₂ : σ₂) (h0 : P 0 x₁ x₂)
    (hs : ∀ k (hk : k < n) s₁ s₂, P k s₁ s₂ →
      P (k + 1) (g₁ s₁ ⟨k, h₁.symm ▸ hk⟩) (g₂ s₂ ⟨k, h₂.symm ▸ hk⟩)) :
    P n ((List.finRange n₁).foldl g₁ x₁) ((List.finRange n₂).foldl g₂ x₂) := by
  subst h₁
  subst h₂
  exact foldl_finRange_ind₂ P _ g₁ g₂ x₁ x₂ h0 hs

/-- One step of a scatter's fold: the update with value `b` lands at `t`, or is dropped. -/
def scStep {ι α : Type} [DecidableEq ι] (f : α → α → α) (r : ι → α) (t : Option ι) (b : α) : ι → α :=
  match t with
  | some i => fun i' => if i' = i then f (r i) b else r i'
  | none => r

theorem scStep_some {ι α : Type} [DecidableEq ι] (f : α → α → α) (r : ι → α) (i : ι) (b : α) :
    scStep f r (some i) b = fun i' => if i' = i then f (r i) b else r i' := rfl

/-- A scatter is the left fold of that step over the update positions in row-major order. -/
theorem scatter_eq_foldl {s si u : Shape} {α : Type} {w : ℕ} (d : ScatterDims s si u) (f : α → α → α)
    (x : s.Idx → α) (idx : IVec si w) (upd : u.Idx → α) :
    Host.scatter d f x idx upd
      = (List.finRange u.numel).foldl
          (fun r n => scStep f r (d.resultIdx? (u.rowMajor.symm n) idx) (upd (u.rowMajor.symm n))) x := by
  unfold Host.scatter
  congr 1
  funext r n
  cases d.resultIdx? (u.rowMajor.symm n) idx <;> rfl

/-! ## Positions and indices -/

theorem numel_vec (N : ℕ) : (⟨1, ![N]⟩ : Shape).numel = N := Shape.numel_rank1 _

theorem numel_row (N : ℕ) : (⟨2, ![1, N]⟩ : Shape).numel = N := by
  unfold Shape.numel
  rw [Fin.prod_univ_two]
  show 1 * N = N
  omega

/-- The rank-1 index at row-major position `k` is `k`. -/
theorem rowMajor_symm_vec {N : ℕ} (n : Fin (⟨1, ![N]⟩ : Shape).numel) (k : Fin N) (h : n.val = k.val) :
    (⟨1, ![N]⟩ : Shape).rowMajor.symm n = ix1 k := by
  rw [Equiv.symm_apply_eq]
  apply Fin.ext
  rw [Shape.rowMajor_val_one]
  exact h

/-- The index of a one-row rectangle at row-major position `k` is `(0, k)`. -/
theorem rowMajor_symm_row {N : ℕ} (n : Fin (⟨2, ![1, N]⟩ : Shape).numel) (k : Fin N) (h : n.val = k.val) :
    (⟨2, ![1, N]⟩ : Shape).rowMajor.symm n = ix2 (0 : Fin 1) k := by
  rw [Equiv.symm_apply_eq]
  apply Fin.ext
  rw [Shape.rowMajor_val_two]
  show n.val = 0 * N + k.val
  omega

/-- A vector as a one-column rectangle reads, at `(n, 0)`, the vector at `n`. -/
theorem bcast_col_apply {α : Type} {N : ℕ} (hN : N ≠ 1)
    (h : (⟨1, ![N]⟩ : Shape).BroadcastsInDim ⟨2, ![N, 1]⟩ ![0]) (y : (⟨1, ![N]⟩ : Shape).Idx → α) (n : Fin N) :
    broadcastInDim ⟨2, ![N, 1]⟩ ![0] h y (ix2 n (0 : Fin 1)) = y (ix1 n) :=
  broadcastInDim_apply _ _ _ _ (ix1 n) (fun a => by
    match a with
    | ⟨0, _⟩ => exact (if_neg hN).symm)

/-- A vector as a one-row rectangle reads, at `(0, n)`, the vector at `n`. -/
theorem bcast_row_apply {α : Type} {N : ℕ} (hN : N ≠ 1)
    (h : (⟨1, ![N]⟩ : Shape).BroadcastsInDim ⟨2, ![1, N]⟩ ![1]) (y : (⟨1, ![N]⟩ : Shape).Idx → α) (n : Fin N) :
    broadcastInDim ⟨2, ![1, N]⟩ ![1] h y (ix2 (0 : Fin 1) n) = y (ix1 n) :=
  broadcastInDim_apply _ _ _ _ (ix1 n) (fun a => by
    match a with
    | ⟨0, _⟩ => exact (if_neg hN).symm)

/-- Two columns side by side: column 0 of the result is the first … -/
theorem concat_cols_apply0 {α : Type} {N : ℕ} (xa xb : (⟨2, ![N, 1]⟩ : Shape).Idx → α)
    (h : Shape.Concatenates ([(⟨⟨2, ![N, 1]⟩, xa⟩ : (s : Shape) × (s.Idx → α)), ⟨⟨2, ![N, 1]⟩, xb⟩].map (·.1))
      ⟨2, ![N, 2]⟩ 1) (n : Fin N) :
    concatenate ⟨2, ![N, 2]⟩ 1 [⟨⟨2, ![N, 1]⟩, xa⟩, ⟨⟨2, ![N, 1]⟩, xb⟩] h (ix2 n (0 : Fin 2)) = xa (ix2 n (0 : Fin 1)) := by
  refine concatenate_apply_piece (t := ⟨2, ![N, 2]⟩) 1 _ h (ix2 n (0 : Fin 2)) 0 (Nat.zero_lt_succ 1) ⟨2, ![N, 1]⟩ xa rfl rfl
    0 rfl (ix2 n (0 : Fin 1)) ?_ ?_
  · intro b hb
    match b with
    | ⟨0, _⟩ => rfl
    | ⟨1, _⟩ => exact absurd rfl hb
  · rfl

/-- … and column 1 the second. -/
theorem concat_cols_apply1 {α : Type} {N : ℕ} (xa xb : (⟨2, ![N, 1]⟩ : Shape).Idx → α)
    (h : Shape.Concatenates ([(⟨⟨2, ![N, 1]⟩, xa⟩ : (s : Shape) × (s.Idx → α)), ⟨⟨2, ![N, 1]⟩, xb⟩].map (·.1))
      ⟨2, ![N, 2]⟩ 1) (n : Fin N) :
    concatenate ⟨2, ![N, 2]⟩ 1 [⟨⟨2, ![N, 1]⟩, xa⟩, ⟨⟨2, ![N, 1]⟩, xb⟩] h (ix2 n (1 : Fin 2)) = xb (ix2 n (0 : Fin 1)) := by
  refine concatenate_apply_piece (t := ⟨2, ![N, 2]⟩) 1 _ h (ix2 n (1 : Fin 2)) 1 (Nat.lt_succ_self 1) ⟨2, ![N, 1]⟩ xb rfl rfl
    1 rfl (ix2 n (0 : Fin 1)) ?_ ?_
  · intro b hb
    match b with
    | ⟨0, _⟩ => rfl
    | ⟨1, _⟩ => exact absurd rfl hb
  · rfl

/-! ## Words -/

/-- A word in `[0, 1000)` as a signed integer is below 1000 as a natural number. -/
theorem toNat_lt_of_range {a : BitVec 32} (h0 : 0 ≤ a.toInt) (h1 : a.toInt < 1000) : a.toNat < 1000 := by
  have := a.isLt
  rw [BitVec.toInt_eq_toNat_cond] at h0 h1
  split at h0 <;> omega

/-- `1000 · a + b` does not wrap for `a, b < 1000`. -/
theorem flat_toNat {a b : BitVec 32} (ha : a.toNat < 1000) (hb : b.toNat < 1000) :
    (IntOp.addi (IntOp.muli a 1000#32) b).toNat = 1000 * a.toNat + b.toNat := by
  show (a * 1000#32 + b).toNat = _
  rw [BitVec.toNat_add, BitVec.toNat_mul]
  show (a.toNat * 1000 % 2 ^ 32 + b.toNat) % 2 ^ 32 = _
  omega

/-- Counting a negative index from the end leaves a non-negative one alone. -/
theorem norm_of_nonneg (f m : BitVec 32) (hf : f.toNat < 2 ^ 31) :
    Scalar.select (IntOp.cmpi .slt f 0#32) (IntOp.addi f m) f = f := by
  unfold Scalar.select
  rw [if_neg]
  intro h
  exact Nat.not_lt_zero _ ((slt_iff_toNat hf (by decide)).mp h)

/-- The signed maximum of an earlier pair number (or -1) and a later pair number is the later one. -/
theorem maxsi_later (old : BitVec 32) (k : ℕ) (hk : k < 2 ^ 31)
    (h : old = 4294967295#32 ∨ ∃ m, m < k ∧ old = BitVec.ofNat 32 m) :
    IntOp.maxsi old (BitVec.ofNat 32 k) = BitVec.ofNat 32 k := by
  unfold IntOp.maxsi
  rw [if_neg]
  rw [BitVec.slt, decide_eq_true_eq, toInt_ofNat_small k hk]
  rcases h with rfl | ⟨m, hm, rfl⟩
  · rw [show (4294967295#32 : BitVec 32).toInt = -1 from by decide]; omega
  · rw [toInt_ofNat_small m (by omega)]; omega

/-- -1 is not `≥ 0` … -/
theorem sge_neg_one : IntOp.cmpi .sge (4294967295#32 : BitVec 32) 0#32 = 0#1 := by decide

/-- … and a pair number is. -/
theorem sge_ofNat (n : ℕ) (hn : n < 2 ^ 31) : IntOp.cmpi .sge (BitVec.ofNat 32 n) 0#32 = 1#1 := by
  rw [sge_iff_toNat (by rw [BitVec.toNat_ofNat]; omega) (by decide)]
  exact Nat.zero_le _

/-! ## The invariant of the two folds -/

/-- The value both programs leave where no pair names a cell. -/
def sentinel : EReal := Ideal.ofBits .f32 0xC61C3C00#32

/-- The flattened cell `1000 r + c`. -/
def cell (r c : Fin 1000) : (⟨1, ![1000000]⟩ : Shape).Idx :=
  ix1 (⟨1000 * r.val + c.val, by have := r.isLt; have := c.isLt; omega⟩ : Fin 1000000)

/-- The flattening is injective on the grid. -/
theorem cell_inj {r c r' c' : Fin 1000} (h : cell r c = cell r' c') : r = r' ∧ c = c' := by
  have h0 := congrArg (fun i => (i 0).val) h
  have h1 : 1000 * r.val + c.val = 1000 * r'.val + c'.val := h0
  have := r.isLt; have := c.isLt; have := r'.isLt; have := c'.isLt
  exact ⟨Fin.ext (by omega), Fin.ext (by omega)⟩

theorem ix3_inj {r c r' c' : Fin 1000} (h : ix3 (0 : Fin 1) r c = ix3 (0 : Fin 1) r' c') : r = r' ∧ c = c' :=
  ⟨congrFun h 1, congrFun h 2⟩

/-- After the first `k` pairs: each cell either still holds (-1, sentinel), or holds (`n`, `v n`) for one pair number
    `n < k`, the same `n` on both sides. -/
def Inv (v : (⟨1, ![900000]⟩ : Shape).Idx → EReal) (k : ℕ)
    (K : (⟨1, ![1000000]⟩ : Shape).Idx → BitVec 32) (R : (⟨3, ![1, 1000, 1000]⟩ : Shape).Idx → EReal) : Prop :=
  ∀ r c : Fin 1000,
    (K (cell r c) = 4294967295#32 ∧ R (ix3 (0 : Fin 1) r c) = sentinel) ∨
    (∃ n : Fin 900000, n.val < k ∧ K (cell r c) = BitVec.ofNat 32 n.val ∧ R (ix3 (0 : Fin 1) r c) = v (ix1 n))

/-- One pair folded on both sides: the cell it names takes the pair's number (the maximum of the old entry, -1 or an
    earlier number, and the new one) and its value; every other cell is untouched, on both sides, because the flattening is
    injective. -/
theorem Inv_step (v : (⟨1, ![900000]⟩ : Shape).Idx → EReal) (n : Fin 900000)
    (K : (⟨1, ![1000000]⟩ : Shape).Idx → BitVec 32) (R : (⟨3, ![1, 1000, 1000]⟩ : Shape).Idx → EReal)
    (h : Inv v n.val K R) (rn cn : Fin 1000) :
    Inv v (n.val + 1)
      (fun i' => if i' = cell rn cn then IntOp.maxsi (K (cell rn cn)) (BitVec.ofNat 32 n.val) else K i')
      (fun i' => if i' = ix3 (0 : Fin 1) rn cn then v (ix1 n) else R i') := by
  intro r c
  by_cases hrc : r = rn ∧ c = cn
  · obtain ⟨rfl, rfl⟩ := hrc
    refine Or.inr ⟨n, Nat.lt_succ_self _, ?_, ?_⟩
    · show (if cell r c = cell r c then _ else _) = _
      rw [if_pos rfl]
      refine maxsi_later _ _ (by have := n.isLt; omega) ?_
      rcases h r c with ⟨h1, _⟩ | ⟨m, hm, h1, _⟩
      · exact Or.inl h1
      · exact Or.inr ⟨m.val, hm, h1⟩
    · show (if ix3 (0 : Fin 1) r c = ix3 (0 : Fin 1) r c then _ else _) = _
      rw [if_pos rfl]
  · have hK : cell r c ≠ cell rn cn := fun e => hrc (cell_inj e)
    have hR : ix3 (0 : Fin 1) r c ≠ ix3 (0 : Fin 1) rn cn := fun e => hrc (ix3_inj e)
    show ((if cell r c = cell rn cn then _ else K (cell r c)) = _ ∧
        (if ix3 (0 : Fin 1) r c = ix3 (0 : Fin 1) rn cn then _ else R (ix3 (0 : Fin 1) r c)) = _) ∨
      (∃ m : Fin 900000, m.val < n.val + 1 ∧ (if cell r c = cell rn cn then _ else K (cell r c)) = _ ∧
        (if ix3 (0 : Fin 1) r c = ix3 (0 : Fin 1) rn cn then _ else R (ix3 (0 : Fin 1) r c)) = _)
    rw [if_neg hK, if_neg hR]
    rcases h r c with h1 | ⟨m, hm, h1, h2⟩
    · exact Or.inl h1
    · exact Or.inr ⟨m, Nat.lt_succ_of_lt hm, h1, h2⟩

/-! ## The pairs -/

/-- Row and column numbers of pair `n`, as natural numbers. -/
def rowN (x2 : IVec ⟨2, ![2, 900000]⟩ 32) (n : Fin 900000) : ℕ := (x2 (ix2 (0 : Fin 2) n)).toNat
def colN (x2 : IVec ⟨2, ![2, 900000]⟩ 32) (n : Fin 900000) : ℕ := (x2 (ix2 (1 : Fin 2) n)).toNat

theorem rowN_lt {x2 : IVec ⟨2, ![2, 900000]⟩ 32} (hx2 : InRange x2) (n : Fin 900000) : rowN x2 n < 1000 :=
  toNat_lt_of_range (hx2 _).1 (hx2 _).2
theorem colN_lt {x2 : IVec ⟨2, ![2, 900000]⟩ 32} (hx2 : InRange x2) (n : Fin 900000) : colN x2 n < 1000 :=
  toNat_lt_of_range (hx2 _).1 (hx2 _).2

/-- The grid cell pair `n` names. -/
def rowF {x2 : IVec ⟨2, ![2, 900000]⟩ 32} (hx2 : InRange x2) (n : Fin 900000) : Fin 1000 := ⟨rowN x2 n, rowN_lt hx2 n⟩
def colF {x2 : IVec ⟨2, ![2, 900000]⟩ 32} (hx2 : InRange x2) (n : Fin 900000) : Fin 1000 := ⟨colN x2 n, colN_lt hx2 n⟩

/-! ## The kernel's scatter, one step -/

section K
open Cert.KernelIdeal Cert.KernelIdeal.Facts₀ Cert.KernelIdeal.Facts
variable [Cert.KernelIdeal.Facts]

/-- The window of update `n` starts at the signed value of entry `(n, 0)` of the index column … -/
theorem kStart (n : Fin 900000) (idx : IVec S900000x1 32) (a : Fin 1) :
    scatter_S1000000_S900000x1_S900000_n_0_0_1.start (ix1 n) idx a = (idx (ix2 n (0 : Fin 1))).toInt := by
  obtain rfl : a = 0 := Subsingleton.elim _ _
  unfold ScatterDims.start
  rw [dif_pos (show (0 : Fin 1) ∈ scatter_S1000000_S900000x1_S900000_n_0_0_1.scatterDimsToOperandDims from
    List.mem_singleton.mpr rfl)]
  congr 2
  funext b
  match b with
  | ⟨0, _⟩ => rfl
  | ⟨1, _⟩ => rfl

/-- … and has no extent: the operand's one axis is inserted. -/
theorem kWindow (j : S900000.Idx) (a : Fin 1) :
    scatter_S1000000_S900000x1_S900000_n_0_0_1.window j a = 0 := by
  obtain rfl : a = 0 := Subsingleton.elim _ _
  unfold ScatterDims.window
  exact dif_neg (show (0 : Fin 1) ∉ (List.finRange 1).filter (· ∉ ([0] : List (Fin 1))) from by decide)

/-- So update `n` lands at cell `p` when entry `(n, 0)` of the index column is `p`, in range. -/
theorem kRes (n : Fin 900000) (idx : IVec S900000x1 32) (p : Fin 1000000)
    (hp : (idx (ix2 n (0 : Fin 1))).toInt = (p.val : ℤ)) :
    scatter_S1000000_S900000x1_S900000_n_0_0_1.resultIdx? (ix1 n) idx = some (ix1 p) := by
  unfold ScatterDims.resultIdx?
  have hc : ∀ a : Fin 1, 0 ≤ scatter_S1000000_S900000x1_S900000_n_0_0_1.start (ix1 n) idx a
        + (scatter_S1000000_S900000x1_S900000_n_0_0_1.window (ix1 n) a : ℤ)
      ∧ scatter_S1000000_S900000x1_S900000_n_0_0_1.start (ix1 n) idx a
        + (scatter_S1000000_S900000x1_S900000_n_0_0_1.window (ix1 n) a : ℤ) < (S1000000.size a : ℤ) := by
    intro a
    rw [kStart, kWindow, hp]
    obtain rfl : a = 0 := Subsingleton.elim _ _
    have := p.isLt
    show 0 ≤ (p.val : ℤ) + ((0 : ℕ) : ℤ) ∧ (p.val : ℤ) + ((0 : ℕ) : ℤ) < ((1000000 : ℕ) : ℤ)
    omega
  rw [dif_pos hc]
  congr 1
  funext a
  obtain rfl : a = 0 := Subsingleton.elim _ _
  apply Fin.ext
  show (scatter_S1000000_S900000x1_S900000_n_0_0_1.start (ix1 n) idx 0
        + (scatter_S1000000_S900000x1_S900000_n_0_0_1.window (ix1 n) 0 : ℤ)).toNat = p.val
  rw [kStart, kWindow, hp]
  omega

theorem kRows_apply (x2 : IVec S2x900000 32) (n : Fin 900000) : kRows x2 (ix1 n) = x2 (ix2 (0 : Fin 2) n) := by
  unfold kRows
  refine (shapeCast_apply _ _ (ix1 n) (ix2 (0 : Fin 1) n) ?_).trans ?_
  · rw [Shape.rowMajor_val_two, Shape.rowMajor_val_one]
    show 0 * 900000 + n.val = n.val
    omega
  · refine extractStridedSlice_apply _ _ _ _ (ix2 (0 : Fin 2) n) ?_
    intro a
    match a with
    | ⟨0, _⟩ => rfl
    | ⟨1, _⟩ => show n.val = 0 + n.val; omega

theorem kCols_apply (x2 : IVec S2x900000 32) (n : Fin 900000) : kCols x2 (ix1 n) = x2 (ix2 (1 : Fin 2) n) := by
  unfold kCols
  refine (shapeCast_apply _ _ (ix1 n) (ix2 (0 : Fin 1) n) ?_).trans ?_
  · rw [Shape.rowMajor_val_two, Shape.rowMajor_val_one]
    show 0 * 900000 + n.val = n.val
    omega
  · refine extractStridedSlice_apply _ _ _ _ (ix2 (1 : Fin 2) n) ?_
    intro a
    match a with
    | ⟨0, _⟩ => rfl
    | ⟨1, _⟩ => show n.val = 0 + n.val; omega

theorem kFlat_apply (x2 : IVec S2x900000 32) (n : Fin 900000) :
    kFlat x2 (ix1 n) = IntOp.addi (IntOp.muli (x2 (ix2 (0 : Fin 2) n)) 1000#32) (x2 (ix2 (1 : Fin 2) n)) := by
  unfold kFlat
  show IntOp.addi (IntOp.muli (kRows x2 (ix1 n)) 1000#32) (kCols x2 (ix1 n)) = _
  rw [kRows_apply, kCols_apply]

/-- The flattened cell of a pair in range is `1000 · row + col`, non-negative, so it is not counted from the end. -/
theorem kFlatN_apply (x2 : IVec S2x900000 32) (hx2 : InRange x2) (n : Fin 900000) :
    kFlatN x2 (ix1 n) = IntOp.addi (IntOp.muli (x2 (ix2 (0 : Fin 2) n)) 1000#32) (x2 (ix2 (1 : Fin 2) n)) := by
  have ha : (x2 (ix2 (0 : Fin 2) n)).toNat < 1000 := rowN_lt hx2 n
  have hb : (x2 (ix2 (1 : Fin 2) n)).toNat < 1000 := colN_lt hx2 n
  unfold kFlatN
  show Scalar.select (IntOp.cmpi .slt (kFlat x2 (ix1 n)) 0#32) (IntOp.addi (kFlat x2 (ix1 n)) 1000000#32)
    (kFlat x2 (ix1 n)) = _
  rw [kFlat_apply]
  refine norm_of_nonneg _ _ ?_
  rw [flat_toNat ha hb]
  omega

theorem kIdx_toInt (x2 : IVec S2x900000 32) (hx2 : InRange x2) (n : Fin 900000) :
    ((broadcastInDim S900000x1 ![0] bcast_S900000_S900000x1_0 (kFlatN x2)) (ix2 n (0 : Fin 1))).toInt
      = ((1000 * rowN x2 n + colN x2 n : ℕ) : ℤ) := by
  have ha : (x2 (ix2 (0 : Fin 2) n)).toNat < 1000 := rowN_lt hx2 n
  have hb : (x2 (ix2 (1 : Fin 2) n)).toNat < 1000 := colN_lt hx2 n
  rw [bcast_col_apply (by decide), kFlatN_apply x2 hx2 n,
    toInt_eq_toNat_of_lt (by rw [flat_toNat ha hb]; omega), flat_toNat ha hb]
  rfl

/-- Step `n` of the kernel's scatter: the cell pair `n` names takes the maximum of its entry and `n`. -/
theorem kStep_eq (x2 : IVec S2x900000 32) (hx2 : InRange x2) (K : S1000000.Idx → BitVec 32)
    (n' : Fin S900000.numel) (n : Fin 900000) (hn : n'.val = n.val) :
    scStep IntOp.maxsi K
        (scatter_S1000000_S900000x1_S900000_n_0_0_1.resultIdx? (S900000.rowMajor.symm n')
          (broadcastInDim S900000x1 ![0] bcast_S900000_S900000x1_0 (kFlatN x2)))
        (iotaInDim S900000 32 0 (S900000.rowMajor.symm n'))
      = fun i' => if i' = cell (rowF hx2 n) (colF hx2 n)
          then IntOp.maxsi (K (cell (rowF hx2 n) (colF hx2 n))) (BitVec.ofNat 32 n.val) else K i' := by
  rw [rowMajor_symm_vec n' n hn,
    kRes n _ ⟨1000 * rowN x2 n + colN x2 n, by have := rowN_lt hx2 n; have := colN_lt hx2 n; omega⟩
      (kIdx_toInt x2 hx2 n)]
  rfl

/-! ## The kernel's grid from its table of winners -/

/-- The gather of `v` at a column of start indices reads, at cell `p`, `v m` when entry `(p, 0)` of the column is `m`, in
    range (so the clamp does nothing). -/
theorem kGather_apply (v : FVec Ideal S900000 .f32) (idx : IVec S1000000x1 32) (p : Fin 1000000) (m : Fin 900000)
    (h : (idx (ix2 p (0 : Fin 1))).toInt = (m.val : ℤ)) :
    Host.gather gather_S900000_S1000000x1_S1000000_n_0_n_n_0_1_1 v idx (ix1 p) = v (ix1 m) := by
  have e1 : (Shape.Idx.ofFin p : S1000000.Idx) = ix1 p := by
    funext a
    match a with
    | ⟨0, _⟩ => rfl
  have e2 : (ixP p : S1000000x1.Idx) = ix2 p (0 : Fin 1) := by
    funext a
    match a with
    | ⟨0, _⟩ => rfl
    | ⟨1, _⟩ => rfl
  rw [← e1]
  refine (gather_take gather_S900000_S1000000x1_S1000000_n_0_n_n_0_1_1 rfl rfl rfl rfl v idx p (by decide)).trans ?_
  congr 1
  funext a
  match a with
  | ⟨0, _⟩ =>
    apply Fin.ext
    show min (idx (ixP p)).toInt.toNat (900000 - 1) = m.val
    rw [e2, h]
    have := m.isLt
    omega

/-- The kernel's grid at `(r, c)` from the winner recorded for cell `1000 r + c`: the sentinel for -1, `v n` for `n`. -/
theorem kGrid_of_winner (v : FVec Ideal S900000 .f32) (x2 : IVec S2x900000 32) (r c : Fin 1000) :
    (kWinner x2 (cell r c) = 4294967295#32 → kGrid v x2 (ix2 r c) = sentinel) ∧
    (∀ n : Fin 900000, kWinner x2 (cell r c) = BitVec.ofNat 32 n.val → kGrid v x2 (ix2 r c) = v (ix1 n)) := by
  have hg : kGrid v x2 (ix2 r c) = kFlatGrid v x2 (cell r c) := by
    unfold kGrid
    refine shapeCast_apply _ _ (ix2 r c) (cell r c) ?_
    rw [Shape.rowMajor_val_one, Shape.rowMajor_val_two]
    show 1000 * r.val + c.val = r.val * 1000 + c.val
    omega
  have hf : kFlatGrid v x2 (cell r c)
      = Scalar.select (IntOp.cmpi .sge (kWinner x2 (cell r c)) 0#32)
          (Host.gather gather_S900000_S1000000x1_S1000000_n_0_n_n_0_1_1 v
            (broadcastInDim S1000000x1 ![0] bcast_S1000000_S1000000x1_0 (kSafeN x2)) (cell r c))
          sentinel := rfl
  refine ⟨fun hA => ?_, fun n hB => ?_⟩
  · rw [hg, hf, hA, sge_neg_one, select_zero]
  · have hn : n.val < 2 ^ 31 := by have := n.isLt; omega
    have hs : kSafe x2 (cell r c) = BitVec.ofNat 32 n.val := by
      show Scalar.select (IntOp.cmpi .sge (kWinner x2 (cell r c)) 0#32) (kWinner x2 (cell r c)) 0#32 = _
      rw [hB, sge_ofNat n.val hn, select_one]
    have hsn : kSafeN x2 (cell r c) = BitVec.ofNat 32 n.val := by
      show Scalar.select (IntOp.cmpi .slt (kSafe x2 (cell r c)) 0#32) (IntOp.addi (kSafe x2 (cell r c)) 900000#32)
        (kSafe x2 (cell r c)) = _
      rw [hs]
      exact norm_of_nonneg _ _ (by rw [BitVec.toNat_ofNat]; omega)
    rw [hg, hf, hB, sge_ofNat n.val hn, select_one]
    refine kGather_apply v _ ⟨1000 * r.val + c.val, by have := r.isLt; have := c.isLt; omega⟩ n ?_
    rw [bcast_col_apply (by decide)]
    show (kSafeN x2 (cell r c)).toInt = _
    rw [hsn, toInt_ofNat_small n.val hn]

end K

/-! ## The reference's scatter, one step -/

section R
open Cert.ReferenceIdeal Cert.ReferenceIdeal.Facts₀ Cert.ReferenceIdeal.Facts
variable [Cert.ReferenceIdeal.Facts]

/-- The window of update `(0, n)` starts at 0 on the leading axis, at the signed values of entries `(n, 0)` and `(n, 1)` of
    the index array on the two grid axes … -/
theorem rStart0 (j : S1x900000.Idx) (idx : IVec S900000x2 32) :
    scatter_S1x1000x1000_S900000x2_S1x900000_0_12_12_1.start j idx 0 = 0 := by
  unfold ScatterDims.start
  exact dif_neg (show (0 : Fin 3) ∉ ([1, 2] : List (Fin 3)) from by decide)

theorem rStart1 (n : Fin 900000) (idx : IVec S900000x2 32) :
    scatter_S1x1000x1000_S900000x2_S1x900000_0_12_12_1.start (ix2 (0 : Fin 1) n) idx 1
      = (idx (ix2 n (0 : Fin 2))).toInt := by
  unfold ScatterDims.start
  rw [dif_pos (show (1 : Fin 3) ∈ scatter_S1x1000x1000_S900000x2_S1x900000_0_12_12_1.scatterDimsToOperandDims from
    (show (1 : Fin 3) ∈ ([1, 2] : List (Fin 3)) from by decide))]
  congr 2
  funext b
  match b with
  | ⟨0, _⟩ => rfl
  | ⟨1, _⟩ => rfl

theorem rStart2 (n : Fin 900000) (idx : IVec S900000x2 32) :
    scatter_S1x1000x1000_S900000x2_S1x900000_0_12_12_1.start (ix2 (0 : Fin 1) n) idx 2
      = (idx (ix2 n (1 : Fin 2))).toInt := by
  unfold ScatterDims.start
  rw [dif_pos (show (2 : Fin 3) ∈ scatter_S1x1000x1000_S900000x2_S1x900000_0_12_12_1.scatterDimsToOperandDims from
    (show (2 : Fin 3) ∈ ([1, 2] : List (Fin 3)) from by decide))]
  congr 2
  funext b
  match b with
  | ⟨0, _⟩ => rfl
  | ⟨1, _⟩ => rfl

/-- … and its coordinate is 0 everywhere: the leading axis has one element, the grid axes are inserted. -/
theorem rWindow (j : S1x900000.Idx) (a : Fin 3) :
    scatter_S1x1000x1000_S900000x2_S1x900000_0_12_12_1.window j a = 0 := by
  unfold ScatterDims.window
  match a with
  | ⟨0, _⟩ =>
    split
    · show (j 0).val = 0
      have h : (j 0).val < 1 := (j 0).isLt
      omega
    · rfl
  | ⟨1, _⟩ => exact dif_neg (show (1 : Fin 3) ∉ (List.finRange 3).filter (· ∉ ([1, 2] : List (Fin 3))) from by decide)
  | ⟨2, _⟩ => exact dif_neg (show (2 : Fin 3) ∉ (List.finRange 3).filter (· ∉ ([1, 2] : List (Fin 3))) from by decide)

/-- So update `(0, n)` lands at `(0, r, c)` when row `n` of the index array is `(r, c)`, in range. -/
theorem rRes (n : Fin 900000) (idx : IVec S900000x2 32) (r c : Fin 1000)
    (hr : (idx (ix2 n (0 : Fin 2))).toInt = (r.val : ℤ)) (hc : (idx (ix2 n (1 : Fin 2))).toInt = (c.val : ℤ)) :
    scatter_S1x1000x1000_S900000x2_S1x900000_0_12_12_1.resultIdx? (ix2 (0 : Fin 1) n) idx
      = some (ix3 (0 : Fin 1) r c) := by
  unfold ScatterDims.resultIdx?
  have hlr := r.isLt
  have hlc := c.isLt
  have hin : ∀ a : Fin 3, 0 ≤ scatter_S1x1000x1000_S900000x2_S1x900000_0_12_12_1.start (ix2 (0 : Fin 1) n) idx a
        + (scatter_S1x1000x1000_S900000x2_S1x900000_0_12_12_1.window (ix2 (0 : Fin 1) n) a : ℤ)
      ∧ scatter_S1x1000x1000_S900000x2_S1x900000_0_12_12_1.start (ix2 (0 : Fin 1) n) idx a
        + (scatter_S1x1000x1000_S900000x2_S1x900000_0_12_12_1.window (ix2 (0 : Fin 1) n) a : ℤ)
          < (S1x1000x1000.size a : ℤ) := by
    intro a
    rw [rWindow]
    match a with
    | ⟨0, _⟩ =>
      rw [show (⟨0, by omega⟩ : Fin 3) = 0 from rfl, rStart0]
      show 0 ≤ (0 : ℤ) + ((0 : ℕ) : ℤ) ∧ (0 : ℤ) + ((0 : ℕ) : ℤ) < ((1 : ℕ) : ℤ)
      omega
    | ⟨1, _⟩ =>
      rw [show (⟨1, by omega⟩ : Fin 3) = 1 from rfl, rStart1, hr]
      show 0 ≤ (r.val : ℤ) + ((0 : ℕ) : ℤ) ∧ (r.val : ℤ) + ((0 : ℕ) : ℤ) < ((1000 : ℕ) : ℤ)
      omega
    | ⟨2, _⟩ =>
      rw [show (⟨2, by omega⟩ : Fin 3) = 2 from rfl, rStart2, hc]
      show 0 ≤ (c.val : ℤ) + ((0 : ℕ) : ℤ) ∧ (c.val : ℤ) + ((0 : ℕ) : ℤ) < ((1000 : ℕ) : ℤ)
      omega
  rw [dif_pos hin]
  congr 1
  funext a
  apply Fin.ext
  match a with
  | ⟨0, _⟩ =>
    show (scatter_S1x1000x1000_S900000x2_S1x900000_0_12_12_1.start (ix2 (0 : Fin 1) n) idx 0
        + (scatter_S1x1000x1000_S900000x2_S1x900000_0_12_12_1.window (ix2 (0 : Fin 1) n) 0 : ℤ)).toNat = 0
    rw [rStart0, rWindow]
    rfl
  | ⟨1, _⟩ =>
    show (scatter_S1x1000x1000_S900000x2_S1x900000_0_12_12_1.start (ix2 (0 : Fin 1) n) idx 1
        + (scatter_S1x1000x1000_S900000x2_S1x900000_0_12_12_1.window (ix2 (0 : Fin 1) n) 1 : ℤ)).toNat = r.val
    rw [rStart1, rWindow, hr]
    omega
  | ⟨2, _⟩ =>
    show (scatter_S1x1000x1000_S900000x2_S1x900000_0_12_12_1.start (ix2 (0 : Fin 1) n) idx 2
        + (scatter_S1x1000x1000_S900000x2_S1x900000_0_12_12_1.window (ix2 (0 : Fin 1) n) 2 : ℤ)).toNat = c.val
    rw [rStart2, rWindow, hc]
    omega

theorem rRows_apply (x2 : IVec S2x900000 32) (n : Fin 900000) : rRows x2 (ix1 n) = x2 (ix2 (0 : Fin 2) n) := by
  unfold rRows
  refine (shapeCast_apply _ _ (ix1 n) (ix2 (0 : Fin 1) n) ?_).trans ?_
  · rw [Shape.rowMajor_val_two, Shape.rowMajor_val_one]
    show 0 * 900000 + n.val = n.val
    omega
  · refine extractStridedSlice_apply _ _ _ _ (ix2 (0 : Fin 2) n) ?_
    intro a
    match a with
    | ⟨0, _⟩ => rfl
    | ⟨1, _⟩ => show n.val = 0 + n.val; omega

theorem rCols_apply (x2 : IVec S2x900000 32) (n : Fin 900000) : rCols x2 (ix1 n) = x2 (ix2 (1 : Fin 2) n) := by
  unfold rCols
  refine (shapeCast_apply _ _ (ix1 n) (ix2 (0 : Fin 1) n) ?_).trans ?_
  · rw [Shape.rowMajor_val_two, Shape.rowMajor_val_one]
    show 0 * 900000 + n.val = n.val
    omega
  · refine extractStridedSlice_apply _ _ _ _ (ix2 (1 : Fin 2) n) ?_
    intro a
    match a with
    | ⟨0, _⟩ => rfl
    | ⟨1, _⟩ => show n.val = 0 + n.val; omega

theorem rNorm_apply (y : IVec S900000 32) (n : Fin 900000) (h : (y (ix1 n)).toNat < 2 ^ 31) :
    rNorm y (ix1 n) = y (ix1 n) := by
  unfold rNorm
  exact norm_of_nonneg _ _ h

/-- Row `n` of the reference's index array is pair `n`: its row number, then its column number. -/
theorem rIdx_apply0 (x2 : IVec S2x900000 32) (hx2 : InRange x2) (n : Fin 900000) :
    rIdx x2 (ix2 n (0 : Fin 2)) = x2 (ix2 (0 : Fin 2) n) := by
  have ha : (x2 (ix2 (0 : Fin 2) n)).toNat < 1000 := rowN_lt hx2 n
  unfold rIdx
  refine (concat_cols_apply0 _ _ _ n).trans ?_
  rw [bcast_col_apply (by decide), rNorm_apply _ _ (by rw [rRows_apply]; omega), rRows_apply]

theorem rIdx_apply1 (x2 : IVec S2x900000 32) (hx2 : InRange x2) (n : Fin 900000) :
    rIdx x2 (ix2 n (1 : Fin 2)) = x2 (ix2 (1 : Fin 2) n) := by
  have hb : (x2 (ix2 (1 : Fin 2) n)).toNat < 1000 := colN_lt hx2 n
  unfold rIdx
  refine (concat_cols_apply1 _ _ _ n).trans ?_
  rw [bcast_col_apply (by decide), rNorm_apply _ _ (by rw [rCols_apply]; omega), rCols_apply]

/-- Step `n` of the reference's scatter: the cell pair `n` names takes `v n`. -/
theorem rStep_eq (v : FVec Ideal S900000 .f32) (x2 : IVec S2x900000 32) (hx2 : InRange x2)
    (R : S1x1000x1000.Idx → EReal) (n' : Fin S1x900000.numel) (n : Fin 900000) (hn : n'.val = n.val) :
    scStep (fun _ b => b) R
        (scatter_S1x1000x1000_S900000x2_S1x900000_0_12_12_1.resultIdx? (S1x900000.rowMajor.symm n') (rIdx x2))
        ((broadcastInDim S1x900000 ![1] bcast_S900000_S1x900000_1 v) (S1x900000.rowMajor.symm n'))
      = fun i' => if i' = ix3 (0 : Fin 1) (rowF hx2 n) (colF hx2 n) then v (ix1 n) else R i' := by
  have ha : (x2 (ix2 (0 : Fin 2) n)).toNat < 1000 := rowN_lt hx2 n
  have hb : (x2 (ix2 (1 : Fin 2) n)).toNat < 1000 := colN_lt hx2 n
  rw [rowMajor_symm_row n' n hn,
    rRes n _ (rowF hx2 n) (colF hx2 n)
      (by rw [rIdx_apply0 x2 hx2 n]; exact toInt_eq_toNat_of_lt (by omega))
      (by rw [rIdx_apply1 x2 hx2 n]; exact toInt_eq_toNat_of_lt (by omega)),
    bcast_row_apply (by decide)]
  rfl

end R

end Grid

/-- Under the range condition the two grids agree cell by cell: the reference's overwriting scatter leaves in cell
    `(r, c)` the value of the last pair naming it, which is the value the kernel's program gathers at the greatest pair
    number recorded for the flattened cell `1000 r + c`; and both leave the sentinel where no pair names the cell. -/
theorem grid_eq [Cert.KernelIdeal.Facts] [Cert.ReferenceIdeal.Facts]
    (v : FVec Ideal Cert.KernelIdeal.S900000 .f32) (x2 : IVec Cert.KernelIdeal.S2x900000 32) (hx2 : InRange x2)
    (r c : Fin 1000) :
    rGrid v x2 (ix3 (0 : Fin 1) r c) = kGrid v x2 (ix2 r c) := by
  -- both scatters fold over the pairs in order; follow them together
  have hInv : Grid.Inv v 900000 (kWinner x2) (rGrid v x2) := by
    unfold kWinner rGrid
    rw [Grid.scatter_eq_foldl, Grid.scatter_eq_foldl]
    refine Grid.foldl_finRange_ind₂' (Grid.Inv v) (Grid.numel_vec 900000) (Grid.numel_row 900000) _ _ _ _ ?_ ?_
    · -- before any pair: -1 and the sentinel everywhere
      intro r c
      exact Or.inl ⟨rfl, rfl⟩
    · intro k hk K R h
      have e1 := Grid.kStep_eq x2 hx2 K ⟨k, (Grid.numel_vec 900000).symm ▸ hk⟩ ⟨k, hk⟩ rfl
      have e2 := Grid.rStep_eq v x2 hx2 R ⟨k, (Grid.numel_row 900000).symm ▸ hk⟩ ⟨k, hk⟩ rfl
      have h' := Grid.Inv_step v ⟨k, hk⟩ K R h (Grid.rowF hx2 ⟨k, hk⟩) (Grid.colF hx2 ⟨k, hk⟩)
      rw [← e1, ← e2] at h'
      exact h'
  -- after all pairs: read the kernel's grid off its table of winners
  rcases hInv r c with ⟨hK, hR⟩ | ⟨n, _, hK, hR⟩
  · rw [hR, (Grid.kGrid_of_winner v x2 r c).1 hK]
  · rw [hR, (Grid.kGrid_of_winner v x2 r c).2 n hK]

end Cert.Bridge

end
-- ==== Proof.MaxEq.lean ====
import proofs.«427928_j30545807409840_1_alg».proof.Proof.Spec
import Idealize.ShloMosaic.PureOps.Reduce
import Idealize.ShloMosaic.Lib.Pipeline.Value

noncomputable section

namespace Cert.Bridge

open Idealize.ShloMosaic Idealize.ShloMosaic.ValueIdx

/-! ## Two folds of one operation over the same coordinates -/

/-- A fold over all of `Fin n` depends on the folded function only through its values. -/
private theorem fold_univ_congr {α : Type} {n : ℕ} (op : α → α → α) [Std.Commutative op] [Std.Associative op]
    (b : α) (u w : Fin n → α) (e : ∀ k, u k = w k) :
    (Finset.univ : Finset (Fin n)).fold op b u = (Finset.univ : Finset (Fin n)).fold op b w :=
  congrArg (fun t => (Finset.univ : Finset (Fin n)).fold op b t) (funext e)

/-! ## The index over a result index with one coordinate put back

  For each of the four reductions: the source index that lies over the result index and has `k` on the dropped axis,
  named by its coordinates. -/

section Lifts

open Cert.ReferenceIdeal in
/-- Dropping the last axis of 1 × 1000 × 1000: over `(0, r)` with `k` put back lies `(0, r, k)`. -/
private theorem lift3_last (hR : S1x1000x1000.Reduces [2] S1x1000) (r k : Fin 1000) :
    hR.lift (ix2 (0 : Fin 1) r) k = ix3 (0 : Fin 1) r k := by
  funext c
  apply Fin.ext
  match c with
  | ⟨0, _⟩ => rfl
  | ⟨1, _⟩ => rfl
  | ⟨2, _⟩ => rfl

open Cert.ReferenceIdeal in
/-- Dropping the middle axis of 1 × 1000 × 1000: over `(0, c)` with `k` put back lies `(0, k, c)`. -/
private theorem lift3_mid (hR : S1x1000x1000.Reduces [1] S1x1000) (c k : Fin 1000) :
    hR.lift (ix2 (0 : Fin 1) c) k = ix3 (0 : Fin 1) k c := by
  funext d
  apply Fin.ext
  match d with
  | ⟨0, _⟩ => rfl
  | ⟨1, _⟩ => rfl
  | ⟨2, _⟩ => rfl

open Cert.KernelIdeal in
/-- Dropping axis 1 of 1000 × 1000: over `r` with `k` put back lies `(r, k)`. -/
private theorem lift2_last (hK : S1000x1000.Reduces [1] S1000) (r k : Fin 1000) :
    hK.lift (ix1 r) k = ix2 r k := by
  funext c
  apply Fin.ext
  match c with
  | ⟨0, _⟩ => rfl
  | ⟨1, _⟩ => rfl

open Cert.KernelIdeal in
/-- Dropping axis 0 of 1000 × 1000: over `c` with `k` put back lies `(k, c)`. -/
private theorem lift2_first (hK : S1000x1000.Reduces [0] S1000) (c k : Fin 1000) :
    hK.lift (ix1 c) k = ix2 k c := by
  funext d
  apply Fin.ext
  match d with
  | ⟨0, _⟩ => rfl
  | ⟨1, _⟩ => rfl

end Lifts

/-- Row maxima: the reference's maximum over the last axis of a 1 × 1000 × 1000 grid, reshaped to 1000 entries, is the
    kernel program's maximum over axis 1 of the 1000 × 1000 grid with the same cells. -/
theorem rowMax_eq [Cert.KernelIdeal.Facts] [Cert.ReferenceIdeal.Facts]
    (g3 : FVec Ideal Cert.ReferenceIdeal.S1x1000x1000 .f32) (g2 : FVec Ideal Cert.KernelIdeal.S1000x1000 .f32)
    (h : ∀ r c : Fin 1000, g3 (ix3 (0 : Fin 1) r c) = g2 (ix2 r c)) :
    shapeCast Cert.ReferenceIdeal.S1000
        (Host.reduce FloatOps.maximumf g3 (constant (F := Ideal) Cert.ReferenceIdeal.S_ .f32 0xFF800000#32)
          Cert.ReferenceIdeal.Facts₀.reducesTo_S1x1000x1000_S1x1000_d2 Cert.ReferenceIdeal.Facts₀.h_S_)
        Cert.ReferenceIdeal.Facts₀.shapeCasts_S1x1000_S1000
      = Host.reduce FloatOps.maximumf g2 (constant (F := Ideal) Cert.KernelIdeal.S_ .f32 0xFF800000#32)
          Cert.KernelIdeal.Facts₀.reducesTo_S1000x1000_S1000_d1 Cert.KernelIdeal.Facts₀.h_S_ := by
  funext j
  obtain ⟨r, rfl⟩ : ∃ r, j = ix1 r := ⟨j 0, eq_ix1 j⟩
  have hR : Cert.ReferenceIdeal.S1x1000x1000.Reduces [2] Cert.ReferenceIdeal.S1x1000 := by decide
  have hK : Cert.KernelIdeal.S1000x1000.Reduces [1] Cert.KernelIdeal.S1000 := by decide
  -- the reshape reads row `r` of the 1 × 1000 array of maxima
  rw [shapeCast_apply _ Cert.ReferenceIdeal.Facts₀.shapeCasts_S1x1000_S1000 (ix1 r) (ix2 (0 : Fin 1) r)
    (by rw [Shape.rowMajor_val_two, Shape.rowMajor_val_one]; show 0 * 1000 + r.val = r.val; omega)]
  -- each maximum is the fold of `max` over the 1000 coordinates of the dropped axis
  rw [Host.reduce_eq_fold_single _ g3 _ _ hR, Host.reduce_eq_fold_single _ g2 _ _ hK]
  -- the same starting word, and cell `(0, r, k)` against cell `(r, k)`
  refine fold_univ_congr (n := 1000) _ _ _ _ fun k => ?_
  show g3 (hR.lift (ix2 (0 : Fin 1) r) k) = g2 (hK.lift (ix1 r) k)
  rw [lift3_last, lift2_last]
  exact h r k

/-- Column maxima: likewise over the middle axis against axis 0. -/
theorem colMax_eq [Cert.KernelIdeal.Facts] [Cert.ReferenceIdeal.Facts]
    (g3 : FVec Ideal Cert.ReferenceIdeal.S1x1000x1000 .f32) (g2 : FVec Ideal Cert.KernelIdeal.S1000x1000 .f32)
    (h : ∀ r c : Fin 1000, g3 (ix3 (0 : Fin 1) r c) = g2 (ix2 r c)) :
    shapeCast Cert.ReferenceIdeal.S1000
        (Host.reduce FloatOps.maximumf g3 (constant (F := Ideal) Cert.ReferenceIdeal.S_ .f32 0xFF800000#32)
          Cert.ReferenceIdeal.Facts₀.reducesTo_S1x1000x1000_S1x1000_d1 Cert.ReferenceIdeal.Facts₀.h_S_)
        Cert.ReferenceIdeal.Facts₀.shapeCasts_S1x1000_S1000
      = Host.reduce FloatOps.maximumf g2 (constant (F := Ideal) Cert.KernelIdeal.S_ .f32 0xFF800000#32)
          Cert.KernelIdeal.Facts₀.reducesTo_S1000x1000_S1000_d0 Cert.KernelIdeal.Facts₀.h_S_ := by
  funext j
  obtain ⟨c, rfl⟩ : ∃ c, j = ix1 c := ⟨j 0, eq_ix1 j⟩
  have hR : Cert.ReferenceIdeal.S1x1000x1000.Reduces [1] Cert.ReferenceIdeal.S1x1000 := by decide
  have hK : Cert.KernelIdeal.S1000x1000.Reduces [0] Cert.KernelIdeal.S1000 := by decide
  -- the reshape reads column `c` of the 1 × 1000 array of maxima
  rw [shapeCast_apply _ Cert.ReferenceIdeal.Facts₀.shapeCasts_S1x1000_S1000 (ix1 c) (ix2 (0 : Fin 1) c)
    (by rw [Shape.rowMajor_val_two, Shape.rowMajor_val_one]; show 0 * 1000 + c.val = c.val; omega)]
  -- each maximum is the fold of `max` over the 1000 coordinates of the dropped axis
  rw [Host.reduce_eq_fold_single _ g3 _ _ hR, Host.reduce_eq_fold_single _ g2 _ _ hK]
  -- the same starting word, and cell `(0, k, c)` against cell `(k, c)`
  refine fold_univ_congr (n := 1000) _ _ _ _ fun k => ?_
  show g3 (hR.lift (ix2 (0 : Fin 1) c) k) = g2 (hK.lift (ix1 c) k)
  rw [lift3_mid, lift2_first]
  exact h k c

end Cert.Bridge

end
-- ==== Proof.RegionValue.lean ====
/-
  What the kernel region leaves in its result array, at the extended reals: entry `(0, j)` is the perceptron of column
  `j` of the features, for every `j < 900000` — the seven blocks' write-backs (the last cut at the array's end) piece
  one whole-array function back together.
-/
import proofs.«427928_j30545807409840_1_alg».proof.Proof.BodyKI
import proofs.«427928_j30545807409840_1_alg».proof.Proof.MlpCols
import proofs.«427928_j30545807409840_1_alg».proof.Proof.LibColumn
import Idealize.ShloMosaic.Lib.Pipeline.Value
import Idealize.ShloMosaic.Lib.StableHlo.Run

set_option maxRecDepth 16384

noncomputable section

namespace Cert.KernelIdeal.Region

open Cert.KernelIdeal Cert.KernelIdeal.Gen Cert.KernelIdeal.Body Cert.Bridge
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-- The value of pair `j`: the perceptron, with the launch memory's weights and biases, of column `j` of the launch
    memory's 1 × 7 × 1 × 900000 feature array. -/
def valAt (c : Dev nD) (j : Fin 900000) : EReal :=
  mlpCol (m ((c.tc : Thread nD τ).loc main_arg3)) (fun a => m ((c.tc : Thread nD τ).loc main_arg4) (ix1 a))
    (m ((c.tc : Thread nD τ).loc main_arg5)) (fun a => m ((c.tc : Thread nD τ).loc main_arg6) (ix1 a))
    (m ((c.tc : Thread nD τ).loc main_arg7)) (fun a => m ((c.tc : Thread nD τ).loc main_arg8) (ix1 a))
    (m ((c.tc : Thread nD τ).loc main_arg9)) (fun a => m ((c.tc : Thread nD τ).loc main_arg10) (ix1 a))
    (fun k => m ((c.tc : Thread nD τ).loc main_arg0) (ix4 (0 : Fin 1) k (0 : Fin 1) j))

/-! ## The windows' index maps and cuts, decided over the seven points -/

/-- At every point: the features' and the result's blocks sit at block index `(0, t)`; the features' transfer moves all
    seven rows, the result's its one row, both the same number of columns, and those columns end at the array's end or
    at the block's, whichever comes first. -/
private theorem idx_facts : ∀ t : Fin cfg0.N,
    win0_0.index t 0 = 0 ∧ win0_0.index t 1 = t.val ∧ win0_9.index t 0 = 0 ∧ win0_9.index t 1 = t.val
    ∧ win0_0.xsize (grid0.coords t) 0 = 7 ∧ win0_9.xsize (grid0.coords t) 0 = 1
    ∧ win0_9.xsize (grid0.coords t) 1 = win0_0.xsize (grid0.coords t) 1
    ∧ t.val * 131072 + win0_9.xsize (grid0.coords t) 1 = min (t.val * 131072 + 131072) 900000 :=
  (by decide +kernel : ∀ t : Fin grid0.N,
    win0_0.index t 0 = 0 ∧ win0_0.index t 1 = t.val ∧ win0_9.index t 0 = 0 ∧ win0_9.index t 1 = t.val
    ∧ win0_0.xsize (grid0.coords t) 0 = 7 ∧ win0_9.xsize (grid0.coords t) 0 = 1
    ∧ win0_9.xsize (grid0.coords t) 1 = win0_0.xsize (grid0.coords t) 1
    ∧ t.val * 131072 + win0_9.xsize (grid0.coords t) 1 = min (t.val * 131072 + 131072) 900000)

/-- The eight weight and bias windows sit at block index zero at every point. -/
private theorem whole_idx : ∀ t : Fin cfg0.N,
    (∀ a, win0_1.index t a = 0) ∧ (∀ a, win0_2.index t a = 0) ∧ (∀ a, win0_3.index t a = 0) ∧ (∀ a, win0_4.index t a = 0)
    ∧ (∀ a, win0_5.index t a = 0) ∧ (∀ a, win0_6.index t a = 0) ∧ (∀ a, win0_7.index t a = 0) ∧ (∀ a, win0_8.index t a = 0) :=
  (by decide +kernel : ∀ t : Fin grid0.N,
    (∀ a, win0_1.index t a = 0) ∧ (∀ a, win0_2.index t a = 0) ∧ (∀ a, win0_3.index t a = 0) ∧ (∀ a, win0_4.index t a = 0)
    ∧ (∀ a, win0_5.index t a = 0) ∧ (∀ a, win0_6.index t a = 0) ∧ (∀ a, win0_7.index t a = 0) ∧ (∀ a, win0_8.index t a = 0))

/-! ## The arrays the reshapes before the region wrote -/

/-- The 7 × 900000 feature array the region stages is the launch array reshaped. -/
private theorem V_v0 (c : Dev nD) : (V m c main_v0 : S7x900000.Idx → EReal)
    = shapeCast S7x900000 (m ((c.tc : Thread nD τ).loc main_arg0) : S1x7x1x900000.Idx → EReal) shapeCasts_S1x7x1x900000_S7x900000 := by
  show StableHlo.after hostOps0 (fun b => m (c, b)) (Proc.devRef .tc main_v0) = _
  after_results
  rfl
/-- Each bias column the region stages is the launch bias vector reshaped to one column. -/
private theorem V_v1 (c : Dev nD) : (V m c main_v1 : S18x1.Idx → EReal)
    = shapeCast S18x1 (m ((c.tc : Thread nD τ).loc main_arg4) : S18.Idx → EReal) shapeCasts_S18_S18x1 := by
  show StableHlo.after hostOps0 (fun b => m (c, b)) (Proc.devRef .tc main_v1) = _
  after_results
  rfl
private theorem V_v2 (c : Dev nD) : (V m c main_v2 : S36x1.Idx → EReal)
    = shapeCast S36x1 (m ((c.tc : Thread nD τ).loc main_arg6) : S36.Idx → EReal) shapeCasts_S36_S36x1 := by
  show StableHlo.after hostOps0 (fun b => m (c, b)) (Proc.devRef .tc main_v2) = _
  after_results
  rfl
private theorem V_v3 (c : Dev nD) : (V m c main_v3 : S36x1.Idx → EReal)
    = shapeCast S36x1 (m ((c.tc : Thread nD τ).loc main_arg8) : S36.Idx → EReal) shapeCasts_S36_S36x1 := by
  show StableHlo.after hostOps0 (fun b => m (c, b)) (Proc.devRef .tc main_v3) = _
  after_results
  rfl
private theorem V_v4 (c : Dev nD) : (V m c main_v4 : S1x1.Idx → EReal)
    = shapeCast S1x1 (m ((c.tc : Thread nD τ).loc main_arg10) : S1.Idx → EReal) shapeCasts_S1_S1x1 := by
  show StableHlo.after hostOps0 (fun b => m (c, b)) (Proc.devRef .tc main_v4) = _
  after_results
  rfl

/-! ## The weight and bias blocks -/

/-- A weight array's block is the whole launch array: its window sits at block index zero and moves everything. -/
private theorem iblk1 (c : Dev nD) (t : Fin cfg0.N) (x : S18x7.Idx) :
    (iblk m c 1 t : Vec Ideal S18x7 .f32) x = (m ((c.tc : Thread nD τ).loc main_arg3) : S18x7.Idx → EReal) x := by
  have hi := (whole_idx t).1
  unfold iblk
  rw [View.read_apply]
  show V m c main_arg3 _ = _
  rw [V_main_arg3]
  congr 1
  funext a
  apply Fin.ext
  show win0_1.index t a * S18x7.size a + 1 * (x a).val = (x a).val
  rw [hi a]; omega

/-- A bias column's block, at `(a, 0)`, is entry `a` of the launch bias vector. -/
private theorem iblk2 (c : Dev nD) (t : Fin cfg0.N) (a : Fin 18) :
    (iblk m c 2 t : Vec Ideal S18x1 .f32) (ix2 a (0 : Fin 1)) = (m ((c.tc : Thread nD τ).loc main_arg4) : S18.Idx → EReal) (ix1 a) := by
  have hi := (whole_idx t).2.1
  unfold iblk
  rw [View.read_apply]
  show V m c main_v1 _ = _
  rw [V_v1]
  refine (congrArg _ ?_).trans (Cert.LibColumn.shapeCast_a_a1_apply _ shapeCasts_S18_S18x1 a (0 : Fin 1))
  funext b
  apply Fin.ext
  show win0_2.index t b * S18x1.size b + 1 * (ix2 a (0 : Fin 1) b).val = (ix2 a (0 : Fin 1) b).val
  rw [hi b]; omega

private theorem iblk3 (c : Dev nD) (t : Fin cfg0.N) (x : S36x18.Idx) :
    (iblk m c 3 t : Vec Ideal S36x18 .f32) x = (m ((c.tc : Thread nD τ).loc main_arg5) : S36x18.Idx → EReal) x := by
  have hi := (whole_idx t).2.2.1
  unfold iblk
  rw [View.read_apply]
  show V m c main_arg5 _ = _
  rw [V_main_arg5]
  congr 1
  funext a
  apply Fin.ext
  show win0_3.index t a * S36x18.size a + 1 * (x a).val = (x a).val
  rw [hi a]; omega

private theorem iblk4 (c : Dev nD) (t : Fin cfg0.N) (a : Fin 36) :
    (iblk m c 4 t : Vec Ideal S36x1 .f32) (ix2 a (0 : Fin 1)) = (m ((c.tc : Thread nD τ).loc main_arg6) : S36.Idx → EReal) (ix1 a) := by
  have hi := (whole_idx t).2.2.2.1
  unfold iblk
  rw [View.read_apply]
  show V m c main_v2 _ = _
  rw [V_v2]
  refine (congrArg _ ?_).trans (Cert.LibColumn.shapeCast_a_a1_apply _ shapeCasts_S36_S36x1 a (0 : Fin 1))
  funext b
  apply Fin.ext
  show win0_4.index t b * S36x1.size b + 1 * (ix2 a (0 : Fin 1) b).val = (ix2 a (0 : Fin 1) b).val
  rw [hi b]; omega

private theorem iblk5 (c : Dev nD) (t : Fin cfg0.N) (x : S36x36.Idx) :
    (iblk m c 5 t : Vec Ideal S36x36 .f32) x = (m ((c.tc : Thread nD τ).loc main_arg7) : S36x36.Idx → EReal) x := by
  have hi := (whole_idx t).2.2.2.2.1
  unfold iblk
  rw [View.read_apply]
  show V m c main_arg7 _ = _
  rw [V_main_arg7]
  congr 1
  funext a
  apply Fin.ext
  show win0_5.index t a * S36x36.size a + 1 * (x a).val = (x a).val
  rw [hi a]; omega

private theorem iblk6 (c : Dev nD) (t : Fin cfg0.N) (a : Fin 36) :
    (iblk m c 6 t : Vec Ideal S36x1 .f32) (ix2 a (0 : Fin 1)) = (m ((c.tc : Thread nD τ).loc main_arg8) : S36.Idx → EReal) (ix1 a) := by
  have hi := (whole_idx t).2.2.2.2.2.1
  unfold iblk
  rw [View.read_apply]
  show V m c main_v3 _ = _
  rw [V_v3]
  refine (congrArg _ ?_).trans (Cert.LibColumn.shapeCast_a_a1_apply _ shapeCasts_S36_S36x1 a (0 : Fin 1))
  funext b
  apply Fin.ext
  show win0_6.index t b * S36x1.size b + 1 * (ix2 a (0 : Fin 1) b).val = (ix2 a (0 : Fin 1) b).val
  rw [hi b]; omega

private theorem iblk7 (c : Dev nD) (t : Fin cfg0.N) (x : S1x36.Idx) :
    (iblk m c 7 t : Vec Ideal S1x36 .f32) x = (m ((c.tc : Thread nD τ).loc main_arg9) : S1x36.Idx → EReal) x := by
  have hi := (whole_idx t).2.2.2.2.2.2.1
  unfold iblk
  rw [View.read_apply]
  show V m c main_arg9 _ = _
  rw [V_main_arg9]
  congr 1
  funext a
  apply Fin.ext
  show win0_7.index t a * S1x36.size a + 1 * (x a).val = (x a).val
  rw [hi a]; omega

private theorem iblk8 (c : Dev nD) (t : Fin cfg0.N) (a : Fin 1) :
    (iblk m c 8 t : Vec Ideal S1x1 .f32) (ix2 a (0 : Fin 1)) = (m ((c.tc : Thread nD τ).loc main_arg10) : S1.Idx → EReal) (ix1 a) := by
  have hi := (whole_idx t).2.2.2.2.2.2.2
  unfold iblk
  rw [View.read_apply]
  show V m c main_v4 _ = _
  rw [V_v4]
  refine (congrArg _ ?_).trans (Cert.LibColumn.shapeCast_a_a1_apply _ shapeCasts_S1_S1x1 a (0 : Fin 1))
  funext b
  apply Fin.ext
  show win0_8.index t b * S1x1.size b + 1 * (ix2 a (0 : Fin 1) b).val = (ix2 a (0 : Fin 1) b).val
  rw [hi b]; omega

/-! ## The features' block -/

/-- Entry `y` of the features' block at point `t` is the launch array's entry `(0, y 0, 0, 131072 t + y 1)`. -/
private theorem iblk0 (c : Dev nD) (t : Fin cfg0.N) (y : (win0_0.xblock (grid0.coords t)).Idx) (k : Fin 7) (j : Fin 900000)
    (hk : k.val = (y 0).val) (hj : j.val = t.val * 131072 + (y 1).val) :
    iblk m c 0 t y = (m ((c.tc : Thread nD τ).loc main_arg0) : S1x7x1x900000.Idx → EReal) (ix4 (0 : Fin 1) k (0 : Fin 1) j) := by
  obtain ⟨i00, i01, -⟩ := idx_facts t
  unfold iblk
  rw [View.read_apply]
  show V m c main_v0 _ = _
  rw [V_v0]
  refine shapeCast_apply _ _ _ (ix4 (0 : Fin 1) k (0 : Fin 1) j) ?_
  rw [Shape.rowMajor_val_four, Shape.rowMajor_val_two]
  show ((0 * 7 + k.val) * 1 + 0) * 900000 + j.val
    = (win0_0.index t 0 * 7 + 1 * (y 0).val) * 900000 + (win0_0.index t 1 * 131072 + 1 * (y 1).val)
  rw [i00, i01, hk, hj]; omega

/-! ## The perceptron's arguments, one by one -/

/-- The perceptron of one column depends on its nine arguments only through their values. -/
private theorem mlpCol_congr {W1 W1' : (⟨2, ![18, 7]⟩ : Shape).Idx → EReal} {b1 b1' : Fin 18 → EReal}
    {W2 W2' : (⟨2, ![36, 18]⟩ : Shape).Idx → EReal} {b2 b2' : Fin 36 → EReal}
    {W3 W3' : (⟨2, ![36, 36]⟩ : Shape).Idx → EReal} {b3 b3' : Fin 36 → EReal}
    {W4 W4' : (⟨2, ![1, 36]⟩ : Shape).Idx → EReal} {b4 b4' : Fin 1 → EReal} {x x' : Fin 7 → EReal}
    (h1 : W1 = W1') (g1 : b1 = b1') (h2 : W2 = W2') (g2 : b2 = b2') (h3 : W3 = W3') (g3 : b3 = b3')
    (h4 : W4 = W4') (g4 : b4 = b4') (hx : x = x') :
    mlpCol W1 b1 W2 b2 W3 b3 W4 b4 x = mlpCol W1' b1' W2' b2' W3' b3' W4' b4' x' := by
  subst h1 g1 h2 g2 h3 g3 h4 g4 hx; rfl

/-! ## What a point writes back -/

/-- Entry `y` of what point `t` writes back is the value of pair `131072 t + y 1`. -/
private theorem flushed_at (c : Dev nD) (t : Fin cfg0.N) (y : (win0_9.xblock (grid0.coords t)).Idx) (j : Fin 900000)
    (hj : j.val = t.val * 131072 + (y 1).val) :
    (dats (F := Ideal) m 0 c).flushed 9 t y = valAt m c j := by
  obtain ⟨-, -, -, -, h7, h1, hq, -⟩ := idx_facts t
  have hy0 : (y 0).val < win0_9.xsize (grid0.coords t) 0 := (y 0).isLt
  have hy1 : (y 1).val < win0_9.xsize (grid0.coords t) 1 := (y 1).isLt
  have hq131 : (y 1).val < 131072 := Nat.lt_of_lt_of_le hy1 (win0_9.xsize_le (grid0.coords t) 1)
  have hx : win0_9.xinj (grid0.coords t) y = ix2 (0 : Fin 1) (⟨(y 1).val, hq131⟩ : Fin 131072) :=
    funext fun a => Fin.ext (by
      match a with
      | ⟨0, _⟩ => show (y 0).val = 0; omega
      | ⟨1, _⟩ => rfl)
  show (dats (F := Ideal) m 0 c).after 9 t (win0_9.xinj (grid0.coords t) y) = _
  rw [after0_9, hx, pay_col]
  unfold valAt
  refine mlpCol_congr (funext (iblk1 m c t)) (funext (iblk2 m c t)) (funext (iblk3 m c t)) (funext (iblk4 m c t))
    (funext (iblk5 m c t)) (funext (iblk6 m c t)) (funext (iblk7 m c t)) (funext (iblk8 m c t)) (funext fun k => ?_)
  -- column `y 1` of the filled-out block is inside the part the fetch moved
  have hm : win0_0.moved (grid0.coords t) (ix2 k (⟨(y 1).val, hq131⟩ : Fin 131072)) = true :=
    (win0_0.moved_iff _ _).mpr fun a => by
      match a with
      | ⟨0, _⟩ => show k.val < win0_0.xsize (grid0.coords t) 0; have := k.isLt; omega
      | ⟨1, _⟩ => show (y 1).val < win0_0.xsize (grid0.coords t) 1; omega
  unfold xfull Window.fill
  rw [dif_pos hm]
  exact iblk0 m c t _ k j rfl hj

/-! ## The whole result array -/

/-- The result array as one function of the launch memory: entry `(0, j)` is the value of pair `j`. -/
private def resultFn (c : Dev nD) : S1x900000.Idx → EReal := fun i => valAt m c ⟨(i 1).val, (i 1).isLt⟩

/-- So what point `t` writes back is that function read through the point's block of the result array. -/
private theorem flushed_eq (c : Dev nD) (t : Fin cfg0.N) :
    (dats (F := Ideal) m 0 c).flushed 9 t = ((cfg0.win 9).blk t).view.read (Elt Ideal) (resultFn m c) := by
  obtain ⟨-, -, -, i91, -⟩ := idx_facts t
  funext y
  rw [View.read_apply]
  refine flushed_at m c t y _ ?_
  show win0_9.index t 1 * 131072 + 1 * (y 1).val = t.val * 131072 + (y 1).val
  rw [i91]; omega

/-- After the region's seven write-backs the result array holds, at `(0, j)`, the value of pair `j`. -/
theorem final_vals (c : Dev nD) (j : Fin 900000) :
    (dats (F := Ideal) m 0 c).arrAt 9 cfg0.N (ix2 (0 : Fin 1) j) = valAt m c j := by
  have hN : cfg0.N = 7 := N_0
  have hj : j.val < 900000 := j.isLt
  -- the point whose block holds column `j`
  let t : Fin cfg0.N := ⟨j.val / 131072, by rw [hN]; omega⟩
  obtain ⟨-, -, i90, i91, -, s90, -, s91⟩ := idx_facts t
  refine ((dats (F := Ideal) m 0 c).arrAt_apply_of_mem 9 (resultFn m c) (fun t _ => flushed_eq m c t) cfg0.N t
    (ix2 (0 : Fin 1) j) t.isLt (flush0_9 t) ?_).trans rfl
  show ix2 (0 : Fin 1) j ∈ ((View.whole main_v5).slice (win0_9.rect t)).set
  rw [View.set_slice_whole, Rect.mem_set_unit]
  intro a
  match a with
  | ⟨0, _⟩ =>
    show win0_9.index t 0 * 1 ≤ 0 ∧ 0 < win0_9.index t 0 * 1 + win0_9.xsize (grid0.coords t) 0
    rw [i90, s90]; omega
  | ⟨1, _⟩ =>
    show win0_9.index t 1 * 131072 ≤ j.val ∧ j.val < win0_9.index t 1 * 131072 + win0_9.xsize (grid0.coords t) 1
    rw [i91]
    have ht : t.val = j.val / 131072 := rfl
    omega

end Cert.KernelIdeal.Region

end
-- ==== Proof.Assemble.lean ====
/-
  The two programs' results are one function of the arguments.

  The reference's two results are the row and column maxima of its grid (`rRowMax`, `rColMax`) of ITS value vector and the
  index array; the kernel program's are `kRowMax`, `kColMax` of the region's result array and the same index array. The
  value vectors agree entry by entry (both are the perceptron of the pair's feature column), the grids agree cell by cell
  when the index array is in range, and maxima of equal grids are equal.
-/
import proofs.«427928_j30545807409840_1_alg».proof.Proof.Spec
import proofs.«427928_j30545807409840_1_alg».proof.Proof.GridEq
import proofs.«427928_j30545807409840_1_alg».proof.Proof.MaxEq
import proofs.«427928_j30545807409840_1_alg».proof.Proof.MlpCols
import proofs.«427928_j30545807409840_1_alg».proof.Proof.RegionValue
import proofs.«427928_j30545807409840_1_alg».proof.Proof.TailKI
import proofs.«427928_j30545807409840_1_alg».proof.Proof.Gen.ReferenceIdeal.Read
import Idealize.ShloMosaic.Lib.Pipeline.Value

set_option maxRecDepth 16384

noncomputable section

namespace Cert.Assemble

open Idealize.ShloMosaic Idealize.ShloMosaic.TcCoe Idealize.ShloMosaic.ValueIdx Idealize.SL.Sem
open Cert.Bridge

variable [Cert.KernelIdeal.Facts] [Cert.ReferenceIdeal.Facts]

/-! ## The reference's results are the maxima of its grid -/

theorem ref_rows (x0 : (⟨Cert.ReferenceIdeal.S1x7x1x900000, .f32⟩ : BufTy).Contents (Elt Ideal)) (x2 : (⟨Cert.ReferenceIdeal.S2x900000, .i32⟩ : BufTy).Contents (Elt Ideal))
    (x3 : (⟨Cert.ReferenceIdeal.S18x7, .f32⟩ : BufTy).Contents (Elt Ideal)) (x4 : (⟨Cert.ReferenceIdeal.S18, .f32⟩ : BufTy).Contents (Elt Ideal))
    (x5 : (⟨Cert.ReferenceIdeal.S36x18, .f32⟩ : BufTy).Contents (Elt Ideal)) (x6 : (⟨Cert.ReferenceIdeal.S36, .f32⟩ : BufTy).Contents (Elt Ideal))
    (x7 : (⟨Cert.ReferenceIdeal.S36x36, .f32⟩ : BufTy).Contents (Elt Ideal)) (x8 : (⟨Cert.ReferenceIdeal.S36, .f32⟩ : BufTy).Contents (Elt Ideal))
    (x9 : (⟨Cert.ReferenceIdeal.S1x36, .f32⟩ : BufTy).Contents (Elt Ideal)) (x10 : (⟨Cert.ReferenceIdeal.S1, .f32⟩ : BufTy).Contents (Elt Ideal)) :
    Cert.ReferenceIdeal.Read.val_main_v42 (F := Ideal) x0 x2 x3 x4 x5 x6 x7 x8 x9 x10
      = rRowMax (Cert.ReferenceIdeal.Read.val_main_v20 (F := Ideal) x0 x3 x4 x5 x6 x7 x8 x9 x10) x2 := rfl

theorem ref_cols (x0 : (⟨Cert.ReferenceIdeal.S1x7x1x900000, .f32⟩ : BufTy).Contents (Elt Ideal)) (x2 : (⟨Cert.ReferenceIdeal.S2x900000, .i32⟩ : BufTy).Contents (Elt Ideal))
    (x3 : (⟨Cert.ReferenceIdeal.S18x7, .f32⟩ : BufTy).Contents (Elt Ideal)) (x4 : (⟨Cert.ReferenceIdeal.S18, .f32⟩ : BufTy).Contents (Elt Ideal))
    (x5 : (⟨Cert.ReferenceIdeal.S36x18, .f32⟩ : BufTy).Contents (Elt Ideal)) (x6 : (⟨Cert.ReferenceIdeal.S36, .f32⟩ : BufTy).Contents (Elt Ideal))
    (x7 : (⟨Cert.ReferenceIdeal.S36x36, .f32⟩ : BufTy).Contents (Elt Ideal)) (x8 : (⟨Cert.ReferenceIdeal.S36, .f32⟩ : BufTy).Contents (Elt Ideal))
    (x9 : (⟨Cert.ReferenceIdeal.S1x36, .f32⟩ : BufTy).Contents (Elt Ideal)) (x10 : (⟨Cert.ReferenceIdeal.S1, .f32⟩ : BufTy).Contents (Elt Ideal)) :
    Cert.ReferenceIdeal.Read.val_main_v44 (F := Ideal) x0 x2 x3 x4 x5 x6 x7 x8 x9 x10
      = rColMax (Cert.ReferenceIdeal.Read.val_main_v20 (F := Ideal) x0 x3 x4 x5 x6 x7 x8 x9 x10) x2 := rfl

/-! ## Equal grids, equal maxima -/

theorem rows_agree (v : FVec Ideal Cert.KernelIdeal.S900000 .f32) (x2 : IVec Cert.KernelIdeal.S2x900000 32) (hx2 : InRange x2) :
    rRowMax v x2 = kRowMax v x2 := by
  unfold rRowMax kRowMax
  exact rowMax_eq _ _ (fun r c => grid_eq v x2 hx2 r c)

theorem cols_agree (v : FVec Ideal Cert.KernelIdeal.S900000 .f32) (x2 : IVec Cert.KernelIdeal.S2x900000 32) (hx2 : InRange x2) :
    rColMax v x2 = kColMax v x2 := by
  unfold rColMax kColMax
  exact colMax_eq _ _ (fun r c => grid_eq v x2 hx2 r c)

/-! ## The value vectors agree -/

section Vals

open Cert.KernelIdeal

variable (m : (ℓ : Loc nD τ sig) → Buf (Elt Ideal) ℓ)

/-- The kernel program's value vector at pair `j`: the reshaped result array at `j` is the array at `(0, j)`. -/
theorem valsOut_apply (c : Dev nD) (j : Fin 900000) :
    Cert.KernelIdeal.Tail.valsOut m c (ix1 j) = Cert.KernelIdeal.Region.valAt m c j := by
  unfold Cert.KernelIdeal.Tail.valsOut
  refine (shapeCast_apply _ _ (ix1 j) (ix2 (0 : Fin 1) j) ?_).trans (Cert.KernelIdeal.Region.final_vals m c j)
  rewrite [Shape.rowMajor_val_two, Shape.rowMajor_val_one]
  show 0 * 900000 + j.val = j.val
  omega

/-- The reference's value vector, at arguments equal to the kernel program's launch memory's, is the kernel program's. -/
theorem vals_agree (c : Dev nD) (x0 : (⟨Cert.ReferenceIdeal.S1x7x1x900000, .f32⟩ : BufTy).Contents (Elt Ideal))
    (x3 : (⟨Cert.ReferenceIdeal.S18x7, .f32⟩ : BufTy).Contents (Elt Ideal)) (x4 : (⟨Cert.ReferenceIdeal.S18, .f32⟩ : BufTy).Contents (Elt Ideal))
    (x5 : (⟨Cert.ReferenceIdeal.S36x18, .f32⟩ : BufTy).Contents (Elt Ideal)) (x6 : (⟨Cert.ReferenceIdeal.S36, .f32⟩ : BufTy).Contents (Elt Ideal))
    (x7 : (⟨Cert.ReferenceIdeal.S36x36, .f32⟩ : BufTy).Contents (Elt Ideal)) (x8 : (⟨Cert.ReferenceIdeal.S36, .f32⟩ : BufTy).Contents (Elt Ideal))
    (x9 : (⟨Cert.ReferenceIdeal.S1x36, .f32⟩ : BufTy).Contents (Elt Ideal)) (x10 : (⟨Cert.ReferenceIdeal.S1, .f32⟩ : BufTy).Contents (Elt Ideal))
    (h0 : x0 = m ((c.tc : Thread nD τ).loc main_arg0)) (h3 : x3 = m ((c.tc : Thread nD τ).loc main_arg3))
    (h4 : x4 = m ((c.tc : Thread nD τ).loc main_arg4)) (h5 : x5 = m ((c.tc : Thread nD τ).loc main_arg5))
    (h6 : x6 = m ((c.tc : Thread nD τ).loc main_arg6)) (h7 : x7 = m ((c.tc : Thread nD τ).loc main_arg7))
    (h8 : x8 = m ((c.tc : Thread nD τ).loc main_arg8)) (h9 : x9 = m ((c.tc : Thread nD τ).loc main_arg9))
    (h10 : x10 = m ((c.tc : Thread nD τ).loc main_arg10)) :
    Cert.ReferenceIdeal.Read.val_main_v20 (F := Ideal) x0 x3 x4 x5 x6 x7 x8 x9 x10 = Cert.KernelIdeal.Tail.valsOut m c := by
  subst h0 h3 h4 h5 h6 h7 h8 h9 h10
  funext i
  obtain ⟨j, rfl⟩ : ∃ j : Fin 900000, i = ix1 j := ⟨i 0, eq_ix1 i⟩
  rw [ref_col]
  exact (valsOut_apply m c j).symm

end Vals

end Cert.Assemble

end
-- ==== Proof.lean ====
/-
  The certificate's claim.

  The kernel program computes, for each of 900000 pairs, a four-layer perceptron of the pair's seven features (one
  pallas_call over seven column blocks, the last cut at the array's end), then fills a 1000 × 1000 grid from the pairs'
  (row, column) indices — last writer wins, a sentinel where nobody writes — and returns the grid's row maxima and column
  maxima. The reference computes the same perceptron by whole-array matrix products and fills the grid by one overwriting
  scatter. Over the extended reals, under the precondition that every float input is finite and every index lies in
  [0, 1000), the two return the same maxima:

  * the perceptron of a column is the same sum-of-products expression on both sides (a matrix product into a zero
    accumulator and a host dot product are the same finite sum; a column of the kernel's result depends on that column of
    the features only, so the words past the array's end in the last block never reach a written column);
  * with indices in range, "the last pair naming cell (r, c)" and "the greatest pair number recorded for 1000 r + c" are the
    same pair, so the two grids agree cell by cell, and equal grids have equal maxima.

  The three frames: each program runs to its end without a fault and leaves its arguments as it found them. For the two
  kernel programs this is the pipeline's frame with the result window forgotten; for the reference, its run. The
  idealization changed no operation, so `preserves` has nothing to state.
-/
import proofs.«427928_j30545807409840_1_alg».proof.Defs
import proofs.«427928_j30545807409840_1_alg».proof.Proof.Gen.Kernel
import proofs.«427928_j30545807409840_1_alg».proof.Proof.Gen.KernelIdeal
import proofs.«427928_j30545807409840_1_alg».proof.Proof.Gen.ReferenceIdeal
import proofs.«427928_j30545807409840_1_alg».proof.Proof.Gen.Pre_finite_inputs
import proofs.«427928_j30545807409840_1_alg».proof.Proof.Gen.ReferenceIdeal.Run
import proofs.«427928_j30545807409840_1_alg».proof.Proof.Gen.ReferenceIdeal.Read
import proofs.«427928_j30545807409840_1_alg».proof.Proof.BodyK
import proofs.«427928_j30545807409840_1_alg».proof.Proof.BodyKI
import proofs.«427928_j30545807409840_1_alg».proof.Proof.ExactKI
import proofs.«427928_j30545807409840_1_alg».proof.Proof.TailKI
import proofs.«427928_j30545807409840_1_alg».proof.Proof.PreRange
import proofs.«427928_j30545807409840_1_alg».proof.Proof.Assemble
import Idealize.ShloMosaic.Adequacy
import Idealize.ShloMosaic.Init

set_option maxRecDepth 16384

noncomputable section

namespace Cert.Proof

open Idealize.ShloMosaic Idealize.ShloMosaic.TcCoe Idealize.SL.Sem Cert.Bridge

theorem frame_k : Cert.frame_Kernel := fun m ρ _ => Cert.Kernel.Body.frame m ρ

theorem frame_ki : Cert.frame_KernelIdeal := fun m ρ _ => Cert.KernelIdeal.Body.frame m ρ

theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both programs run; the kernel program's results are the maxima `kRowMax`, `kColMax` of its region's values and the
    index array, and so are the reference's: its value vector is the kernel's, its grid agrees with the kernel's cell by
    cell because the precondition puts every index in range, and equal grids have equal maxima. -/
theorem algebraic : Cert.algebraic_KernelIdeal_ReferenceIdeal := by
  intro m ρ m' ρ' hpre hagree
  have hx2 : ∀ c : Dev Cert.KernelIdeal.nD, InRange (m ((c.tc : Thread Cert.KernelIdeal.nD Cert.KernelIdeal.τ).loc Cert.KernelIdeal.main_arg2)) := fun c =>
    inRange_of_pre _ _ _ _ _ _ _ _ _ _ _ (hpre c)
  refine ⟨fun c => kRowMax (Cert.KernelIdeal.Tail.valsOut m c) (m ((c.tc : Thread Cert.KernelIdeal.nD Cert.KernelIdeal.τ).loc Cert.KernelIdeal.main_arg2)),
    fun c => kColMax (Cert.KernelIdeal.Tail.valsOut m c) (m ((c.tc : Thread Cert.KernelIdeal.nD Cert.KernelIdeal.τ).loc Cert.KernelIdeal.main_arg2)), ?_, ?_⟩
  · exact (θ_run Cert.KernelIdeal.defs _ _).mono (fun r h c => ⟨((h c).2 Cert.KernelIdeal.main_v35 (Pipeline.mem_restRefs_of Cert.KernelIdeal.main_v35 (by decide) (by decide))).trans (Cert.KernelIdeal.Tail.tail_rows m c),
      ((h c).2 Cert.KernelIdeal.main_v36 (Pipeline.mem_restRefs_of Cert.KernelIdeal.main_v36 (by decide) (by decide))).trans (Cert.KernelIdeal.Tail.tail_cols m c),
      ((h c).2 Cert.KernelIdeal.main_arg0 (Pipeline.mem_restRefs_of Cert.KernelIdeal.main_arg0 (by decide) (by decide))).trans (Cert.KernelIdeal.Gen.W_main_arg0 m (Cert.KernelIdeal.Body.dats m) c),
      ((h c).2 Cert.KernelIdeal.main_arg1 (Pipeline.mem_restRefs_of Cert.KernelIdeal.main_arg1 (by decide) (by decide))).trans (Cert.KernelIdeal.Gen.W_main_arg1 m (Cert.KernelIdeal.Body.dats m) c),
      ((h c).2 Cert.KernelIdeal.main_arg2 (Pipeline.mem_restRefs_of Cert.KernelIdeal.main_arg2 (by decide) (by decide))).trans (Cert.KernelIdeal.Gen.W_main_arg2 m (Cert.KernelIdeal.Body.dats m) c),
      ((h c).1 1).trans (((Cert.KernelIdeal.Body.dats m 0 c).arrAt_in 1 rfl _).trans ((Cert.KernelIdeal.Body.A_eq m c 1).trans (Cert.KernelIdeal.Gen.V_main_arg3 m c))),
      ((h c).2 Cert.KernelIdeal.main_arg4 (Pipeline.mem_restRefs_of Cert.KernelIdeal.main_arg4 (by decide) (by decide))).trans (Cert.KernelIdeal.Gen.W_main_arg4 m (Cert.KernelIdeal.Body.dats m) c),
      ((h c).1 3).trans (((Cert.KernelIdeal.Body.dats m 0 c).arrAt_in 3 rfl _).trans ((Cert.KernelIdeal.Body.A_eq m c 3).trans (Cert.KernelIdeal.Gen.V_main_arg5 m c))),
      ((h c).2 Cert.KernelIdeal.main_arg6 (Pipeline.mem_restRefs_of Cert.KernelIdeal.main_arg6 (by decide) (by decide))).trans (Cert.KernelIdeal.Gen.W_main_arg6 m (Cert.KernelIdeal.Body.dats m) c),
      ((h c).1 5).trans (((Cert.KernelIdeal.Body.dats m 0 c).arrAt_in 5 rfl _).trans ((Cert.KernelIdeal.Body.A_eq m c 5).trans (Cert.KernelIdeal.Gen.V_main_arg7 m c))),
      ((h c).2 Cert.KernelIdeal.main_arg8 (Pipeline.mem_restRefs_of Cert.KernelIdeal.main_arg8 (by decide) (by decide))).trans (Cert.KernelIdeal.Gen.W_main_arg8 m (Cert.KernelIdeal.Body.dats m) c),
      ((h c).1 7).trans (((Cert.KernelIdeal.Body.dats m 0 c).arrAt_in 7 rfl _).trans ((Cert.KernelIdeal.Body.A_eq m c 7).trans (Cert.KernelIdeal.Gen.V_main_arg9 m c))),
      ((h c).2 Cert.KernelIdeal.main_arg10 (Pipeline.mem_restRefs_of Cert.KernelIdeal.main_arg10 (by decide) (by decide))).trans (Cert.KernelIdeal.Gen.W_main_arg10 m (Cert.KernelIdeal.Body.dats m) c)⟩) (Cert.KernelIdeal.Exact.run_main m ρ)
  · refine (θ_run Cert.ReferenceIdeal.defs _ _).mono (fun r h c => ⟨(h c).1.trans ?_, (h c).2.1.trans ?_, (h c).2.2⟩)
      (Cert.ReferenceIdeal.Value.run (F := Ideal) m' ρ')
    · obtain ⟨a0, a1, a2, a3, a4, a5, a6, a7, a8, a9, a10⟩ := hagree c
      rw [Cert.ReferenceIdeal.Read.val_main_v42_eq, Cert.Assemble.ref_rows,
        Cert.Assemble.vals_agree m c _ _ _ _ _ _ _ _ _ a0 a3 a4 a5 a6 a7 a8 a9 a10, a2]
      exact Cert.Assemble.rows_agree _ _ (hx2 c)
    · obtain ⟨a0, a1, a2, a3, a4, a5, a6, a7, a8, a9, a10⟩ := hagree c
      rw [Cert.ReferenceIdeal.Read.val_main_v44_eq, Cert.Assemble.ref_cols,
        Cert.Assemble.vals_agree m c _ _ _ _ _ _ _ _ _ a0 a3 a4 a5 a6 a7 a8 a9 a10, a2]
      exact Cert.Assemble.cols_agree _ _ (hx2 c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
